-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v23)) (v2 : (c : Dev Cert.KernelIdeal.nD) → Buf (Elt Ideal) ((c.tc : Thread Cert.KernelIdeal.nD Cert.KernelIdeal.τ).loc Cert.KernelIdeal.main_v17)) (v3 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_v19) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_v63) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3 : Shape := ⟨2, ![8192, 3]⟩
abbrev S3x3 : Shape := ⟨2, ![3, 3]⟩
abbrev S33550336 : Shape := ⟨1, ![33550336]⟩
abbrev S_ : Shape := ⟨0, ![]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel
  bcast_S_S3x3 : S_.BroadcastsInDim S3x3 (![] : Fin 0 → Fin S3x3.rank)
  reducesTo_S3x3_S_d0_1 : S3x3.ReducesTo [0, 1] S_
  bcast_S_S33550336 : S_.BroadcastsInDim S33550336 (![] : Fin 0 → Fin S33550336.rank)
  reducesTo_S33550336_S_d0 : S33550336.ReducesTo [0] S_

variable [Facts]

def fn_part1 {F : FTy → Type} [FloatOps F] (main_arg3 : IVec S33550336 32) (main_v15 : IVec S_ 1) (main_c_5 : IVec S_ 32) : IVec S_ 1 :=
  let main_v16 : IVec S33550336 32 := broadcastInDim S33550336 ![] bcast_S_S33550336 main_c_5
  let main_v17 : IVec S33550336 1 := cmpi .sge main_arg3 main_v16
  let main_c_6 : IVec S_ 32 := constantI S_ 32 8192#32
  let main_v18 : IVec S33550336 32 := broadcastInDim S33550336 ![] bcast_S_S33550336 main_c_6
  let main_v19 : IVec S33550336 1 := cmpi .slt main_arg3 main_v18
  let main_v20 : IVec S33550336 1 := andi main_v17 main_v19
  let main_c_7 : IVec S_ 1 := constantI S_ 1 1#1
  let main_v21 : IVec S_ 1 := (fun x v => Host.reduce IntOp.andi x v reducesTo_S33550336_S_d0 h_S_) main_v20 main_c_7
  let main_v22 : IVec S_ 1 := andi main_v15 main_v21
  main_v22

def fn {F : FTy → Type} [FloatOps F] (main_arg0 : FVec F S8192x3 .f32) (main_arg1 : FVec F S3x3 .f32) (main_arg2 : IVec S33550336 32) (main_arg3 : IVec S33550336 32) : IVec S_ 1 :=
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_c : IVec S_ 1 := constantI S_ 1 1#1
  let main_v3 : IVec S_ 1 := (fun x v => Host.reduce IntOp.andi x v reducesTo_S8192x3_S_d0_1 h_S_) main_v2 main_c
  let main_v4 : FVec F S3x3 .f32 := Host.absf main_arg1
  let main_cst_0 : FVec F S_ .f32 := constant S_ .f32 0x7F800000#32
  let main_v5 : FVec F S3x3 .f32 := broadcastInDim S3x3 ![] bcast_S_S3x3 main_cst_0
  let main_v6 : IVec S3x3 1 := cmpf .olt main_v4 main_v5
  let main_c_1 : IVec S_ 1 := constantI S_ 1 1#1
  let main_v7 : IVec S_ 1 := (fun x v => Host.reduce IntOp.andi x v reducesTo_S3x3_S_d0_1 h_S_) main_v6 main_c_1
  let main_v8 : IVec S_ 1 := andi main_v3 main_v7
  let main_c_2 : IVec S_ 32 := constantI S_ 32 0#32
  let main_v9 : IVec S33550336 32 := broadcastInDim S33550336 ![] bcast_S_S33550336 main_c_2
  let main_v10 : IVec S33550336 1 := cmpi .sge main_arg2 main_v9
  let main_c_3 : IVec S_ 32 := constantI S_ 32 8192#32
  let main_v11 : IVec S33550336 32 := broadcastInDim S33550336 ![] bcast_S_S33550336 main_c_3
  let main_v12 : IVec S33550336 1 := cmpi .slt main_arg2 main_v11
  let main_v13 : IVec S33550336 1 := andi main_v10 main_v12
  let main_c_4 : IVec S_ 1 := constantI S_ 1 1#1
  let main_v14 : IVec S_ 1 := (fun x v => Host.reduce IntOp.andi x v reducesTo_S33550336_S_d0 h_S_) main_v13 main_c_4
  let main_v15 : IVec S_ 1 := andi main_v8 main_v14
  let main_c_5 : IVec S_ 32 := constantI S_ 32 0#32
  fn_part1 (F := F) main_arg3 main_v15 main_c_5
-- ==== Kernel.lean ====
abbrev S8192x3 : Shape := ⟨2, ![8192, 3]⟩
abbrev S3x3 : Shape := ⟨2, ![3, 3]⟩
abbrev S33550336 : Shape := ⟨1, ![33550336]⟩
abbrev S_ : Shape := ⟨0, ![]⟩
abbrev S33554432 : Shape := ⟨1, ![33554432]⟩
abbrev S3x8192 : Shape := ⟨2, ![3, 8192]⟩
abbrev S33554432x1 : Shape := ⟨2, ![33554432, 1]⟩
abbrev S1 : Shape := ⟨1, ![1]⟩
abbrev S1x1 : Shape := ⟨2, ![1, 1]⟩
abbrev S3x33554432 : Shape := ⟨2, ![3, 33554432]⟩
abbrev S3x262144x128 : Shape := ⟨3, ![3, 262144, 128]⟩
abbrev S262144x128 : Shape := ⟨2, ![262144, 128]⟩
abbrev S3x2048x128 : Shape := ⟨3, ![3, 2048, 128]⟩
abbrev S2048x128 : Shape := ⟨2, ![2048, 128]⟩
abbrev S1x2048x128 : Shape := ⟨3, ![1, 2048, 128]⟩
abbrev S33554432x3 : Shape := ⟨2, ![33554432, 3]⟩
abbrev S33550336x3 : Shape := ⟨2, ![33550336, 3]⟩

abbrev nBuf : Space → Nat
  | .hbm => 81
  | .vmem => 21
  | .smem => 0
  | _ => 0

abbrev bufTy : (tb : Table) → Fin (tcTables nBuf tb) → BufTy
  | .hbm, ⟨0, _⟩ => ⟨S8192x3, .f32⟩
  | .hbm, ⟨1, _⟩ => ⟨S3x3, .f32⟩
  | .hbm, ⟨2, _⟩ => ⟨S33550336, .i32⟩
  | .hbm, ⟨3, _⟩ => ⟨S33550336, .i32⟩
  | .hbm, ⟨4, _⟩ => ⟨S_, .i32⟩
  | .hbm, ⟨5, _⟩ => ⟨S_, .i32⟩
  | .hbm, ⟨6, _⟩ => ⟨S33554432, .i32⟩
  | .hbm, ⟨7, _⟩ => ⟨S_, .i32⟩
  | .hbm, ⟨8, _⟩ => ⟨S_, .i32⟩
  | .hbm, ⟨9, _⟩ => ⟨S33554432, .i32⟩
  | .hbm, ⟨10, _⟩ => ⟨S3x8192, .f32⟩
  | .hbm, ⟨11, _⟩ => ⟨S_, .i32⟩
  | .hbm, ⟨12, _⟩ => ⟨S33554432, .i32⟩
  | .hbm, ⟨13, _⟩ => ⟨S33554432, .i1⟩
  | .hbm, ⟨14, _⟩ => ⟨S_, .i32⟩
  | .hbm, ⟨15, _⟩ => ⟨S33554432, .i32⟩
  | .hbm, ⟨16, _⟩ => ⟨S33554432, .i32⟩
  | .hbm, ⟨17, _⟩ => ⟨S33554432, .i32⟩
  | .hbm, ⟨18, _⟩ => ⟨S33554432x1, .i32⟩
  | .hbm, ⟨19, _⟩ => ⟨S1, .i32⟩
  | .hbm, ⟨20, _⟩ => ⟨S_, .i32⟩
  | .hbm, ⟨21, _⟩ => ⟨S33554432x1, .i32⟩
  | .hbm, ⟨22, _⟩ => ⟨S33554432x1, .i1⟩
  | .hbm, ⟨23, _⟩ => ⟨S1x1, .i32⟩
  | .hbm, ⟨24, _⟩ => ⟨S33554432x1, .i32⟩
  | .hbm, ⟨25, _⟩ => ⟨S33554432x1, .i1⟩
  | .hbm, ⟨26, _⟩ => ⟨S33554432x1, .i1⟩
  | .hbm, ⟨27, _⟩ => ⟨S_, .i1⟩
  | .hbm, ⟨28, _⟩ => ⟨S33554432, .i1⟩
  | .hbm, ⟨29, _⟩ => ⟨S3x33554432, .f32⟩
  | .hbm, ⟨30, _⟩ => ⟨S3x33554432, .i1⟩
  | .hbm, ⟨31, _⟩ => ⟨S_, .f32⟩
  | .hbm, ⟨32, _⟩ => ⟨S3x33554432, .f32⟩
  | .hbm, ⟨33, _⟩ => ⟨S3x33554432, .f32⟩
  | .hbm, ⟨34, _⟩ => ⟨S3x262144x128, .f32⟩
  | .hbm, ⟨35, _⟩ => ⟨S_, .i32⟩
  | .hbm, ⟨36, _⟩ => ⟨S33554432, .i32⟩
  | .hbm, ⟨37, _⟩ => ⟨S33554432, .i1⟩
  | .hbm, ⟨38, _⟩ => ⟨S_, .i32⟩
  | .hbm, ⟨39, _⟩ => ⟨S33554432, .i32⟩
  | .hbm, ⟨40, _⟩ => ⟨S33554432, .i32⟩
  | .hbm, ⟨41, _⟩ => ⟨S33554432, .i32⟩
  | .hbm, ⟨42, _⟩ => ⟨S33554432x1, .i32⟩
  | .hbm, ⟨43, _⟩ => ⟨S1, .i32⟩
  | .hbm, ⟨44, _⟩ => ⟨S_, .i32⟩
  | .hbm, ⟨45, _⟩ => ⟨S33554432x1, .i32⟩
  | .hbm, ⟨46, _⟩ => ⟨S33554432x1, .i1⟩
  | .hbm, ⟨47, _⟩ => ⟨S1x1, .i32⟩
  | .hbm, ⟨48, _⟩ => ⟨S33554432x1, .i32⟩
  | .hbm, ⟨49, _⟩ => ⟨S33554432x1, .i1⟩
  | .hbm, ⟨50, _⟩ => ⟨S33554432x1, .i1⟩
  | .hbm, ⟨51, _⟩ => ⟨S_, .i1⟩
  | .hbm, ⟨52, _⟩ => ⟨S33554432, .i1⟩
  | .hbm, ⟨53, _⟩ => ⟨S3x33554432, .f32⟩
  | .hbm, ⟨54, _⟩ => ⟨S3x33554432, .i1⟩
  | .hbm, ⟨55, _⟩ => ⟨S_, .f32⟩
  | .hbm, ⟨56, _⟩ => ⟨S3x33554432, .f32⟩
  | .hbm, ⟨57, _⟩ => ⟨S3x33554432, .f32⟩
  | .hbm, ⟨58, _⟩ => ⟨S3x262144x128, .f32⟩
  | .hbm, ⟨59, _⟩ => ⟨S262144x128, .i32⟩
  | .hbm, ⟨60, _⟩ => ⟨S262144x128, .i32⟩
  | .hbm, ⟨61, _⟩ => ⟨S262144x128, .f32⟩
  | .hbm, ⟨62, _⟩ => ⟨S262144x128, .f32⟩
  | .hbm, ⟨63, _⟩ => ⟨S262144x128, .f32⟩
  | .hbm, ⟨64, _⟩ => ⟨S262144x128, .f32⟩
  | .hbm, ⟨65, _⟩ => ⟨S262144x128, .i32⟩
  | .hbm, ⟨66, _⟩ => ⟨S262144x128, .i32⟩
  | .hbm, ⟨67, _⟩ => ⟨S33554432, .f32⟩
  | .hbm, ⟨68, _⟩ => ⟨S33554432, .f32⟩
  | .hbm, ⟨69, _⟩ => ⟨S33554432, .f32⟩
  | .hbm, ⟨70, _⟩ => ⟨S33554432x1, .f32⟩
  | .hbm, ⟨71, _⟩ => ⟨S33554432x1, .f32⟩
  | .hbm, ⟨72, _⟩ => ⟨S33554432x1, .f32⟩
  | .hbm, ⟨73, _⟩ => ⟨S33554432x3, .f32⟩
  | .hbm, ⟨74, _⟩ => ⟨S33550336x3, .f32⟩
  | .hbm, ⟨75, _⟩ => ⟨S33554432, .f32⟩
  | .hbm, ⟨76, _⟩ => ⟨S33550336, .f32⟩
  | .hbm, ⟨77, _⟩ => ⟨S33554432, .i32⟩
  | .hbm, ⟨78, _⟩ => ⟨S33550336, .i32⟩
  | .hbm, ⟨79, _⟩ => ⟨S33554432, .i32⟩
  | .hbm, ⟨80, _⟩ => ⟨S33550336, .i32⟩
  | .local _ .vmem, ⟨0, _⟩ => ⟨S3x2048x128, .f32⟩
  | .local _ .vmem, ⟨1, _⟩ => ⟨S3x2048x128, .f32⟩
  | .local _ .vmem, ⟨2, _⟩ => ⟨S3x2048x128, .f32⟩
  | .local _ .vmem, ⟨3, _⟩ => ⟨S3x2048x128, .f32⟩
  | .local _ .vmem, ⟨4, _⟩ => ⟨S2048x128, .i32⟩
  | .local _ .vmem, ⟨5, _⟩ => ⟨S2048x128, .i32⟩
  | .local _ .vmem, ⟨6, _⟩ => ⟨S2048x128, .i32⟩
  | .local _ .vmem, ⟨7, _⟩ => ⟨S2048x128, .i32⟩
  | .local _ .vmem, ⟨8, _⟩ => ⟨S3x3, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .i32⟩
  | .local _ .vmem, ⟨18, _⟩ => ⟨S2048x128, .i32⟩
  | .local _ .vmem, ⟨19, _⟩ => ⟨S2048x128, .i32⟩
  | .local _ .vmem, ⟨20, _⟩ => ⟨S2048x128, .i32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_call2_c : Ref sig .tc := ⟨.hbm, 11, rfl⟩
abbrev main_call2_v0 : Ref sig .tc := ⟨.hbm, 12, rfl⟩
abbrev main_call2_v1 : Ref sig .tc := ⟨.hbm, 13, rfl⟩
abbrev main_call2_c_0 : Ref sig .tc := ⟨.hbm, 14, rfl⟩
abbrev main_call2_v2 : Ref sig .tc := ⟨.hbm, 15, rfl⟩
abbrev main_call2_v3 : Ref sig .tc := ⟨.hbm, 16, rfl⟩
abbrev main_call2_v4 : Ref sig .tc := ⟨.hbm, 17, rfl⟩
abbrev main_call2_v5 : Ref sig .tc := ⟨.hbm, 18, rfl⟩
abbrev main_call2_c_1 : Ref sig .tc := ⟨.hbm, 19, rfl⟩
abbrev main_call2_c_2 : Ref sig .tc := ⟨.hbm, 20, rfl⟩
abbrev main_call2_v6 : Ref sig .tc := ⟨.hbm, 21, rfl⟩
abbrev main_call2_v7 : Ref sig .tc := ⟨.hbm, 22, rfl⟩
abbrev main_call2_v8 : Ref sig .tc := ⟨.hbm, 23, rfl⟩
abbrev main_call2_v9 : Ref sig .tc := ⟨.hbm, 24, rfl⟩
abbrev main_call2_v10 : Ref sig .tc := ⟨.hbm, 25, rfl⟩
abbrev main_call2_v11 : Ref sig .tc := ⟨.hbm, 26, rfl⟩
abbrev main_call2_c_3 : Ref sig .tc := ⟨.hbm, 27, rfl⟩
abbrev main_call2_v12 : Ref sig .tc := ⟨.hbm, 28, rfl⟩
abbrev main_call2_v13 : Ref sig .tc := ⟨.hbm, 29, rfl⟩
abbrev main_call2_v14 : Ref sig .tc := ⟨.hbm, 30, rfl⟩
abbrev main_call2_cst : Ref sig .tc := ⟨.hbm, 31, rfl⟩
abbrev main_call2_v15 : Ref sig .tc := ⟨.hbm, 32, rfl⟩
abbrev main_v3 : Ref sig .tc := ⟨.hbm, 33, rfl⟩
abbrev main_v4 : Ref sig .tc := ⟨.hbm, 34, rfl⟩
abbrev main_call3_c : Ref sig .tc := ⟨.hbm, 35, rfl⟩
abbrev main_call3_v0 : Ref sig .tc := ⟨.hbm, 36, rfl⟩
abbrev main_call3_v1 : Ref sig .tc := ⟨.hbm, 37, rfl⟩
abbrev main_call3_c_0 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_call3_v5 : Ref sig .tc := ⟨.hbm, 42, rfl⟩
abbrev main_call3_c_1 : Ref sig .tc := ⟨.hbm, 43, rfl⟩
abbrev main_call3_c_2 : Ref sig .tc := ⟨.hbm, 44, rfl⟩
abbrev main_call3_v6 : Ref sig .tc := ⟨.hbm, 45, rfl⟩
abbrev main_call3_v7 : Ref sig .tc := ⟨.hbm, 46, rfl⟩
abbrev main_call3_v8 : Ref sig .tc := ⟨.hbm, 47, rfl⟩
abbrev main_call3_v9 : Ref sig .tc := ⟨.hbm, 48, rfl⟩
abbrev main_call3_v10 : Ref sig .tc := ⟨.hbm, 49, rfl⟩
abbrev main_call3_v11 : Ref sig .tc := ⟨.hbm, 50, rfl⟩
abbrev main_call3_c_3 : Ref sig .tc := ⟨.hbm, 51, rfl⟩
abbrev main_call3_v12 : Ref sig .tc := ⟨.hbm, 52, rfl⟩
abbrev main_call3_v13 : Ref sig .tc := ⟨.hbm, 53, rfl⟩
abbrev main_call3_v14 : Ref sig .tc := ⟨.hbm, 54, rfl⟩
abbrev main_call3_cst : Ref sig .tc := ⟨.hbm, 55, rfl⟩
abbrev main_call3_v15 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9_0 : Ref sig .tc := ⟨.hbm, 61, rfl⟩
abbrev main_v9_1 : Ref sig .tc := ⟨.hbm, 62, rfl⟩
abbrev main_v9_2 : Ref sig .tc := ⟨.hbm, 63, rfl⟩
abbrev main_v9_3 : Ref sig .tc := ⟨.hbm, 64, rfl⟩
abbrev main_v9_4 : Ref sig .tc := ⟨.hbm, 65, rfl⟩
abbrev main_v9_5 : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  pads_S33550336_S33554432_040960 : S33550336.Pads (![0] : Fin 1 → Nat) ![4096] ![0] S33554432
  h_S_ : 0 < S_.numel
  transposes_S8192x3_S3x8192_1_0 : S8192x3.Transposes [1, 0] S3x8192
  bcast_S_S33554432 : S_.BroadcastsInDim S33554432 (![] : Fin 0 → Fin S33554432.rank)
  bcast_S33554432_S33554432x1_0 : S33554432.BroadcastsInDim S33554432x1 (![0] : Fin 1 → Fin S33554432x1.rank)
  bcast_S_S33554432x1 : S_.BroadcastsInDim S33554432x1 (![] : Fin 0 → Fin S33554432x1.rank)
  bcast_S1_S1x1_1 : S1.BroadcastsInDim S1x1 (![1] : Fin 1 → Fin S1x1.rank)
  bcast_S1x1_S33554432x1_0_1 : S1x1.BroadcastsInDim S33554432x1 (![0, 1] : Fin 2 → Fin S33554432x1.rank)
  reducesTo_S33554432x1_S33554432_d1 : S33554432x1.ReducesTo [1] S33554432
  bcast_S33554432_S3x33554432_1 : S33554432.BroadcastsInDim S3x33554432 (![1] : Fin 1 → Fin S3x33554432.rank)
  bcast_S_S3x33554432 : S_.BroadcastsInDim S3x33554432 (![] : Fin 0 → Fin S3x33554432.rank)
  shapeCasts_S3x33554432_S3x262144x128 : S3x33554432.ShapeCasts S3x262144x128
  shapeCasts_S33554432_S262144x128 : S33554432.ShapeCasts S262144x128
  inb_S3x2048x128_S1x2048x128_0_0_0 : ∀ a, (![0, 0, 0] : Fin 3 → Nat) a + S1x2048x128.size a ≤ S3x2048x128.size a
  h_S1x2048x128 : 0 < S1x2048x128.numel
  shapeCasts_S1x2048x128_S2048x128 : S1x2048x128.ShapeCasts S2048x128
  inb_S3x2048x128_S1x2048x128_1_0_0 : ∀ a, (![1, 0, 0] : Fin 3 → Nat) a + S1x2048x128.size a ≤ S3x2048x128.size a
  inb_S3x2048x128_S1x2048x128_2_0_0 : ∀ a, (![2, 0, 0] : Fin 3 → Nat) a + S1x2048x128.size a ≤ S3x2048x128.size a
  inb_S3x3_S3x3_0_0 : ∀ a, (![0, 0] : Fin 2 → Nat) a + S3x3.size a ≤ S3x3.size a
  h_S3x3 : 0 < S3x3.numel
  slices_S3x3_o0_0_S1x1 : S3x3.Slices ![0, 0] S1x1
  inpos_S1x1_p0_0 : ∀ a, (![0, 0] : Fin 2 → Nat) a < S1x1.size a
  slices_S3x3_o0_1_S1x1 : S3x3.Slices ![0, 1] S1x1
  slices_S3x3_o0_2_S1x1 : S3x3.Slices ![0, 2] S1x1
  slices_S3x3_o1_0_S1x1 : S3x3.Slices ![1, 0] S1x1
  slices_S3x3_o1_1_S1x1 : S3x3.Slices ![1, 1] S1x1
  slices_S3x3_o1_2_S1x1 : S3x3.Slices ![1, 2] S1x1
  slices_S3x3_o2_0_S1x1 : S3x3.Slices ![2, 0] S1x1
  slices_S3x3_o2_1_S1x1 : S3x3.Slices ![2, 1] S1x1
  slices_S3x3_o2_2_S1x1 : S3x3.Slices ![2, 2] S1x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  shapeCasts_S262144x128_S33554432 : S262144x128.ShapeCasts S33554432
  concatenates_S33554432x1_S33554432x1_S33554432x1_S33554432x3_d1 : Shape.Concatenates [S33554432x1, S33554432x1, S33554432x1] S33554432x3 1
  slices_S33554432x3_S33550336x3_0_0 : S33554432x3.Slices ![0, 0] S33550336x3
  slices_S33554432_S33550336_0 : S33554432.Slices ![0] S33550336
  gather_S3x8192_S33554432x1_S3x33554432_0_1_n_n_1_1_31_wf : GatherDims.WF S3x8192 S33554432x1 S3x33554432 [0] [1] [] [1] [] 1 ![3, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x2048x128.size a ≤ S3x262144x128.size a
  hwx0_0 : ∀ i : grid0.Coords, EltTy.bits .f32 = 32 ∨ (Rect.block (s := S3x262144x128) S3x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x2048x128.size a ≤ S3x262144x128.size a
  hwx0_1 : ∀ i : grid0.Coords, EltTy.bits .f32 = 32 ∨ (Rect.block (s := S3x262144x128) S3x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S262144x128.size a
  hwx0_2 : ∀ i : grid0.Coords, EltTy.bits .i32 = 32 ∨ (Rect.block (s := S262144x128) S2048x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S262144x128.size a
  hwx0_3 : ∀ i : grid0.Coords, EltTy.bits .i32 = 32 ∨ (Rect.block (s := S262144x128) S2048x128.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x3.size a ≤ S3x3.size a
  hwx0_4 : ∀ i : grid0.Coords, EltTy.bits .f32 = 32 ∨ (Rect.block (s := S3x3) S3x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S262144x128.size a
  hwx0_5 : ∀ i : grid0.Coords, EltTy.bits .f32 = 32 ∨ (Rect.block (s := S262144x128) S2048x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S262144x128.size a
  hwx0_6 : ∀ i : grid0.Coords, EltTy.bits .f32 = 32 ∨ (Rect.block (s := S262144x128) S2048x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S262144x128.size a
  hwx0_7 : ∀ i : grid0.Coords, EltTy.bits .f32 = 32 ∨ (Rect.block (s := S262144x128) S2048x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x128.size a ≤ S262144x128.size a
  hwx0_8 : ∀ i : grid0.Coords, EltTy.bits .f32 = 32 ∨ (Rect.block (s := S262144x128) S2048x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x128.size a ≤ S262144x128.size a
  hwx0_9 : ∀ i : grid0.Coords, EltTy.bits .i32 = 32 ∨ (Rect.block (s := S262144x128) S2048x128.size (cc0_transform_9 i) (hinb0_9 i)).WholeWords (EltTy.packing .i32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x128.size a ≤ S262144x128.size a
  hwx0_10 : ∀ i : grid0.Coords, EltTy.bits .i32 = 32 ∨ (Rect.block (s := S262144x128) S2048x128.size (cc0_transform_10 i) (hinb0_10 i)).WholeWords (EltTy.packing .i32)

variable [Facts₀]

def gather_S3x8192_S33554432x1_S3x33554432_0_1_n_n_1_1_31 : GatherDims S3x8192 S33554432x1 S3x33554432 where
  offsetDims := [0]
  collapsedSliceDims := [1]
  operandBatchingDims := []
  startIndicesBatchingDims := []
  startIndexMap := [1]
  indexVectorDim := 1
  sliceSizes := ![3, 1]
  wf := gather_S3x8192_S33554432x1_S3x33554432_0_1_n_n_1_1_31_wf

abbrev win0_0 : Pipeline.Window sig grid0 :=
  Pipeline.Window.ofSpec (Memref.whole main_v4) S3x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S3x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S3x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9_0) S2048x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_1) S2048x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9_2) S2048x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9_3) S2048x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9_4) S2048x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v9_5) S2048x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8192x3 : Shape := ⟨2, ![8192, 3]⟩
abbrev S3x3 : Shape := ⟨2, ![3, 3]⟩
abbrev S33550336 : Shape := ⟨1, ![33550336]⟩
abbrev S_ : Shape := ⟨0, ![]⟩
abbrev S33550336x1 : Shape := ⟨2, ![33550336, 1]⟩
abbrev S33550336x3 : Shape := ⟨2, ![33550336, 3]⟩
abbrev S1x1 : Shape := ⟨2, ![1, 1]⟩
abbrev S1x3 : Shape := ⟨2, ![1, 3]⟩
abbrev S3 : Shape := ⟨1, ![3]⟩

abbrev nBuf : Space → Nat
  | .hbm => 83
  | .vmem => 0
  | .smem => 0
  | _ => 0

abbrev bufTy : (tb : Table) → Fin (tcTables nBuf tb) → BufTy
  | .hbm, ⟨0, _⟩ => ⟨S8192x3, .f32⟩
  | .hbm, ⟨1, _⟩ => ⟨S3x3, .f32⟩
  | .hbm, ⟨2, _⟩ => ⟨S33550336, .i32⟩
  | .hbm, ⟨3, _⟩ => ⟨S33550336, .i32⟩
  | .hbm, ⟨4, _⟩ => ⟨S_, .i32⟩
  | .hbm, ⟨5, _⟩ => ⟨S33550336, .i32⟩
  | .hbm, ⟨6, _⟩ => ⟨S33550336, .i1⟩
  | .hbm, ⟨7, _⟩ => ⟨S_, .i32⟩
  | .hbm, ⟨8, _⟩ => ⟨S33550336, .i32⟩
  | .hbm, ⟨9, _⟩ => ⟨S33550336, .i32⟩
  | .hbm, ⟨10, _⟩ => ⟨S33550336, .i32⟩
  | .hbm, ⟨11, _⟩ => ⟨S33550336x1, .i32⟩
  | .hbm, ⟨12, _⟩ => ⟨S33550336x3, .f32⟩
  | .hbm, ⟨13, _⟩ => ⟨S_, .i32⟩
  | .hbm, ⟨14, _⟩ => ⟨S33550336, .i32⟩
  | .hbm, ⟨15, _⟩ => ⟨S33550336, .i1⟩
  | .hbm, ⟨16, _⟩ => ⟨S_, .i32⟩
  | .hbm, ⟨17, _⟩ => ⟨S33550336, .i32⟩
  | .hbm, ⟨18, _⟩ => ⟨S33550336, .i32⟩
  | .hbm, ⟨19, _⟩ => ⟨S33550336, .i32⟩
  | .hbm, ⟨20, _⟩ => ⟨S33550336x1, .i32⟩
  | .hbm, ⟨21, _⟩ => ⟨S33550336x3, .f32⟩
  | .hbm, ⟨22, _⟩ => ⟨S33550336x3, .f32⟩
  | .hbm, ⟨23, _⟩ => ⟨S33550336x1, .f32⟩
  | .hbm, ⟨24, _⟩ => ⟨S1x1, .f32⟩
  | .hbm, ⟨25, _⟩ => ⟨S_, .f32⟩
  | .hbm, ⟨26, _⟩ => ⟨S33550336x1, .f32⟩
  | .hbm, ⟨27, _⟩ => ⟨S33550336x1, .f32⟩
  | .hbm, ⟨28, _⟩ => ⟨S33550336x1, .f32⟩
  | .hbm, ⟨29, _⟩ => ⟨S1x3, .f32⟩
  | .hbm, ⟨30, _⟩ => ⟨S3, .f32⟩
  | .hbm, ⟨31, _⟩ => ⟨S1x3, .f32⟩
  | .hbm, ⟨32, _⟩ => ⟨S33550336x3, .f32⟩
  | .hbm, ⟨33, _⟩ => ⟨S33550336x3, .f32⟩
  | .hbm, ⟨34, _⟩ => ⟨S33550336x3, .f32⟩
  | .hbm, ⟨35, _⟩ => ⟨S33550336x3, .f32⟩
  | .hbm, ⟨36, _⟩ => ⟨S33550336x1, .f32⟩
  | .hbm, ⟨37, _⟩ => ⟨S1x1, .f32⟩
  | .hbm, ⟨38, _⟩ => ⟨S_, .f32⟩
  | .hbm, ⟨39, _⟩ => ⟨S33550336x1, .f32⟩
  | .hbm, ⟨40, _⟩ => ⟨S33550336x1, .f32⟩
  | .hbm, ⟨41, _⟩ => ⟨S33550336x1, .f32⟩
  | .hbm, ⟨42, _⟩ => ⟨S1x3, .f32⟩
  | .hbm, ⟨43, _⟩ => ⟨S3, .f32⟩
  | .hbm, ⟨44, _⟩ => ⟨S1x3, .f32⟩
  | .hbm, ⟨45, _⟩ => ⟨S33550336x3, .f32⟩
  | .hbm, ⟨46, _⟩ => ⟨S33550336x3, .f32⟩
  | .hbm, ⟨47, _⟩ => ⟨S33550336x3, .f32⟩
  | .hbm, ⟨48, _⟩ => ⟨S33550336x3, .f32⟩
  | .hbm, ⟨49, _⟩ => ⟨S33550336x1, .f32⟩
  | .hbm, ⟨50, _⟩ => ⟨S1x1, .f32⟩
  | .hbm, ⟨51, _⟩ => ⟨S_, .f32⟩
  | .hbm, ⟨52, _⟩ => ⟨S33550336x1, .f32⟩
  | .hbm, ⟨53, _⟩ => ⟨S33550336x1, .f32⟩
  | .hbm, ⟨54, _⟩ => ⟨S33550336x1, .f32⟩
  | .hbm, ⟨55, _⟩ => ⟨S1x3, .f32⟩
  | .hbm, ⟨56, _⟩ => ⟨S3, .f32⟩
  | .hbm, ⟨57, _⟩ => ⟨S1x3, .f32⟩
  | .hbm, ⟨58, _⟩ => ⟨S33550336x3, .f32⟩
  | .hbm, ⟨59, _⟩ => ⟨S33550336x3, .f32⟩
  | .hbm, ⟨60, _⟩ => ⟨S33550336x3, .f32⟩
  | .hbm, ⟨61, _⟩ => ⟨S33550336x3, .f32⟩
  | .hbm, ⟨62, _⟩ => ⟨S33550336x3, .f32⟩
  | .hbm, ⟨63, _⟩ => ⟨S_, .f32⟩
  | .hbm, ⟨64, _⟩ => ⟨S33550336, .f32⟩
  | .hbm, ⟨65, _⟩ => ⟨S33550336, .f32⟩
  | .hbm, ⟨66, _⟩ => ⟨S_, .f32⟩
  | .hbm, ⟨67, _⟩ => ⟨S33550336, .f32⟩
  | .hbm, ⟨68, _⟩ => ⟨S33550336, .i1⟩
  | .hbm, ⟨69, _⟩ => ⟨S_, .i32⟩
  | .hbm, ⟨70, _⟩ => ⟨S33550336, .i32⟩
  | .hbm, ⟨71, _⟩ => ⟨S33550336, .i32⟩
  | .hbm, ⟨72, _⟩ => ⟨S_, .i32⟩
  | .hbm, ⟨73, _⟩ => ⟨S33550336, .i32⟩
  | .hbm, ⟨74, _⟩ => ⟨S33550336, .i32⟩
  | .hbm, ⟨75, _⟩ => ⟨S33550336x1, .i1⟩
  | .hbm, ⟨76, _⟩ => ⟨S_, .f32⟩
  | .hbm, ⟨77, _⟩ => ⟨S33550336x3, .i1⟩
  | .hbm, ⟨78, _⟩ => ⟨S33550336x3, .f32⟩
  | .hbm, ⟨79, _⟩ => ⟨S33550336x3, .f32⟩
  | .hbm, ⟨80, _⟩ => ⟨S_, .f32⟩
  | .hbm, ⟨81, _⟩ => ⟨S33550336, .f32⟩
  | .hbm, ⟨82, _⟩ => ⟨S33550336, .f32⟩
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_cst : Ref sig .tc := ⟨.hbm, 63, rfl⟩
abbrev main_v55 : Ref sig .tc := ⟨.hbm, 64, rfl⟩
abbrev main_v56 : Ref sig .tc := ⟨.hbm, 65, rfl⟩
abbrev main_cst_3 : Ref sig .tc := ⟨.hbm, 66, rfl⟩
abbrev main_v57 : Ref sig .tc := ⟨.hbm, 67, rfl⟩
abbrev main_v58 : Ref sig .tc := ⟨.hbm, 68, rfl⟩
abbrev main_c_4 : Ref sig .tc := ⟨.hbm, 69, rfl⟩
abbrev main_call3_v0 : Ref sig .tc := ⟨.hbm, 70, rfl⟩
abbrev main_v59 : Ref sig .tc := ⟨.hbm, 71, rfl⟩
abbrev main_c_5 : Ref sig .tc := ⟨.hbm, 72, rfl⟩
abbrev main_call4_v0 : Ref sig .tc := ⟨.hbm, 73, rfl⟩
abbrev main_v60 : Ref sig .tc := ⟨.hbm, 74, rfl⟩
abbrev main_v61 : Ref sig .tc := ⟨.hbm, 75, rfl⟩
abbrev main_cst_6 : Ref sig .tc := ⟨.hbm, 76, rfl⟩
abbrev main_call5_v0 : Ref sig .tc := ⟨.hbm, 77, rfl⟩
abbrev main_call5_v1 : Ref sig .tc := ⟨.hbm, 78, rfl⟩
abbrev main_v62 : Ref sig .tc := ⟨.hbm, 79, rfl⟩
abbrev main_cst_7 : Ref sig .tc := ⟨.hbm, 80, rfl⟩
abbrev main_call6_v0 : Ref sig .tc := ⟨.hbm, 81, rfl⟩
abbrev main_v63 : Ref sig .tc := ⟨.hbm, 82, rfl⟩

abbrev nD : Nat := 1
abbrev τ : Topo := Topo.v7x

variable {F : FTy → Type} [FloatOps F]

class Facts₀ : Prop where
  bcast_S_S33550336 : S_.BroadcastsInDim S33550336 (![] : Fin 0 → Fin S33550336.rank)
  bcast_S33550336_S33550336x1_0 : S33550336.BroadcastsInDim S33550336x1 (![0] : Fin 1 → Fin S33550336x1.rank)
  slices_S33550336x3_S33550336x1_0_2 : S33550336x3.Slices ![0, 2] S33550336x1
  slices_S3x3_S1x1_2_2 : S3x3.Slices ![2, 2] S1x1
  shapeCasts_S1x1_S_ : S1x1.ShapeCasts S_
  bcast_S_S33550336x1 : S_.BroadcastsInDim S33550336x1 (![] : Fin 0 → Fin S33550336x1.rank)
  slices_S3x3_S1x3_2_0 : S3x3.Slices ![2, 0] S1x3
  shapeCasts_S1x3_S3 : S1x3.ShapeCasts S3
  bcast_S3_S1x3_1 : S3.BroadcastsInDim S1x3 (![1] : Fin 1 → Fin S1x3.rank)
  bcast_S33550336x1_S33550336x3_0_1 : S33550336x1.BroadcastsInDim S33550336x3 (![0, 1] : Fin 2 → Fin S33550336x3.rank)
  bcast_S1x3_S33550336x3_0_1 : S1x3.BroadcastsInDim S33550336x3 (![0, 1] : Fin 2 → Fin S33550336x3.rank)
  slices_S33550336x3_S33550336x1_0_1 : S33550336x3.Slices ![0, 1] S33550336x1
  slices_S3x3_S1x1_1_1 : S3x3.Slices ![1, 1] S1x1
  slices_S3x3_S1x3_1_0 : S3x3.Slices ![1, 0] S1x3
  slices_S33550336x3_S33550336x1_0_0 : S33550336x3.Slices ![0, 0] S33550336x1
  slices_S3x3_S1x1_0_0 : S3x3.Slices ![0, 0] S1x1
  slices_S3x3_S1x3_0_0 : S3x3.Slices ![0, 0] S1x3
  reducesTo_S33550336x3_S33550336_d1 : S33550336x3.ReducesTo [1] S33550336
  h_S_ : 0 < S_.numel
  bcast_S_S33550336x3 : S_.BroadcastsInDim S33550336x3 (![] : Fin 0 → Fin S33550336x3.rank)
  gather_S8192x3_S33550336x1_S33550336x3_1_0_n_n_0_1_13_wf : GatherDims.WF S8192x3 S33550336x1 S33550336x3 [1] [0] [] [0] [] 1 ![1, 3]

variable [Facts₀]

def gather_S8192x3_S33550336x1_S33550336x3_1_0_n_n_0_1_13 : GatherDims S8192x3 S33550336x1 S33550336x3 where
  offsetDims := [1]
  collapsedSliceDims := [0]
  operandBatchingDims := []
  startIndicesBatchingDims := []
  startIndexMap := [0]
  indexVectorDim := 1
  sliceSizes := ![1, 3]
  wf := gather_S8192x3_S33550336x1_S33550336x3_1_0_n_n_0_1_13_wf

class Facts : Prop extends Facts₀ where

variable [Facts]
-- ==== Proof.PairFrameBits.lean ====
/-
  The frame of the neighbour-pair program: @main runs to its end without a fault and leaves its four argument arrays as
  it found them — and, on the way, what every array of the one pipelined call holds when @main ends.

  @main is a stretch of host operations (the two index arrays padded to a whole number of blocks, the position table
  transposed and read at the padded indices, the reads reshaped to rows of 128 lanes), then ONE pipelined call over 128
  grid points, then a second stretch of host operations (the six results flattened, the three displacement components
  laid side by side, the padding cut off).

  At grid point `t` the call's body reads block `t` of the two coordinate arrays (three slabs of 2048 × 128 each), of the
  two index arrays and the whole cell, and stores ONE whole 2048 × 128 block into each of its six outputs; it keeps
  nothing from one point to the next. So each output's buffer after the body is a function of the input blocks alone
  (`outDx` … `outJ`), the proof data names it, and the launch theorem for a call followed by host operations gives the run.
-/
import proofs.«416389_j14388140442044_3_alg».proof.Proof.Gen.Kernel.Launch
import proofs.«416389_j14388140442044_3_alg».proof.Proof.Gen.Kernel.Skeleton
import proofs.«416389_j14388140442044_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.PairFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the call -/

/-- Core `c`'s buffer contents when the call is entered: the launch contents after the host operations before it. -/
abbrev V0 (c : Dev nD) : Valuation τ sig (Elt F) :=
  StableHlo.after (List.flatten [hostOps0, hostOps0_1, hostOps0_2, hostOps0_3, hostOps0_4, hostOps0_5, hostOps0_6, hostOps0_7, hostOps0_8]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the call, the call, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- The operations after the call touch the call's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And write no array of the call: each writes its own result only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the call writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the call writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the call writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the call writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the call writes argument 0, and the call stages no window on it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the call writes argument 2, and the call stages no window on it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the call writes argument 3, and the call stages no window on it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The three coordinate slabs of a coordinate block. -/
abbrev slab0 : Rect S3x2048x128 := Rect.unit (s := S3x2048x128) ![0, 0, 0] S1x2048x128.size inb_S3x2048x128_S1x2048x128_0_0_0
abbrev slab1 : Rect S3x2048x128 := Rect.unit (s := S3x2048x128) ![1, 0, 0] S1x2048x128.size inb_S3x2048x128_S1x2048x128_1_0_0
abbrev slab2 : Rect S3x2048x128 := Rect.unit (s := S3x2048x128) ![2, 0, 0] S1x2048x128.size inb_S3x2048x128_S1x2048x128_2_0_0
/-- The whole cell. -/
abbrev cellRect : Rect S3x3 := Rect.unit (s := S3x3) ![0, 0] S3x3.size inb_S3x3_S3x3_0_0
/-- A whole 2048 × 128 block. -/
abbrev wholeBlock : Rect S2048x128 := Rect.unit (s := S2048x128) ![0, 0] S2048x128.size inb_S2048x128_S2048x128_0_0

/-! ## What the body computes from its input blocks -/

section BodyValues

variable (xi xj : Vec F S3x2048x128 .f32) (cl : Vec F S3x3 .f32)

/-- The raw displacement's components. -/
abbrev rawX : FVec F S2048x128 .f32 := k0_pay4 (View.ld xi slab0) (View.ld xj slab0)
abbrev rawY : FVec F S2048x128 .f32 := k0_pay5 (View.ld xi slab1) (View.ld xj slab1)
abbrev rawZ : FVec F S2048x128 .f32 := k0_pay6 (View.ld xi slab2) (View.ld xj slab2)
/-- The first step's integer and its product with the cell's entry (2, 0). -/
abbrev nZ : FVec F S2048x128 .f32 := k0_pay15 (View.ld xi slab2) (View.ld xj slab2) (View.ld cl cellRect)
abbrev nZc20 : FVec F S2048x128 .f32 := k0_pay16 (View.ld xi slab2) (View.ld xj slab2) (View.ld cl cellRect)

/-- The cell's entries the body reads, by row and column. -/
abbrev c00 : F .f32 := k0_pay7 (View.ld cl cellRect)
abbrev c01 : F .f32 := k0_pay8 (View.ld cl cellRect)
abbrev c02 : F .f32 := k0_pay9 (View.ld cl cellRect)
abbrev c10 : F .f32 := k0_pay10 (View.ld cl cellRect)
abbrev c11 : F .f32 := k0_pay11 (View.ld cl cellRect)
abbrev c12 : F .f32 := k0_pay12 (View.ld cl cellRect)
abbrev c21 : F .f32 := k0_pay13 (View.ld cl cellRect)
abbrev c22 : F .f32 := k0_pay14 (View.ld cl cellRect)

/-- What the body stores into the three displacement outputs: the reduced component where the pair is near, else zero. -/
def outDx : Vec F S2048x128 .f32 := View.canon [⟨wholeBlock, k0_pay26 (rawX xi xj) (rawY xi xj) (rawZ xi xj) (c00 cl) (c01 cl) (c02 cl) (c10 cl) (c11 cl) (c12 cl) (c21 cl) (c22 cl) (nZ xi xj cl) (nZc20 xi xj cl)⟩]
def outDy : Vec F S2048x128 .f32 := View.canon [⟨wholeBlock, k0_pay27 (rawX xi xj) (rawY xi xj) (rawZ xi xj) (c00 cl) (c01 cl) (c02 cl) (c10 cl) (c11 cl) (c12 cl) (c21 cl) (c22 cl) (nZ xi xj cl) (nZc20 xi xj cl)⟩]
def outDz : Vec F S2048x128 .f32 := View.canon [⟨wholeBlock, k0_pay28 (rawX xi xj) (rawY xi xj) (rawZ xi xj) (c00 cl) (c01 cl) (c02 cl) (c10 cl) (c11 cl) (c12 cl) (c21 cl) (c22 cl) (nZ xi xj cl) (nZc20 xi xj cl)⟩]
/-- Into the distance output: the distance where the pair is near, else zero. -/
def outDist : Vec F S2048x128 .f32 := View.canon [⟨wholeBlock, k0_pay1 (k0_pay24 (rawX xi xj) (rawY xi xj) (rawZ xi xj) (c00 cl) (c01 cl) (c02 cl) (c10 cl) (c11 cl) (c12 cl) (c21 cl) (c22 cl) (nZ xi xj cl) (nZc20 xi xj cl)) (k0_pay25 (rawX xi xj) (rawY xi xj) (rawZ xi xj) (c00 cl) (c01 cl) (c02 cl) (c10 cl) (c11 cl) (c12 cl) (c21 cl) (c22 cl) (nZ xi xj cl) (nZc20 xi xj cl))⟩]
/-- Into the two index outputs: the index word where the pair is near, else `-1`. -/
def outI (ib : Vec F S2048x128 .i32) : Vec F S2048x128 .i32 := View.canon [⟨wholeBlock, k0_pay2 (k0_pay25 (rawX xi xj) (rawY xi xj) (rawZ xi xj) (c00 cl) (c01 cl) (c02 cl) (c10 cl) (c11 cl) (c12 cl) (c21 cl) (c22 cl) (nZ xi xj cl) (nZc20 xi xj cl)) (View.ld ib wholeBlock)⟩]
def outJ (jb : Vec F S2048x128 .i32) : Vec F S2048x128 .i32 := View.canon [⟨wholeBlock, k0_pay3 (k0_pay25 (rawX xi xj) (rawY xi xj) (rawZ xi xj) (c00 cl) (c01 cl) (c02 cl) (c10 cl) (c11 cl) (c12 cl) (c21 cl) (c22 cl) (nZ xi xj cl) (nZc20 xi xj cl)) (View.ld jb wholeBlock)⟩]

end BodyValues

/-- One whole-block store covers its buffer. -/
theorem coverF (p0 : Vec F S2048x128 .f32) (y : S2048x128.Idx) :
    ∃ pc ∈ ([⟨wholeBlock, p0⟩] : List (View.Piece (Elt F) S2048x128 .f32)), y ∈ pc.1.set :=
  View.cover_of_tiled [⟨wholeBlock, p0⟩] S2048x128.size (by rfl) y
theorem coverI (p0 : Vec F S2048x128 .i32) (y : S2048x128.Idx) :
    ∃ pc ∈ ([⟨wholeBlock, p0⟩] : List (View.Piece (Elt F) S2048x128 .i32)), y ∈ pc.1.set :=
  View.cover_of_tiled [⟨wholeBlock, p0⟩] S2048x128.size (by rfl) y

/-! ## The body's triple -/

set_option maxHeartbeats 4000000 in
/-- The body on whole buffers — the five inputs' at contents `xi xj ib jb cl`, the six outputs' at anything — runs to the
    continuation with the inputs' as they were and each output's at its function of the inputs'. -/
theorem sound_kernel (c : Dev nD) (E : Set ℕ) (i : grid0.Coords) (arg1 : Memref sig .tc .vmem S3x2048x128 .f32) (harg1 : arg1.IsWhole) (arg2 : Memref sig .tc .vmem S3x2048x128 .f32) (harg2 : arg2.IsWhole) (arg3 : Memref sig .tc .vmem S2048x128 .i32) (harg3 : arg3.IsWhole) (arg4 : Memref sig .tc .vmem S2048x128 .i32) (harg4 : arg4.IsWhole) (arg5 : Memref sig .tc .vmem S3x3 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .i32) (harg10 : arg10.IsWhole) (arg11 : Memref sig .tc .vmem S2048x128 .i32) (harg11 : arg11.IsWhole)
    (xi xj : Vec F S3x2048x128 .f32) (ib jb : Vec F S2048x128 .i32) (cl : Vec F S3x3 .f32) (K : PUnit → sProp 𝕄) :
    iprop(owns (c : Thread nD τ) arg1 fullShare xi ∗ owns (c : Thread nD τ) arg2 fullShare xj ∗ owns (c : Thread nD τ) arg3 fullShare ib
        ∗ owns (c : Thread nD τ) arg4 fullShare jb ∗ owns (c : Thread nD τ) arg5 fullShare cl
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare xi ∗ owns (c : Thread nD τ) arg2 fullShare xj ∗ owns (c : Thread nD τ) arg3 fullShare ib
            ∗ owns (c : Thread nD τ) arg4 fullShare jb ∗ owns (c : Thread nD τ) arg5 fullShare cl
            ∗ owns (c : Thread nD τ) arg6 fullShare (outDx xi xj cl) ∗ owns (c : Thread nD τ) arg7 fullShare (outDy xi xj cl)
            ∗ owns (c : Thread nD τ) arg8 fullShare (outDz xi xj cl) ∗ owns (c : Thread nD τ) arg9 fullShare (outDist xi xj cl)
            ∗ owns (c : Thread nD τ) arg10 fullShare (outI xi xj cl ib) ∗ owns (c : Thread nD τ) arg11 fullShare (outJ xi xj cl jb)) -∗ K ⟨⟩))
      ⊢ wp frame (wpE (defs₀ (F := F)) Variants.none c none) E (cc0__neighbor_kernel i arg1 harg1 arg2 harg2 arg3 harg3 arg4 harg4 arg5 harg5 arg6 harg6 arg7 harg7 arg8 harg8 arg9 harg9 arg10 harg10 arg11 harg11) K := by
  simp only [cc0__neighbor_kernel_eq_skeleton]; unfold cc0__neighbor_kernel_skel
  simp only [k0_part1_eq_skeleton]; unfold k0_part1_skel
  simp only [k0_part2_eq_skeleton]; unfold k0_part2_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (coverF _)
  isplitl [H7]
  · iexists _; isplitr
    swap; · iexact H7
    ipureintro
    try dsimp only
    exact View.read_writes_eq_canon _ _ _ (coverF _)
  isplitl [H8]
  · iexists _; isplitr
    swap; · iexact H8
    ipureintro
    try dsimp only
    exact View.read_writes_eq_canon _ _ _ (coverF _)
  isplitl [H9]
  · iexists _; isplitr
    swap; · iexact H9
    ipureintro
    try dsimp only
    exact View.read_writes_eq_canon _ _ _ (coverF _)
  isplitl [H10]
  · iexists _; isplitr
    swap; · iexact H10
    ipureintro
    try dsimp only
    exact View.read_writes_eq_canon _ _ _ (coverI _)
  iexists _; isplitr
  swap; · iexact H11
  ipureintro
  try dsimp only
  exact View.read_writes_eq_canon _ _ _ (coverI _)

/-! ## The call's proof data -/

/-- On core `c`: the arrays as the call finds them; after the body at point `t` each input's buffer at its block and each
    output's at its function of the input blocks; nothing owed, full shares, the call's own invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outDx (iblk m c 0 t) (iblk m c 1 t) (iblk m c 4 t)
    | ⟨6, _⟩ => outDy (iblk m c 0 t) (iblk m c 1 t) (iblk m c 4 t)
    | ⟨7, _⟩ => outDz (iblk m c 0 t) (iblk m c 1 t) (iblk m c 4 t)
    | ⟨8, _⟩ => outDist (iblk m c 0 t) (iblk m c 1 t) (iblk m c 4 t)
    | ⟨9, _⟩ => outI (iblk m c 0 t) (iblk m c 1 t) (iblk m c 4 t) (iblk m c 2 t)
    | ⟨10, _⟩ => outJ (iblk m c 0 t) (iblk m c 1 t) (iblk m c 4 t) (iblk m c 3 t)
  Φ _ := Pipeline.ΦA spec0 c
  q _ := fullShare
  owed _ := 0

/-- The proof data's arrays are the entry contents. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outDx (iblk m c 0 t) (iblk m c 1 t) (iblk m c 4 t) := by dsimp only [dats]
theorem after6 (c : Dev nD) (t : Fin cfg0.N) : (dats m 0 c).after 6 t = outDy (iblk m c 0 t) (iblk m c 1 t) (iblk m c 4 t) := by dsimp only [dats]
theorem after7 (c : Dev nD) (t : Fin cfg0.N) : (dats m 0 c).after 7 t = outDz (iblk m c 0 t) (iblk m c 1 t) (iblk m c 4 t) := by dsimp only [dats]
theorem after8 (c : Dev nD) (t : Fin cfg0.N) : (dats m 0 c).after 8 t = outDist (iblk m c 0 t) (iblk m c 1 t) (iblk m c 4 t) := by dsimp only [dats]
theorem after9 (c : Dev nD) (t : Fin cfg0.N) : (dats m 0 c).after 9 t = outI (iblk m c 0 t) (iblk m c 1 t) (iblk m c 4 t) (iblk m c 2 t) := by dsimp only [dats]
theorem after10 (c : Dev nD) (t : Fin cfg0.N) : (dats m 0 c).after 10 t = outJ (iblk m c 0 t) (iblk m c 1 t) (iblk m c 4 t) (iblk m c 3 t) := by dsimp only [dats]

/-- Each input's current buffer holds its block at every point. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
/-- The body at any point: the inputs' buffers hold their blocks, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and in every final state every
    array of the call holds what the library computes from the proof data, every other buffer what the host operations
    after the call leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The four argument arrays end as launched: the cell is the array of an input window, which the call leaves as it
    found it; the other three are staged by no window and written by no host operation. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m (dats m) c),
     ((h c).1 4).trans ((((dats m) 0 c).arrAt_in 4 rfl _).trans ((A_eq m c 4).trans (V_main_arg1 m c))),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩) (run_main m ρ)

end Cert.Kernel.PairFrame

end
-- ==== Proof.PairFrameIdeal.lean ====
/-
  The frame of the neighbour-pair program: @main runs to its end without a fault and leaves its four argument arrays as
  it found them — and, on the way, what every array of the one pipelined call holds when @main ends.

  @main is a stretch of host operations (the two index arrays padded to a whole number of blocks, the position table
  transposed and read at the padded indices, the reads reshaped to rows of 128 lanes), then ONE pipelined call over 128
  grid points, then a second stretch of host operations (the six results flattened, the three displacement components
  laid side by side, the padding cut off).

  At grid point `t` the call's body reads block `t` of the two coordinate arrays (three slabs of 2048 × 128 each), of the
  two index arrays and the whole cell, and stores ONE whole 2048 × 128 block into each of its six outputs; it keeps
  nothing from one point to the next. So each output's buffer after the body is a function of the input blocks alone
  (`outDx` … `outJ`), the proof data names it, and the launch theorem for a call followed by host operations gives the run.
-/
import proofs.«416389_j14388140442044_3_alg».proof.Proof.Gen.KernelIdeal.Launch
import proofs.«416389_j14388140442044_3_alg».proof.Proof.Gen.KernelIdeal.Skeleton
import proofs.«416389_j14388140442044_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.PairFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the call -/

/-- Core `c`'s buffer contents when the call is entered: the launch contents after the host operations before it. -/
abbrev V0 (c : Dev nD) : Valuation τ sig (Elt F) :=
  StableHlo.after (List.flatten [hostOps0, hostOps0_1, hostOps0_2, hostOps0_3, hostOps0_4, hostOps0_5, hostOps0_6, hostOps0_7, hostOps0_8]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the call, the call, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- The operations after the call touch the call's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And write no array of the call: each writes its own result only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the call writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the call writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the call writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the call writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the call writes argument 0, and the call stages no window on it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the call writes argument 2, and the call stages no window on it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the call writes argument 3, and the call stages no window on it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The three coordinate slabs of a coordinate block. -/
abbrev slab0 : Rect S3x2048x128 := Rect.unit (s := S3x2048x128) ![0, 0, 0] S1x2048x128.size inb_S3x2048x128_S1x2048x128_0_0_0
abbrev slab1 : Rect S3x2048x128 := Rect.unit (s := S3x2048x128) ![1, 0, 0] S1x2048x128.size inb_S3x2048x128_S1x2048x128_1_0_0
abbrev slab2 : Rect S3x2048x128 := Rect.unit (s := S3x2048x128) ![2, 0, 0] S1x2048x128.size inb_S3x2048x128_S1x2048x128_2_0_0
/-- The whole cell. -/
abbrev cellRect : Rect S3x3 := Rect.unit (s := S3x3) ![0, 0] S3x3.size inb_S3x3_S3x3_0_0
/-- A whole 2048 × 128 block. -/
abbrev wholeBlock : Rect S2048x128 := Rect.unit (s := S2048x128) ![0, 0] S2048x128.size inb_S2048x128_S2048x128_0_0

/-! ## What the body computes from its input blocks -/

section BodyValues

variable (xi xj : Vec F S3x2048x128 .f32) (cl : Vec F S3x3 .f32)

/-- The raw displacement's components. -/
abbrev rawX : FVec F S2048x128 .f32 := k0_pay4 (View.ld xi slab0) (View.ld xj slab0)
abbrev rawY : FVec F S2048x128 .f32 := k0_pay5 (View.ld xi slab1) (View.ld xj slab1)
abbrev rawZ : FVec F S2048x128 .f32 := k0_pay6 (View.ld xi slab2) (View.ld xj slab2)
/-- The first step's integer and its product with the cell's entry (2, 0). -/
abbrev nZ : FVec F S2048x128 .f32 := k0_pay15 (View.ld xi slab2) (View.ld xj slab2) (View.ld cl cellRect)
abbrev nZc20 : FVec F S2048x128 .f32 := k0_pay16 (View.ld xi slab2) (View.ld xj slab2) (View.ld cl cellRect)

/-- The cell's entries the body reads, by row and column. -/
abbrev c00 : F .f32 := k0_pay7 (View.ld cl cellRect)
abbrev c01 : F .f32 := k0_pay8 (View.ld cl cellRect)
abbrev c02 : F .f32 := k0_pay9 (View.ld cl cellRect)
abbrev c10 : F .f32 := k0_pay10 (View.ld cl cellRect)
abbrev c11 : F .f32 := k0_pay11 (View.ld cl cellRect)
abbrev c12 : F .f32 := k0_pay12 (View.ld cl cellRect)
abbrev c21 : F .f32 := k0_pay13 (View.ld cl cellRect)
abbrev c22 : F .f32 := k0_pay14 (View.ld cl cellRect)

/-- What the body stores into the three displacement outputs: the reduced component where the pair is near, else zero. -/
def outDx : Vec F S2048x128 .f32 := View.canon [⟨wholeBlock, k0_pay26 (rawX xi xj) (rawY xi xj) (rawZ xi xj) (c00 cl) (c01 cl) (c02 cl) (c10 cl) (c11 cl) (c12 cl) (c21 cl) (c22 cl) (nZ xi xj cl) (nZc20 xi xj cl)⟩]
def outDy : Vec F S2048x128 .f32 := View.canon [⟨wholeBlock, k0_pay27 (rawX xi xj) (rawY xi xj) (rawZ xi xj) (c00 cl) (c01 cl) (c02 cl) (c10 cl) (c11 cl) (c12 cl) (c21 cl) (c22 cl) (nZ xi xj cl) (nZc20 xi xj cl)⟩]
def outDz : Vec F S2048x128 .f32 := View.canon [⟨wholeBlock, k0_pay28 (rawX xi xj) (rawY xi xj) (rawZ xi xj) (c00 cl) (c01 cl) (c02 cl) (c10 cl) (c11 cl) (c12 cl) (c21 cl) (c22 cl) (nZ xi xj cl) (nZc20 xi xj cl)⟩]
/-- Into the distance output: the distance where the pair is near, else zero. -/
def outDist : Vec F S2048x128 .f32 := View.canon [⟨wholeBlock, k0_pay1 (k0_pay24 (rawX xi xj) (rawY xi xj) (rawZ xi xj) (c00 cl) (c01 cl) (c02 cl) (c10 cl) (c11 cl) (c12 cl) (c21 cl) (c22 cl) (nZ xi xj cl) (nZc20 xi xj cl)) (k0_pay25 (rawX xi xj) (rawY xi xj) (rawZ xi xj) (c00 cl) (c01 cl) (c02 cl) (c10 cl) (c11 cl) (c12 cl) (c21 cl) (c22 cl) (nZ xi xj cl) (nZc20 xi xj cl))⟩]
/-- Into the two index outputs: the index word where the pair is near, else `-1`. -/
def outI (ib : Vec F S2048x128 .i32) : Vec F S2048x128 .i32 := View.canon [⟨wholeBlock, k0_pay2 (k0_pay25 (rawX xi xj) (rawY xi xj) (rawZ xi xj) (c00 cl) (c01 cl) (c02 cl) (c10 cl) (c11 cl) (c12 cl) (c21 cl) (c22 cl) (nZ xi xj cl) (nZc20 xi xj cl)) (View.ld ib wholeBlock)⟩]
def outJ (jb : Vec F S2048x128 .i32) : Vec F S2048x128 .i32 := View.canon [⟨wholeBlock, k0_pay3 (k0_pay25 (rawX xi xj) (rawY xi xj) (rawZ xi xj) (c00 cl) (c01 cl) (c02 cl) (c10 cl) (c11 cl) (c12 cl) (c21 cl) (c22 cl) (nZ xi xj cl) (nZc20 xi xj cl)) (View.ld jb wholeBlock)⟩]

end BodyValues

/-- One whole-block store covers its buffer. -/
theorem coverF (p0 : Vec F S2048x128 .f32) (y : S2048x128.Idx) :
    ∃ pc ∈ ([⟨wholeBlock, p0⟩] : List (View.Piece (Elt F) S2048x128 .f32)), y ∈ pc.1.set :=
  View.cover_of_tiled [⟨wholeBlock, p0⟩] S2048x128.size (by rfl) y
theorem coverI (p0 : Vec F S2048x128 .i32) (y : S2048x128.Idx) :
    ∃ pc ∈ ([⟨wholeBlock, p0⟩] : List (View.Piece (Elt F) S2048x128 .i32)), y ∈ pc.1.set :=
  View.cover_of_tiled [⟨wholeBlock, p0⟩] S2048x128.size (by rfl) y

/-! ## The body's triple -/

set_option maxHeartbeats 4000000 in
/-- The body on whole buffers — the five inputs' at contents `xi xj ib jb cl`, the six outputs' at anything — runs to the
    continuation with the inputs' as they were and each output's at its function of the inputs'. -/
theorem sound_kernel (c : Dev nD) (E : Set ℕ) (i : grid0.Coords) (arg1 : Memref sig .tc .vmem S3x2048x128 .f32) (harg1 : arg1.IsWhole) (arg2 : Memref sig .tc .vmem S3x2048x128 .f32) (harg2 : arg2.IsWhole) (arg3 : Memref sig .tc .vmem S2048x128 .i32) (harg3 : arg3.IsWhole) (arg4 : Memref sig .tc .vmem S2048x128 .i32) (harg4 : arg4.IsWhole) (arg5 : Memref sig .tc .vmem S3x3 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .i32) (harg10 : arg10.IsWhole) (arg11 : Memref sig .tc .vmem S2048x128 .i32) (harg11 : arg11.IsWhole)
    (xi xj : Vec F S3x2048x128 .f32) (ib jb : Vec F S2048x128 .i32) (cl : Vec F S3x3 .f32) (K : PUnit → sProp 𝕄) :
    iprop(owns (c : Thread nD τ) arg1 fullShare xi ∗ owns (c : Thread nD τ) arg2 fullShare xj ∗ owns (c : Thread nD τ) arg3 fullShare ib
        ∗ owns (c : Thread nD τ) arg4 fullShare jb ∗ owns (c : Thread nD τ) arg5 fullShare cl
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare xi ∗ owns (c : Thread nD τ) arg2 fullShare xj ∗ owns (c : Thread nD τ) arg3 fullShare ib
            ∗ owns (c : Thread nD τ) arg4 fullShare jb ∗ owns (c : Thread nD τ) arg5 fullShare cl
            ∗ owns (c : Thread nD τ) arg6 fullShare (outDx xi xj cl) ∗ owns (c : Thread nD τ) arg7 fullShare (outDy xi xj cl)
            ∗ owns (c : Thread nD τ) arg8 fullShare (outDz xi xj cl) ∗ owns (c : Thread nD τ) arg9 fullShare (outDist xi xj cl)
            ∗ owns (c : Thread nD τ) arg10 fullShare (outI xi xj cl ib) ∗ owns (c : Thread nD τ) arg11 fullShare (outJ xi xj cl jb)) -∗ K ⟨⟩))
      ⊢ wp frame (wpE (defs₀ (F := F)) Variants.none c none) E (cc0__neighbor_kernel i arg1 harg1 arg2 harg2 arg3 harg3 arg4 harg4 arg5 harg5 arg6 harg6 arg7 harg7 arg8 harg8 arg9 harg9 arg10 harg10 arg11 harg11) K := by
  simp only [cc0__neighbor_kernel_eq_skeleton]; unfold cc0__neighbor_kernel_skel
  simp only [k0_part1_eq_skeleton]; unfold k0_part1_skel
  simp only [k0_part2_eq_skeleton]; unfold k0_part2_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (coverF _)
  isplitl [H7]
  · iexists _; isplitr
    swap; · iexact H7
    ipureintro
    try dsimp only
    exact View.read_writes_eq_canon _ _ _ (coverF _)
  isplitl [H8]
  · iexists _; isplitr
    swap; · iexact H8
    ipureintro
    try dsimp only
    exact View.read_writes_eq_canon _ _ _ (coverF _)
  isplitl [H9]
  · iexists _; isplitr
    swap; · iexact H9
    ipureintro
    try dsimp only
    exact View.read_writes_eq_canon _ _ _ (coverF _)
  isplitl [H10]
  · iexists _; isplitr
    swap; · iexact H10
    ipureintro
    try dsimp only
    exact View.read_writes_eq_canon _ _ _ (coverI _)
  iexists _; isplitr
  swap; · iexact H11
  ipureintro
  try dsimp only
  exact View.read_writes_eq_canon _ _ _ (coverI _)

/-! ## The call's proof data -/

/-- On core `c`: the arrays as the call finds them; after the body at point `t` each input's buffer at its block and each
    output's at its function of the input blocks; nothing owed, full shares, the call's own invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outDx (iblk m c 0 t) (iblk m c 1 t) (iblk m c 4 t)
    | ⟨6, _⟩ => outDy (iblk m c 0 t) (iblk m c 1 t) (iblk m c 4 t)
    | ⟨7, _⟩ => outDz (iblk m c 0 t) (iblk m c 1 t) (iblk m c 4 t)
    | ⟨8, _⟩ => outDist (iblk m c 0 t) (iblk m c 1 t) (iblk m c 4 t)
    | ⟨9, _⟩ => outI (iblk m c 0 t) (iblk m c 1 t) (iblk m c 4 t) (iblk m c 2 t)
    | ⟨10, _⟩ => outJ (iblk m c 0 t) (iblk m c 1 t) (iblk m c 4 t) (iblk m c 3 t)
  Φ _ := Pipeline.ΦA spec0 c
  q _ := fullShare
  owed _ := 0

/-- The proof data's arrays are the entry contents. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outDx (iblk m c 0 t) (iblk m c 1 t) (iblk m c 4 t) := by dsimp only [dats]
theorem after6 (c : Dev nD) (t : Fin cfg0.N) : (dats m 0 c).after 6 t = outDy (iblk m c 0 t) (iblk m c 1 t) (iblk m c 4 t) := by dsimp only [dats]
theorem after7 (c : Dev nD) (t : Fin cfg0.N) : (dats m 0 c).after 7 t = outDz (iblk m c 0 t) (iblk m c 1 t) (iblk m c 4 t) := by dsimp only [dats]
theorem after8 (c : Dev nD) (t : Fin cfg0.N) : (dats m 0 c).after 8 t = outDist (iblk m c 0 t) (iblk m c 1 t) (iblk m c 4 t) := by dsimp only [dats]
theorem after9 (c : Dev nD) (t : Fin cfg0.N) : (dats m 0 c).after 9 t = outI (iblk m c 0 t) (iblk m c 1 t) (iblk m c 4 t) (iblk m c 2 t) := by dsimp only [dats]
theorem after10 (c : Dev nD) (t : Fin cfg0.N) : (dats m 0 c).after 10 t = outJ (iblk m c 0 t) (iblk m c 1 t) (iblk m c 4 t) (iblk m c 3 t) := by dsimp only [dats]

/-- Each input's current buffer holds its block at every point. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
/-- The body at any point: the inputs' buffers hold their blocks, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and in every final state every
    array of the call holds what the library computes from the proof data, every other buffer what the host operations
    after the call leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The four argument arrays end as launched: the cell is the array of an input window, which the call leaves as it
    found it; the other three are staged by no window and written by no host operation. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m (dats m) c),
     ((h c).1 4).trans ((((dats m) 0 c).arrAt_in 4 rfl _).trans ((A_eq m c 4).trans (V_main_arg1 m c))),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩) (run_main m ρ)

end Cert.KernelIdeal.PairFrame

end
-- ==== Proof.BlockReads.lean ====
/-
  Where the call's blocks sit in its arrays. The call has 128 grid points; at point `t` every streamed window's block is
  rows `t · 2048 … t · 2048 + 2047` of its array (all 128 lanes; for the two coordinate arrays, all three slabs), and the
  cell's block is the whole cell. So lane `l` of row `r` of a block at point `t` is lane `l` of row `t · 2048 + r` of the
  array, and every row of an array is such a row for exactly one point.
-/
import proofs.«416389_j14388140442044_3_alg».proof.Proof.PairFrameIdeal
import Idealize.ShloMosaic.Lib.ValueIdx
import Idealize.ShloMosaic.Lib.Pipeline.Value

set_option maxRecDepth 16384

noncomputable section

namespace Cert.KernelIdeal.BlockReads

open Cert.KernelIdeal Cert.KernelIdeal.Gen Cert.KernelIdeal.PairFrame
open Idealize.ShloMosaic Idealize.ShloMosaic.TcCoe Idealize.ShloMosaic.ValueIdx
open Idealize.SL.Sem
open Idealize.ShloMosaic.Pipeline (Dat)

variable {F : FTy → Type} [FloatOps F]
variable (m : (ℓ : Loc nD τ sig) → Buf (Elt F) ℓ) (c : Dev nD)

/-! ## The printed index maps, decided over the grid -/

/-- A coordinate window's block index is (0, the point, 0). -/
theorem idx0 : ∀ t : Fin cfg0.N, win0_0.index t (0 : Fin 3) = 0 ∧ win0_0.index t (1 : Fin 3) = t.val ∧ win0_0.index t (2 : Fin 3) = 0 :=
  (by decide +kernel : ∀ t : Fin grid0.N, _)
theorem idx1 : ∀ t : Fin cfg0.N, win0_1.index t (0 : Fin 3) = 0 ∧ win0_1.index t (1 : Fin 3) = t.val ∧ win0_1.index t (2 : Fin 3) = 0 :=
  (by decide +kernel : ∀ t : Fin grid0.N, _)
/-- An index or result window's block index is (the point, 0). -/
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)
/-- The cell's block index is (0, 0). -/
theorem idx4 : ∀ t : Fin cfg0.N, win0_4.index t (0 : Fin 2) = 0 ∧ win0_4.index t (1 : Fin 2) = 0 :=
  (by decide +kernel : ∀ t : Fin grid0.N, _)

/-- The row of the array that row `r` of the block at point `t` is. -/
abbrev rowAt (t : Fin cfg0.N) (r : Fin 2048) : Fin 262144 :=
  ⟨t.val * 2048 + r.val, by have := t.isLt; have h : cfg0.N = 128 := N_0; have := r.isLt; omega⟩

/-! ## The input blocks, read at a lane -/

/-- The first coordinate block at slab `k`, row `r`, lane `l` is the first coordinate array at row `t · 2048 + r`. -/
theorem posI_blk (t : Fin cfg0.N) (k : Fin 3) (r : Fin 2048) (l : Fin 128) :
    iblk m c 0 t (ix3 k r l) = (V m c main_v4 : S3x262144x128.Idx → F .f32) (ix3 k (rowAt t r) l) := by
  obtain ⟨e0, e1, e2⟩ := idx0 t
  unfold iblk
  rw [View.read_apply, cast_eq]
  refine congrArg (V m c main_v4) (funext fun a => Fin.ext ?_)
  match a with
  | ⟨0, _⟩ => exact (Pipeline.Window.rect_emb_val (cfg0.win 0) t (ix3 k r l) 0).trans (by show win0_0.index t (0 : Fin 3) * 3 + k.val = k.val; omega)
  | ⟨1, _⟩ => exact (Pipeline.Window.rect_emb_val (cfg0.win 0) t (ix3 k r l) 1).trans (by show win0_0.index t (1 : Fin 3) * 2048 + r.val = t.val * 2048 + r.val; omega)
  | ⟨2, _⟩ => exact (Pipeline.Window.rect_emb_val (cfg0.win 0) t (ix3 k r l) 2).trans (by show win0_0.index t (2 : Fin 3) * 128 + l.val = l.val; omega)

/-- The same for the second coordinate array. -/
theorem posJ_blk (t : Fin cfg0.N) (k : Fin 3) (r : Fin 2048) (l : Fin 128) :
    iblk m c 1 t (ix3 k r l) = (V m c main_v6 : S3x262144x128.Idx → F .f32) (ix3 k (rowAt t r) l) := by
  obtain ⟨e0, e1, e2⟩ := idx1 t
  unfold iblk
  rw [View.read_apply, cast_eq]
  refine congrArg (V m c main_v6) (funext fun a => Fin.ext ?_)
  match a with
  | ⟨0, _⟩ => exact (Pipeline.Window.rect_emb_val (cfg0.win 1) t (ix3 k r l) 0).trans (by show win0_1.index t (0 : Fin 3) * 3 + k.val = k.val; omega)
  | ⟨1, _⟩ => exact (Pipeline.Window.rect_emb_val (cfg0.win 1) t (ix3 k r l) 1).trans (by show win0_1.index t (1 : Fin 3) * 2048 + r.val = t.val * 2048 + r.val; omega)
  | ⟨2, _⟩ => exact (Pipeline.Window.rect_emb_val (cfg0.win 1) t (ix3 k r l) 2).trans (by show win0_1.index t (2 : Fin 3) * 128 + l.val = l.val; omega)

/-- The first index block at row `r`, lane `l` is the first index array at row `t · 2048 + r`. -/
theorem idxI_blk (t : Fin cfg0.N) (r : Fin 2048) (l : Fin 128) :
    iblk m c 2 t (ix2 r l) = (V m c main_v7 : S262144x128.Idx → BitVec 32) (ix2 (rowAt t r) l) := by
  obtain ⟨e0, e1⟩ := idx2 t
  unfold iblk
  rw [View.read_apply, cast_eq]
  refine congrArg (V m c main_v7) (funext fun a => Fin.ext ?_)
  match a with
  | ⟨0, _⟩ => exact (Pipeline.Window.rect_emb_val (cfg0.win 2) t (ix2 r l) 0).trans (by show win0_2.index t (0 : Fin 2) * 2048 + r.val = t.val * 2048 + r.val; omega)
  | ⟨1, _⟩ => exact (Pipeline.Window.rect_emb_val (cfg0.win 2) t (ix2 r l) 1).trans (by show win0_2.index t (1 : Fin 2) * 128 + l.val = l.val; omega)

/-- The same for the second index array. -/
theorem idxJ_blk (t : Fin cfg0.N) (r : Fin 2048) (l : Fin 128) :
    iblk m c 3 t (ix2 r l) = (V m c main_v8 : S262144x128.Idx → BitVec 32) (ix2 (rowAt t r) l) := by
  obtain ⟨e0, e1⟩ := idx3 t
  unfold iblk
  rw [View.read_apply, cast_eq]
  refine congrArg (V m c main_v8) (funext fun a => Fin.ext ?_)
  match a with
  | ⟨0, _⟩ => exact (Pipeline.Window.rect_emb_val (cfg0.win 3) t (ix2 r l) 0).trans (by show win0_3.index t (0 : Fin 2) * 2048 + r.val = t.val * 2048 + r.val; omega)
  | ⟨1, _⟩ => exact (Pipeline.Window.rect_emb_val (cfg0.win 3) t (ix2 r l) 1).trans (by show win0_3.index t (1 : Fin 2) * 128 + l.val = l.val; omega)

/-- The cell's block is the cell. -/
theorem cell_blk (t : Fin cfg0.N) (s u : Fin 3) :
    iblk m c 4 t (ix2 s u) = (V m c main_arg1 : S3x3.Idx → F .f32) (ix2 s u) := by
  obtain ⟨e0, e1⟩ := idx4 t
  unfold iblk
  rw [View.read_apply, cast_eq]
  refine congrArg (V m c main_arg1) (funext fun a => Fin.ext ?_)
  match a with
  | ⟨0, _⟩ => exact (Pipeline.Window.rect_emb_val (cfg0.win 4) t (ix2 s u) 0).trans (by show win0_4.index t (0 : Fin 2) * 3 + s.val = s.val; omega)
  | ⟨1, _⟩ => exact (Pipeline.Window.rect_emb_val (cfg0.win 4) t (ix2 s u) 1).trans (by show win0_4.index t (1 : Fin 2) * 3 + u.val = u.val; omega)

/-! ## Where a result block's lane sits in its array -/

theorem out_emb5 (t : Fin cfg0.N) (r : Fin 2048) (l : Fin 128) :
    ((cfg0.win 5).blk t).view.emb (ix2 r l) = (ix2 (rowAt t r) l : S262144x128.Idx) := by
  obtain ⟨e0, e1⟩ := idx5 t
  refine funext fun a => Fin.ext ?_
  match a with
  | ⟨0, _⟩ => exact (Pipeline.Window.rect_emb_val (cfg0.win 5) t (ix2 r l) 0).trans (by show win0_5.index t (0 : Fin 2) * 2048 + r.val = t.val * 2048 + r.val; omega)
  | ⟨1, _⟩ => exact (Pipeline.Window.rect_emb_val (cfg0.win 5) t (ix2 r l) 1).trans (by show win0_5.index t (1 : Fin 2) * 128 + l.val = l.val; omega)
theorem out_emb6 (t : Fin cfg0.N) (r : Fin 2048) (l : Fin 128) :
    ((cfg0.win 6).blk t).view.emb (ix2 r l) = (ix2 (rowAt t r) l : S262144x128.Idx) := by
  obtain ⟨e0, e1⟩ := idx6 t
  refine funext fun a => Fin.ext ?_
  match a with
  | ⟨0, _⟩ => exact (Pipeline.Window.rect_emb_val (cfg0.win 6) t (ix2 r l) 0).trans (by show win0_6.index t (0 : Fin 2) * 2048 + r.val = t.val * 2048 + r.val; omega)
  | ⟨1, _⟩ => exact (Pipeline.Window.rect_emb_val (cfg0.win 6) t (ix2 r l) 1).trans (by show win0_6.index t (1 : Fin 2) * 128 + l.val = l.val; omega)
theorem out_emb7 (t : Fin cfg0.N) (r : Fin 2048) (l : Fin 128) :
    ((cfg0.win 7).blk t).view.emb (ix2 r l) = (ix2 (rowAt t r) l : S262144x128.Idx) := by
  obtain ⟨e0, e1⟩ := idx7 t
  refine funext fun a => Fin.ext ?_
  match a with
  | ⟨0, _⟩ => exact (Pipeline.Window.rect_emb_val (cfg0.win 7) t (ix2 r l) 0).trans (by show win0_7.index t (0 : Fin 2) * 2048 + r.val = t.val * 2048 + r.val; omega)
  | ⟨1, _⟩ => exact (Pipeline.Window.rect_emb_val (cfg0.win 7) t (ix2 r l) 1).trans (by show win0_7.index t (1 : Fin 2) * 128 + l.val = l.val; omega)
theorem out_emb8 (t : Fin cfg0.N) (r : Fin 2048) (l : Fin 128) :
    ((cfg0.win 8).blk t).view.emb (ix2 r l) = (ix2 (rowAt t r) l : S262144x128.Idx) := by
  obtain ⟨e0, e1⟩ := idx8 t
  refine funext fun a => Fin.ext ?_
  match a with
  | ⟨0, _⟩ => exact (Pipeline.Window.rect_emb_val (cfg0.win 8) t (ix2 r l) 0).trans (by show win0_8.index t (0 : Fin 2) * 2048 + r.val = t.val * 2048 + r.val; omega)
  | ⟨1, _⟩ => exact (Pipeline.Window.rect_emb_val (cfg0.win 8) t (ix2 r l) 1).trans (by show win0_8.index t (1 : Fin 2) * 128 + l.val = l.val; omega)
theorem out_emb9 (t : Fin cfg0.N) (r : Fin 2048) (l : Fin 128) :
    ((cfg0.win 9).blk t).view.emb (ix2 r l) = (ix2 (rowAt t r) l : S262144x128.Idx) := by
  obtain ⟨e0, e1⟩ := idx9 t
  refine funext fun a => Fin.ext ?_
  match a with
  | ⟨0, _⟩ => exact (Pipeline.Window.rect_emb_val (cfg0.win 9) t (ix2 r l) 0).trans (by show win0_9.index t (0 : Fin 2) * 2048 + r.val = t.val * 2048 + r.val; omega)
  | ⟨1, _⟩ => exact (Pipeline.Window.rect_emb_val (cfg0.win 9) t (ix2 r l) 1).trans (by show win0_9.index t (1 : Fin 2) * 128 + l.val = l.val; omega)
theorem out_emb10 (t : Fin cfg0.N) (r : Fin 2048) (l : Fin 128) :
    ((cfg0.win 10).blk t).view.emb (ix2 r l) = (ix2 (rowAt t r) l : S262144x128.Idx) := by
  obtain ⟨e0, e1⟩ := idx10 t
  refine funext fun a => Fin.ext ?_
  match a with
  | ⟨0, _⟩ => exact (Pipeline.Window.rect_emb_val (cfg0.win 10) t (ix2 r l) 0).trans (by show win0_10.index t (0 : Fin 2) * 2048 + r.val = t.val * 2048 + r.val; omega)
  | ⟨1, _⟩ => exact (Pipeline.Window.rect_emb_val (cfg0.win 10) t (ix2 r l) 1).trans (by show win0_10.index t (1 : Fin 2) * 128 + l.val = l.val; omega)

end Cert.KernelIdeal.BlockReads

end
-- ==== Proof.FinalArrays.lean ====
/-
  What the call's six result arrays hold when @main ends, element by element. Each result window is written back at
  every grid point, point `t` writing rows `t · 2048 … t · 2048 + 2047`; these blocks cover the array, so every element
  of the final array is an element some point stored — lane `l` of row `r` of point `t`'s block at row `t · 2048 + r` —
  and whatever holds of all stored elements holds of all elements.
-/
import proofs.«416389_j14388140442044_3_alg».proof.Proof.PairFrameIdeal
import proofs.«416389_j14388140442044_3_alg».proof.Proof.BlockReads
import Idealize.ShloMosaic.Lib.ValueIdx
import Idealize.ShloMosaic.Lib.Pipeline.Value

set_option maxRecDepth 16384

noncomputable section

namespace Cert.KernelIdeal.FinalArrays

open Cert.KernelIdeal Cert.KernelIdeal.Gen Cert.KernelIdeal.PairFrame Cert.KernelIdeal.BlockReads
open Idealize.ShloMosaic Idealize.ShloMosaic.TcCoe Idealize.ShloMosaic.ValueIdx
open Idealize.SL.Sem
open Idealize.ShloMosaic.Pipeline (Dat)

variable {F : FTy → Type} [FloatOps F]
variable (m : (ℓ : Loc nD τ sig) → Buf (Elt F) ℓ) (c : Dev nD)

/-! ## Result window 5 -/

/-- A position of the array is in point `t`'s block iff each coordinate is in the block's range on its axis. -/
theorem mem_blk5 (t : Fin cfg0.N) (i : S262144x128.Idx) :
    i ∈ ((cfg0.win 5).blk t).view.set ↔ ∀ a : Fin 2, win0_5.index t a * S2048x128.size a ≤ (i a).val ∧ (i a).val < win0_5.index t a * S2048x128.size a + S2048x128.size a := by
  show i ∈ ((View.whole main_v9_0).slice (win0_5.rect t)).set ↔ _
  rw [View.set_slice_whole, Rect.mem_set_unit]
  exact Iff.rfl

/-- Every position lies in the block of the point its row number divided by 2048 names. -/
theorem cover5 (i : S262144x128.Idx) : ∃ t : Fin cfg0.N, (cfg0.win 5).flush t = true ∧ i ∈ ((cfg0.win 5).blk t).view.set := by
  have hi0 : (i 0).val < 262144 := idx2_lt0 i
  have hi1 : (i 1).val < 128 := idx2_lt1 i
  have hN : cfg0.N = 128 := N_0
  have hq : (i 0).val / 2048 < cfg0.N := by omega
  obtain ⟨e0, e1⟩ := idx5 ⟨(i 0).val / 2048, hq⟩
  have e0' : win0_5.index ⟨(i 0).val / 2048, hq⟩ (0 : Fin 2) = (i 0).val / 2048 := e0
  refine ⟨⟨(i 0).val / 2048, hq⟩, flush0_5 _, ?_⟩
  rw [mem_blk5]
  intro a
  match a with
  | ⟨0, _⟩ => show win0_5.index ⟨(i 0).val / 2048, hq⟩ (0 : Fin 2) * 2048 ≤ (i 0).val ∧ (i 0).val < win0_5.index ⟨(i 0).val / 2048, hq⟩ (0 : Fin 2) * 2048 + 2048; omega
  | ⟨1, _⟩ => show win0_5.index ⟨(i 0).val / 2048, hq⟩ (1 : Fin 2) * 128 ≤ (i 1).val ∧ (i 1).val < win0_5.index ⟨(i 0).val / 2048, hq⟩ (1 : Fin 2) * 128 + 128; omega

/-- What holds of everything the points store, each lane at its place, holds of every element of the array when @main ends. -/
theorem dx_forall (P : S262144x128.Idx → F .f32 → Prop)
    (hP : ∀ (t : Fin cfg0.N) (r : Fin 2048) (l : Fin 128), P (ix2 (rowAt t r) l) (outDx (iblk m c 0 t) (iblk m c 1 t) (iblk m c 4 t) (ix2 r l)))
    (i : S262144x128.Idx) : P i (((dats m 0 c).arrAt 5 cfg0.N : S262144x128.Idx → F .f32) i) := by
  refine (dats m 0 c).arrAt_forall_of_cover 5 P ?_ cover5 i
  intro t _ y
  obtain ⟨r, l, rfl⟩ : ∃ (r : Fin 2048) (l : Fin 128), y = ix2 r l := ⟨y 0, y 1, eq_ix2 y⟩
  rw [out_emb5 t r l, cast_eq]
  show P _ ((cfg0.win 5).cut (grid0.coords t) ((dats m 0 c).after 5 t) (ix2 r l))
  rw [after5]
  exact hP t r l

/-! ## Result window 6 -/

/-- A position of the array is in point `t`'s block iff each coordinate is in the block's range on its axis. -/
theorem mem_blk6 (t : Fin cfg0.N) (i : S262144x128.Idx) :
    i ∈ ((cfg0.win 6).blk t).view.set ↔ ∀ a : Fin 2, win0_6.index t a * S2048x128.size a ≤ (i a).val ∧ (i a).val < win0_6.index t a * S2048x128.size a + S2048x128.size a := by
  show i ∈ ((View.whole main_v9_1).slice (win0_6.rect t)).set ↔ _
  rw [View.set_slice_whole, Rect.mem_set_unit]
  exact Iff.rfl

/-- Every position lies in the block of the point its row number divided by 2048 names. -/
theorem cover6 (i : S262144x128.Idx) : ∃ t : Fin cfg0.N, (cfg0.win 6).flush t = true ∧ i ∈ ((cfg0.win 6).blk t).view.set := by
  have hi0 : (i 0).val < 262144 := idx2_lt0 i
  have hi1 : (i 1).val < 128 := idx2_lt1 i
  have hN : cfg0.N = 128 := N_0
  have hq : (i 0).val / 2048 < cfg0.N := by omega
  obtain ⟨e0, e1⟩ := idx6 ⟨(i 0).val / 2048, hq⟩
  have e0' : win0_6.index ⟨(i 0).val / 2048, hq⟩ (0 : Fin 2) = (i 0).val / 2048 := e0
  refine ⟨⟨(i 0).val / 2048, hq⟩, flush0_6 _, ?_⟩
  rw [mem_blk6]
  intro a
  match a with
  | ⟨0, _⟩ => show win0_6.index ⟨(i 0).val / 2048, hq⟩ (0 : Fin 2) * 2048 ≤ (i 0).val ∧ (i 0).val < win0_6.index ⟨(i 0).val / 2048, hq⟩ (0 : Fin 2) * 2048 + 2048; omega
  | ⟨1, _⟩ => show win0_6.index ⟨(i 0).val / 2048, hq⟩ (1 : Fin 2) * 128 ≤ (i 1).val ∧ (i 1).val < win0_6.index ⟨(i 0).val / 2048, hq⟩ (1 : Fin 2) * 128 + 128; omega

/-- What holds of everything the points store, each lane at its place, holds of every element of the array when @main ends. -/
theorem dy_forall (P : S262144x128.Idx → F .f32 → Prop)
    (hP : ∀ (t : Fin cfg0.N) (r : Fin 2048) (l : Fin 128), P (ix2 (rowAt t r) l) (outDy (iblk m c 0 t) (iblk m c 1 t) (iblk m c 4 t) (ix2 r l)))
    (i : S262144x128.Idx) : P i (((dats m 0 c).arrAt 6 cfg0.N : S262144x128.Idx → F .f32) i) := by
  refine (dats m 0 c).arrAt_forall_of_cover 6 P ?_ cover6 i
  intro t _ y
  obtain ⟨r, l, rfl⟩ : ∃ (r : Fin 2048) (l : Fin 128), y = ix2 r l := ⟨y 0, y 1, eq_ix2 y⟩
  rw [out_emb6 t r l, cast_eq]
  show P _ ((cfg0.win 6).cut (grid0.coords t) ((dats m 0 c).after 6 t) (ix2 r l))
  rw [after6]
  exact hP t r l

/-! ## Result window 7 -/

/-- A position of the array is in point `t`'s block iff each coordinate is in the block's range on its axis. -/
theorem mem_blk7 (t : Fin cfg0.N) (i : S262144x128.Idx) :
    i ∈ ((cfg0.win 7).blk t).view.set ↔ ∀ a : Fin 2, win0_7.index t a * S2048x128.size a ≤ (i a).val ∧ (i a).val < win0_7.index t a * S2048x128.size a + S2048x128.size a := by
  show i ∈ ((View.whole main_v9_2).slice (win0_7.rect t)).set ↔ _
  rw [View.set_slice_whole, Rect.mem_set_unit]
  exact Iff.rfl

/-- Every position lies in the block of the point its row number divided by 2048 names. -/
theorem cover7 (i : S262144x128.Idx) : ∃ t : Fin cfg0.N, (cfg0.win 7).flush t = true ∧ i ∈ ((cfg0.win 7).blk t).view.set := by
  have hi0 : (i 0).val < 262144 := idx2_lt0 i
  have hi1 : (i 1).val < 128 := idx2_lt1 i
  have hN : cfg0.N = 128 := N_0
  have hq : (i 0).val / 2048 < cfg0.N := by omega
  obtain ⟨e0, e1⟩ := idx7 ⟨(i 0).val / 2048, hq⟩
  have e0' : win0_7.index ⟨(i 0).val / 2048, hq⟩ (0 : Fin 2) = (i 0).val / 2048 := e0
  refine ⟨⟨(i 0).val / 2048, hq⟩, flush0_7 _, ?_⟩
  rw [mem_blk7]
  intro a
  match a with
  | ⟨0, _⟩ => show win0_7.index ⟨(i 0).val / 2048, hq⟩ (0 : Fin 2) * 2048 ≤ (i 0).val ∧ (i 0).val < win0_7.index ⟨(i 0).val / 2048, hq⟩ (0 : Fin 2) * 2048 + 2048; omega
  | ⟨1, _⟩ => show win0_7.index ⟨(i 0).val / 2048, hq⟩ (1 : Fin 2) * 128 ≤ (i 1).val ∧ (i 1).val < win0_7.index ⟨(i 0).val / 2048, hq⟩ (1 : Fin 2) * 128 + 128; omega

/-- What holds of everything the points store, each lane at its place, holds of every element of the array when @main ends. -/
theorem dz_forall (P : S262144x128.Idx → F .f32 → Prop)
    (hP : ∀ (t : Fin cfg0.N) (r : Fin 2048) (l : Fin 128), P (ix2 (rowAt t r) l) (outDz (iblk m c 0 t) (iblk m c 1 t) (iblk m c 4 t) (ix2 r l)))
    (i : S262144x128.Idx) : P i (((dats m 0 c).arrAt 7 cfg0.N : S262144x128.Idx → F .f32) i) := by
  refine (dats m 0 c).arrAt_forall_of_cover 7 P ?_ cover7 i
  intro t _ y
  obtain ⟨r, l, rfl⟩ : ∃ (r : Fin 2048) (l : Fin 128), y = ix2 r l := ⟨y 0, y 1, eq_ix2 y⟩
  rw [out_emb7 t r l, cast_eq]
  show P _ ((cfg0.win 7).cut (grid0.coords t) ((dats m 0 c).after 7 t) (ix2 r l))
  rw [after7]
  exact hP t r l

/-! ## Result window 8 -/

/-- A position of the array is in point `t`'s block iff each coordinate is in the block's range on its axis. -/
theorem mem_blk8 (t : Fin cfg0.N) (i : S262144x128.Idx) :
    i ∈ ((cfg0.win 8).blk t).view.set ↔ ∀ a : Fin 2, win0_8.index t a * S2048x128.size a ≤ (i a).val ∧ (i a).val < win0_8.index t a * S2048x128.size a + S2048x128.size a := by
  show i ∈ ((View.whole main_v9_3).slice (win0_8.rect t)).set ↔ _
  rw [View.set_slice_whole, Rect.mem_set_unit]
  exact Iff.rfl

/-- Every position lies in the block of the point its row number divided by 2048 names. -/
theorem cover8 (i : S262144x128.Idx) : ∃ t : Fin cfg0.N, (cfg0.win 8).flush t = true ∧ i ∈ ((cfg0.win 8).blk t).view.set := by
  have hi0 : (i 0).val < 262144 := idx2_lt0 i
  have hi1 : (i 1).val < 128 := idx2_lt1 i
  have hN : cfg0.N = 128 := N_0
  have hq : (i 0).val / 2048 < cfg0.N := by omega
  obtain ⟨e0, e1⟩ := idx8 ⟨(i 0).val / 2048, hq⟩
  have e0' : win0_8.index ⟨(i 0).val / 2048, hq⟩ (0 : Fin 2) = (i 0).val / 2048 := e0
  refine ⟨⟨(i 0).val / 2048, hq⟩, flush0_8 _, ?_⟩
  rw [mem_blk8]
  intro a
  match a with
  | ⟨0, _⟩ => show win0_8.index ⟨(i 0).val / 2048, hq⟩ (0 : Fin 2) * 2048 ≤ (i 0).val ∧ (i 0).val < win0_8.index ⟨(i 0).val / 2048, hq⟩ (0 : Fin 2) * 2048 + 2048; omega
  | ⟨1, _⟩ => show win0_8.index ⟨(i 0).val / 2048, hq⟩ (1 : Fin 2) * 128 ≤ (i 1).val ∧ (i 1).val < win0_8.index ⟨(i 0).val / 2048, hq⟩ (1 : Fin 2) * 128 + 128; omega

/-- What holds of everything the points store, each lane at its place, holds of every element of the array when @main ends. -/
theorem dist_forall (P : S262144x128.Idx → F .f32 → Prop)
    (hP : ∀ (t : Fin cfg0.N) (r : Fin 2048) (l : Fin 128), P (ix2 (rowAt t r) l) (outDist (iblk m c 0 t) (iblk m c 1 t) (iblk m c 4 t) (ix2 r l)))
    (i : S262144x128.Idx) : P i (((dats m 0 c).arrAt 8 cfg0.N : S262144x128.Idx → F .f32) i) := by
  refine (dats m 0 c).arrAt_forall_of_cover 8 P ?_ cover8 i
  intro t _ y
  obtain ⟨r, l, rfl⟩ : ∃ (r : Fin 2048) (l : Fin 128), y = ix2 r l := ⟨y 0, y 1, eq_ix2 y⟩
  rw [out_emb8 t r l, cast_eq]
  show P _ ((cfg0.win 8).cut (grid0.coords t) ((dats m 0 c).after 8 t) (ix2 r l))
  rw [after8]
  exact hP t r l

/-! ## Result window 9 -/

/-- A position of the array is in point `t`'s block iff each coordinate is in the block's range on its axis. -/
theorem mem_blk9 (t : Fin cfg0.N) (i : S262144x128.Idx) :
    i ∈ ((cfg0.win 9).blk t).view.set ↔ ∀ a : Fin 2, win0_9.index t a * S2048x128.size a ≤ (i a).val ∧ (i a).val < win0_9.index t a * S2048x128.size a + S2048x128.size a := by
  show i ∈ ((View.whole main_v9_4).slice (win0_9.rect t)).set ↔ _
  rw [View.set_slice_whole, Rect.mem_set_unit]
  exact Iff.rfl

/-- Every position lies in the block of the point its row number divided by 2048 names. -/
theorem cover9 (i : S262144x128.Idx) : ∃ t : Fin cfg0.N, (cfg0.win 9).flush t = true ∧ i ∈ ((cfg0.win 9).blk t).view.set := by
  have hi0 : (i 0).val < 262144 := idx2_lt0 i
  have hi1 : (i 1).val < 128 := idx2_lt1 i
  have hN : cfg0.N = 128 := N_0
  have hq : (i 0).val / 2048 < cfg0.N := by omega
  obtain ⟨e0, e1⟩ := idx9 ⟨(i 0).val / 2048, hq⟩
  have e0' : win0_9.index ⟨(i 0).val / 2048, hq⟩ (0 : Fin 2) = (i 0).val / 2048 := e0
  refine ⟨⟨(i 0).val / 2048, hq⟩, flush0_9 _, ?_⟩
  rw [mem_blk9]
  intro a
  match a with
  | ⟨0, _⟩ => show win0_9.index ⟨(i 0).val / 2048, hq⟩ (0 : Fin 2) * 2048 ≤ (i 0).val ∧ (i 0).val < win0_9.index ⟨(i 0).val / 2048, hq⟩ (0 : Fin 2) * 2048 + 2048; omega
  | ⟨1, _⟩ => show win0_9.index ⟨(i 0).val / 2048, hq⟩ (1 : Fin 2) * 128 ≤ (i 1).val ∧ (i 1).val < win0_9.index ⟨(i 0).val / 2048, hq⟩ (1 : Fin 2) * 128 + 128; omega

/-- What holds of everything the points store, each lane at its place, holds of every element of the array when @main ends. -/
theorem pairI_forall (P : S262144x128.Idx → BitVec 32 → Prop)
    (hP : ∀ (t : Fin cfg0.N) (r : Fin 2048) (l : Fin 128), P (ix2 (rowAt t r) l) (outI (iblk m c 0 t) (iblk m c 1 t) (iblk m c 4 t) (iblk m c 2 t) (ix2 r l)))
    (i : S262144x128.Idx) : P i (((dats m 0 c).arrAt 9 cfg0.N : S262144x128.Idx → BitVec 32) i) := by
  refine (dats m 0 c).arrAt_forall_of_cover 9 P ?_ cover9 i
  intro t _ y
  obtain ⟨r, l, rfl⟩ : ∃ (r : Fin 2048) (l : Fin 128), y = ix2 r l := ⟨y 0, y 1, eq_ix2 y⟩
  rw [out_emb9 t r l, cast_eq]
  show P _ ((cfg0.win 9).cut (grid0.coords t) ((dats m 0 c).after 9 t) (ix2 r l))
  rw [after9]
  exact hP t r l

/-! ## Result window 10 -/

/-- A position of the array is in point `t`'s block iff each coordinate is in the block's range on its axis. -/
theorem mem_blk10 (t : Fin cfg0.N) (i : S262144x128.Idx) :
    i ∈ ((cfg0.win 10).blk t).view.set ↔ ∀ a : Fin 2, win0_10.index t a * S2048x128.size a ≤ (i a).val ∧ (i a).val < win0_10.index t a * S2048x128.size a + S2048x128.size a := by
  show i ∈ ((View.whole main_v9_5).slice (win0_10.rect t)).set ↔ _
  rw [View.set_slice_whole, Rect.mem_set_unit]
  exact Iff.rfl

/-- Every position lies in the block of the point its row number divided by 2048 names. -/
theorem cover10 (i : S262144x128.Idx) : ∃ t : Fin cfg0.N, (cfg0.win 10).flush t = true ∧ i ∈ ((cfg0.win 10).blk t).view.set := by
  have hi0 : (i 0).val < 262144 := idx2_lt0 i
  have hi1 : (i 1).val < 128 := idx2_lt1 i
  have hN : cfg0.N = 128 := N_0
  have hq : (i 0).val / 2048 < cfg0.N := by omega
  obtain ⟨e0, e1⟩ := idx10 ⟨(i 0).val / 2048, hq⟩
  have e0' : win0_10.index ⟨(i 0).val / 2048, hq⟩ (0 : Fin 2) = (i 0).val / 2048 := e0
  refine ⟨⟨(i 0).val / 2048, hq⟩, flush0_10 _, ?_⟩
  rw [mem_blk10]
  intro a
  match a with
  | ⟨0, _⟩ => show win0_10.index ⟨(i 0).val / 2048, hq⟩ (0 : Fin 2) * 2048 ≤ (i 0).val ∧ (i 0).val < win0_10.index ⟨(i 0).val / 2048, hq⟩ (0 : Fin 2) * 2048 + 2048; omega
  | ⟨1, _⟩ => show win0_10.index ⟨(i 0).val / 2048, hq⟩ (1 : Fin 2) * 128 ≤ (i 1).val ∧ (i 1).val < win0_10.index ⟨(i 0).val / 2048, hq⟩ (1 : Fin 2) * 128 + 128; omega

/-- What holds of everything the points store, each lane at its place, holds of every element of the array when @main ends. -/
theorem pairJ_forall (P : S262144x128.Idx → BitVec 32 → Prop)
    (hP : ∀ (t : Fin cfg0.N) (r : Fin 2048) (l : Fin 128), P (ix2 (rowAt t r) l) (outJ (iblk m c 0 t) (iblk m c 1 t) (iblk m c 4 t) (iblk m c 3 t) (ix2 r l)))
    (i : S262144x128.Idx) : P i (((dats m 0 c).arrAt 10 cfg0.N : S262144x128.Idx → BitVec 32) i) := by
  refine (dats m 0 c).arrAt_forall_of_cover 10 P ?_ cover10 i
  intro t _ y
  obtain ⟨r, l, rfl⟩ : ∃ (r : Fin 2048) (l : Fin 128), y = ix2 r l := ⟨y 0, y 1, eq_ix2 y⟩
  rw [out_emb10 t r l, cast_eq]
  show P _ ((cfg0.win 10).cut (grid0.coords t) ((dats m 0 c).after 10 t) (ix2 r l))
  rw [after10]
  exact hP t r l

end Cert.KernelIdeal.FinalArrays

end
-- ==== Proof.PairSpec.lean ====
/-
  The neighbour-pair computation as ONE function of the four argument arrays, pair by pair, over the extended reals.

  For a candidate pair `p` with index words `i = idx_i p` and `j = idx_j p`: the displacement `a - b` of the two table rows
  the words select is reduced by the minimum-image convention along z, then y, then x — each step subtracts from the
  displacement the cell's row `k` times the integer nearest (ties to even) to the displacement's `k`-th component divided
  by the cell's diagonal entry `k` —; the distance is the root of the sum of the reduced components' squares; the pair is
  NEAR when the distance is below five. A near pair reports its two index words, its reduced displacement and its distance;
  any other pair reports `-1`, `-1`, the zero vector and zero.

  A word selects its row as a table lookup does: a negative word counts from the table's end (`8192` is added), and the
  result is clamped into `0 … 8191`. For words in `0 … 8191` (`InRange`) the row is the word itself (Proof/IndexRange.lean).
-/
import Idealize.ShloMosaic.PureOps.Ideal
import Idealize.ShloMosaic.Lib.ValueIdx

noncomputable section

namespace Cert.PairSpec

open Idealize.ShloMosaic Idealize.ShloMosaic.ValueIdx

/-- The position table: 8192 rows of three coordinates. -/
abbrev STable : Shape := ⟨2, ![8192, 3]⟩
/-- The cell: three row vectors. -/
abbrev SCell : Shape := ⟨2, ![3, 3]⟩
/-- One entry per candidate pair. -/
abbrev SPairs : Shape := ⟨1, ![33550336]⟩
/-- Three entries per candidate pair. -/
abbrev SPairs3 : Shape := ⟨2, ![33550336, 3]⟩

/-! ## Which row a word selects -/

/-- A negative word counts from the table's end. -/
def wrap (w : BitVec 32) : BitVec 32 := Scalar.select (IntOp.cmpi .slt w 0#32) (IntOp.addi w 8192#32) w

/-- The row a word selects, clamped into the table. -/
def rowNat (w : BitVec 32) : Nat := min (wrap w).toInt.toNat 8191

theorem rowNat_lt (w : BitVec 32) : rowNat w < 8192 := by unfold rowNat; omega

/-- The row a word selects, as a row number. -/
def row (w : BitVec 32) : Fin 8192 := ⟨rowNat w, rowNat_lt w⟩

/-- The words that name a row directly. -/
def InRange (w : BitVec 32) : Prop := 0 ≤ w.toInt ∧ w.toInt < 8192

/-! ## One pair, from its two positions and the cell -/

/-- One minimum-image step along axis `k`: subtract the cell's row `k` times the integer nearest to the displacement's
    `k`-th component over the cell's diagonal entry `k`. -/
def step (cl : Fin 3 → Fin 3 → EReal) (k : Fin 3) (d : Fin 3 → EReal) : Fin 3 → EReal :=
  fun j => d j - Ideal.liftRound Ideal.roundHalfEven (Ideal.div (d k) (cl k k)) * cl k j

/-- The displacement `a - b` reduced along z, then y, then x. -/
def reduced (cl : Fin 3 → Fin 3 → EReal) (a b : Fin 3 → EReal) : Fin 3 → EReal :=
  step cl 0 (step cl 1 (step cl 2 fun j => a j - b j))

/-- The reduced displacement's length. -/
def dist (cl : Fin 3 → Fin 3 → EReal) (a b : Fin 3 → EReal) : EReal :=
  Ideal.sqrt (reduced cl a b 0 * reduced cl a b 0 + reduced cl a b 1 * reduced cl a b 1 + reduced cl a b 2 * reduced cl a b 2)

/-- Whether the pair is within the cutoff, five. -/
def near (cl : Fin 3 → Fin 3 → EReal) (a b : Fin 3 → EReal) : BitVec 1 :=
  Ideal.cmp .olt (dist cl a b) (Ideal.ofBits .f32 0x40A00000#32)

/-! ## The four results, from the argument arrays -/

section Results

variable (xyz : STable.Idx → EReal) (cell : SCell.Idx → EReal) (ii jj : SPairs.Idx → BitVec 32)

/-- The cell by row and column. -/
def cellAt : Fin 3 → Fin 3 → EReal := fun r s => cell (ix2 r s)

/-- The position a word selects. -/
def posOf (w : BitVec 32) : Fin 3 → EReal := fun k => xyz (ix2 (row w) k)

/-- Pair `p`'s reduced displacement. -/
def reducedAt (p : Fin 33550336) : Fin 3 → EReal :=
  reduced (cellAt cell) (posOf xyz (ii (ix1 p))) (posOf xyz (jj (ix1 p)))

/-- Pair `p`'s distance. -/
def distAt (p : Fin 33550336) : EReal :=
  dist (cellAt cell) (posOf xyz (ii (ix1 p))) (posOf xyz (jj (ix1 p)))

/-- Whether pair `p` is within the cutoff. -/
def nearAt (p : Fin 33550336) : BitVec 1 :=
  near (cellAt cell) (posOf xyz (ii (ix1 p))) (posOf xyz (jj (ix1 p)))

/-- The first index word of a near pair, else `-1`. -/
def pairIAt (p : Fin 33550336) : BitVec 32 := Scalar.select (nearAt xyz cell ii jj p) (ii (ix1 p)) 4294967295#32
/-- The second index word of a near pair, else `-1`. -/
def pairJAt (p : Fin 33550336) : BitVec 32 := Scalar.select (nearAt xyz cell ii jj p) (jj (ix1 p)) 4294967295#32
/-- The reduced displacement of a near pair, else zero. -/
def diffAt (p : Fin 33550336) (k : Fin 3) : EReal :=
  Scalar.select (nearAt xyz cell ii jj p) (reducedAt xyz cell ii jj p k) (Ideal.ofBits .f32 0x00000000#32)
/-- The distance of a near pair, else zero. -/
def pdistAt (p : Fin 33550336) : EReal :=
  Scalar.select (nearAt xyz cell ii jj p) (distAt xyz cell ii jj p) (Ideal.ofBits .f32 0x00000000#32)

/-- The four results as arrays. -/
def pairI : SPairs.Idx → BitVec 32 := fun i => pairIAt xyz cell ii jj (i 0)
def pairJ : SPairs.Idx → BitVec 32 := fun i => pairJAt xyz cell ii jj (i 0)
def diff : SPairs3.Idx → EReal := fun i => diffAt xyz cell ii jj (i 0) (i 1)
def pdist : SPairs.Idx → EReal := fun i => pdistAt xyz cell ii jj (i 0)

theorem pairI_ix (p : Fin 33550336) : pairI xyz cell ii jj (ix1 p) = pairIAt xyz cell ii jj p := rfl
theorem pairJ_ix (p : Fin 33550336) : pairJ xyz cell ii jj (ix1 p) = pairJAt xyz cell ii jj p := rfl
theorem diff_ix (p : Fin 33550336) (k : Fin 3) : diff xyz cell ii jj (ix2 p k) = diffAt xyz cell ii jj p k := rfl
theorem pdist_ix (p : Fin 33550336) : pdist xyz cell ii jj (ix1 p) = pdistAt xyz cell ii jj p := rfl

end Results

end Cert.PairSpec

end
-- ==== Proof.BodyAtIndex.lean ====
/-
  What the neighbour-pair kernel's body stores, read at one lane.

  The body computes, lane by lane of a 2048 × 128 block, the displacement of the pair's two positions, reduces it by
  the minimum-image convention along z, then y, then x, takes its length and tests it against the cutoff. Every
  operation is pointwise except the reads of its operands: a coordinate slab of a position block, and an entry of
  the cell. So each stored block, at lane `l` of row `r`, is the specification's per-pair term of the pair's two
  positions `xi (·, r, l)`, `xj (·, r, l)` and the cell.
-/
import proofs.«416389_j14388140442044_3_alg».proof.Proof.PairFrameIdeal
import proofs.«416389_j14388140442044_3_alg».proof.Proof.PairSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.BodyAtIndex

open Idealize.ShloMosaic Idealize.ShloMosaic.ValueIdx Cert.KernelIdeal Cert.KernelIdeal.Gen Cert.KernelIdeal.PairFrame

/-! ## The pair at a lane -/

section Names

variable (xi xj : Vec Ideal S3x2048x128 .f32) (cl : Vec Ideal S3x3 .f32) (r : Fin 2048) (l : Fin 128)

/-- The cell by row and column, and the two positions of the pair at lane `l` of row `r`. -/
abbrev cellOf : Fin 3 → Fin 3 → EReal := fun s t => cl (ix2 s t)
abbrev posI : Fin 3 → EReal := fun k => xi (ix3 k r l)
abbrev posJ : Fin 3 → EReal := fun k => xj (ix3 k r l)

end Names

/-! ## The reads -/

/-- The offsets of a whole-block access are zero. -/
theorem zeroOffsets : (![0, 0] : Fin 2 → Nat) = fun _ => 0 := funext fun a => by fin_cases a <;> rfl

section Slabs

variable (x : Vec Ideal S3x2048x128 .f32) (r : Fin 2048) (l : Fin 128)

/-- Slab `k` of a coordinate block, viewed as 2048 × 128 and read at lane `l` of row `r`, is the block's coordinate
    `k` there: the view drops the slab's leading unit axis, and the slab sits at offset `(k, 0, 0)`. -/
theorem slab0_at : shapeCast S2048x128 (View.ld x slab0) shapeCasts_S1x2048x128_S2048x128 (ix2 r l) = x (ix3 0 r l) := by
  refine (shapeCast_1ab_ab_apply (View.ld x slab0) shapeCasts_S1x2048x128_S2048x128 r l).trans ?_
  refine congrArg x (funext fun a => Fin.ext ?_)
  match a with
  | ⟨0, _⟩ => rfl
  | ⟨1, _⟩ => show 0 + 1 * r.val = r.val; omega
  | ⟨2, _⟩ => show 0 + 1 * l.val = l.val; omega

theorem slab1_at : shapeCast S2048x128 (View.ld x slab1) shapeCasts_S1x2048x128_S2048x128 (ix2 r l) = x (ix3 1 r l) := by
  refine (shapeCast_1ab_ab_apply (View.ld x slab1) shapeCasts_S1x2048x128_S2048x128 r l).trans ?_
  refine congrArg x (funext fun a => Fin.ext ?_)
  match a with
  | ⟨0, _⟩ => rfl
  | ⟨1, _⟩ => show 0 + 1 * r.val = r.val; omega
  | ⟨2, _⟩ => show 0 + 1 * l.val = l.val; omega

theorem slab2_at : shapeCast S2048x128 (View.ld x slab2) shapeCasts_S1x2048x128_S2048x128 (ix2 r l) = x (ix3 2 r l) := by
  refine (shapeCast_1ab_ab_apply (View.ld x slab2) shapeCasts_S1x2048x128_S2048x128 r l).trans ?_
  refine congrArg x (funext fun a => Fin.ext ?_)
  match a with
  | ⟨0, _⟩ => rfl
  | ⟨1, _⟩ => show 0 + 1 * r.val = r.val; omega
  | ⟨2, _⟩ => show 0 + 1 * l.val = l.val; omega

end Slabs

section Cell

variable (cl : Vec Ideal S3x3 .f32)

/-- The cell entries the body extracts: the 1 × 1 slice at offset `(s, t)` of the whole cell, read at its one
    position, is the cell's entry `(s, t)`. -/
theorem c00_eq : c00 cl = cellOf cl 0 0 :=
  congrArg cl (funext fun a => Fin.ext (match a with | ⟨0, _⟩ => rfl | ⟨1, _⟩ => rfl))
theorem c01_eq : c01 cl = cellOf cl 0 1 :=
  congrArg cl (funext fun a => Fin.ext (match a with | ⟨0, _⟩ => rfl | ⟨1, _⟩ => rfl))
theorem c02_eq : c02 cl = cellOf cl 0 2 :=
  congrArg cl (funext fun a => Fin.ext (match a with | ⟨0, _⟩ => rfl | ⟨1, _⟩ => rfl))
theorem c10_eq : c10 cl = cellOf cl 1 0 :=
  congrArg cl (funext fun a => Fin.ext (match a with | ⟨0, _⟩ => rfl | ⟨1, _⟩ => rfl))
theorem c11_eq : c11 cl = cellOf cl 1 1 :=
  congrArg cl (funext fun a => Fin.ext (match a with | ⟨0, _⟩ => rfl | ⟨1, _⟩ => rfl))
theorem c12_eq : c12 cl = cellOf cl 1 2 :=
  congrArg cl (funext fun a => Fin.ext (match a with | ⟨0, _⟩ => rfl | ⟨1, _⟩ => rfl))
theorem c21_eq : c21 cl = cellOf cl 2 1 :=
  congrArg cl (funext fun a => Fin.ext (match a with | ⟨0, _⟩ => rfl | ⟨1, _⟩ => rfl))
theorem c22_eq : c22 cl = cellOf cl 2 2 :=
  congrArg cl (funext fun a => Fin.ext (match a with | ⟨0, _⟩ => rfl | ⟨1, _⟩ => rfl))

/-- The entry `(2, 0)`, which the body extracts inside the first step's product. -/
theorem c20_eq : extractAt ![0, 0] (extractStridedSlice (s := S3x3) S1x1 ![2, 0] (View.ld cl cellRect) slices_S3x3_o2_0_S1x1) inpos_S1x1_p0_0
    = cellOf cl 2 0 :=
  congrArg cl (funext fun a => Fin.ext (match a with | ⟨0, _⟩ => rfl | ⟨1, _⟩ => rfl))

end Cell

/-! ## The pointwise operations at a lane

At the ideal instance every arithmetic operation of the body is the extended reals' own, lane by lane. -/

section Pointwise

variable {s : Shape} {φ : FTy}

/-- A square root at an index is the root of the element. -/
theorem sqrt_apply (a : FVec Ideal s φ) (i : s.Idx) : sqrt a i = Ideal.sqrt (a i) := rfl
/-- A rounding to the nearest integer, ties to even, at an index rounds the element. -/
theorem roundeven_apply (a : FVec Ideal s φ) (i : s.Idx) : roundeven a i = Ideal.liftRound Ideal.roundHalfEven (a i) := rfl

end Pointwise

/-- The rounding the minimum-image convention uses. -/
local notation "nearestInt" => Ideal.liftRound Ideal.roundHalfEven

section Payloads

variable (v12 v13 v14 v36 v38 : FVec Ideal S2048x128 .f32) (v17 v19 v21 v23 v25 v27 v31 v33 : EReal) (i : S2048x128.Idx)

/-- y after the step along z. -/
theorem pay17_at : k0_pay17 v13 v31 v36 i = v13 i - v36 i * v31 := rfl
/-- The integer of the step along y. -/
theorem pay18_at : k0_pay18 v13 v25 v31 v36 i = nearestInt (Ideal.div (k0_pay17 v13 v31 v36 i) v25) := rfl
/-- x after the steps along z and y. -/
theorem pay19_at : k0_pay19 v12 v13 v23 v25 v31 v36 v38 i = v12 i - v38 i - k0_pay18 v13 v25 v31 v36 i * v23 := rfl
/-- The integer of the step along x. -/
theorem pay20_at : k0_pay20 v12 v13 v17 v23 v25 v31 v36 v38 i = nearestInt (Ideal.div (k0_pay19 v12 v13 v23 v25 v31 v36 v38 i) v17) := rfl
/-- x after all three steps. -/
theorem pay21_at : k0_pay21 v12 v13 v17 v23 v25 v31 v36 v38 i
    = k0_pay19 v12 v13 v23 v25 v31 v36 v38 i - k0_pay20 v12 v13 v17 v23 v25 v31 v36 v38 i * v17 := rfl
/-- y after all three steps. -/
theorem pay22_at : k0_pay22 v12 v13 v17 v19 v23 v25 v31 v36 v38 i
    = k0_pay17 v13 v31 v36 i - k0_pay18 v13 v25 v31 v36 i * v25 - k0_pay20 v12 v13 v17 v23 v25 v31 v36 v38 i * v19 := rfl
/-- z after all three steps. -/
theorem pay23_at : k0_pay23 v12 v13 v14 v17 v21 v23 v25 v27 v31 v33 v36 v38 i
    = v14 i - v36 i * v33 - k0_pay18 v13 v25 v31 v36 i * v27 - k0_pay20 v12 v13 v17 v23 v25 v31 v36 v38 i * v21 := rfl
/-- The length. -/
theorem pay24_at : k0_pay24 v12 v13 v14 v17 v19 v21 v23 v25 v27 v31 v33 v36 v38 i
    = Ideal.sqrt (k0_pay21 v12 v13 v17 v23 v25 v31 v36 v38 i * k0_pay21 v12 v13 v17 v23 v25 v31 v36 v38 i
        + k0_pay22 v12 v13 v17 v19 v23 v25 v31 v36 v38 i * k0_pay22 v12 v13 v17 v19 v23 v25 v31 v36 v38 i
        + k0_pay23 v12 v13 v14 v17 v21 v23 v25 v27 v31 v33 v36 v38 i * k0_pay23 v12 v13 v14 v17 v21 v23 v25 v27 v31 v33 v36 v38 i) := rfl
/-- The cutoff test. -/
theorem pay25_at : k0_pay25 v12 v13 v14 v17 v19 v21 v23 v25 v27 v31 v33 v36 v38 i
    = Ideal.cmp .olt (k0_pay24 v12 v13 v14 v17 v19 v21 v23 v25 v27 v31 v33 v36 v38 i) (Ideal.ofBits .f32 0x40A00000#32) := rfl
/-- The three displacement results. -/
theorem pay26_at : k0_pay26 v12 v13 v14 v17 v19 v21 v23 v25 v27 v31 v33 v36 v38 i
    = Scalar.select (k0_pay25 v12 v13 v14 v17 v19 v21 v23 v25 v27 v31 v33 v36 v38 i) (k0_pay21 v12 v13 v17 v23 v25 v31 v36 v38 i) (Ideal.ofBits .f32 0x00000000#32) := rfl
theorem pay27_at : k0_pay27 v12 v13 v14 v17 v19 v21 v23 v25 v27 v31 v33 v36 v38 i
    = Scalar.select (k0_pay25 v12 v13 v14 v17 v19 v21 v23 v25 v27 v31 v33 v36 v38 i) (k0_pay22 v12 v13 v17 v19 v23 v25 v31 v36 v38 i) (Ideal.ofBits .f32 0x00000000#32) := rfl
theorem pay28_at : k0_pay28 v12 v13 v14 v17 v19 v21 v23 v25 v27 v31 v33 v36 v38 i
    = Scalar.select (k0_pay25 v12 v13 v14 v17 v19 v21 v23 v25 v27 v31 v33 v36 v38 i) (k0_pay23 v12 v13 v14 v17 v21 v23 v25 v27 v31 v33 v36 v38 i) (Ideal.ofBits .f32 0x00000000#32) := rfl

end Payloads

/-! ## The body's first values at a lane -/

section FirstValues

variable (xi xj : Vec Ideal S3x2048x128 .f32) (cl : Vec Ideal S3x3 .f32) (r : Fin 2048) (l : Fin 128)

/-- The raw displacement's components: the difference of the two positions' coordinates. -/
theorem rawX_at : rawX xi xj (ix2 r l) = xi (ix3 0 r l) - xj (ix3 0 r l) := by
  show subf (F := Ideal) (φ := .f32) (shapeCast S2048x128 (View.ld xi slab0) shapeCasts_S1x2048x128_S2048x128)
    (shapeCast S2048x128 (View.ld xj slab0) shapeCasts_S1x2048x128_S2048x128) (ix2 r l) = _
  rw [subf_apply, slab0_at, slab0_at]
theorem rawY_at : rawY xi xj (ix2 r l) = xi (ix3 1 r l) - xj (ix3 1 r l) := by
  show subf (F := Ideal) (φ := .f32) (shapeCast S2048x128 (View.ld xi slab1) shapeCasts_S1x2048x128_S2048x128)
    (shapeCast S2048x128 (View.ld xj slab1) shapeCasts_S1x2048x128_S2048x128) (ix2 r l) = _
  rw [subf_apply, slab1_at, slab1_at]
theorem rawZ_at : rawZ xi xj (ix2 r l) = xi (ix3 2 r l) - xj (ix3 2 r l) := by
  show subf (F := Ideal) (φ := .f32) (shapeCast S2048x128 (View.ld xi slab2) shapeCasts_S1x2048x128_S2048x128)
    (shapeCast S2048x128 (View.ld xj slab2) shapeCasts_S1x2048x128_S2048x128) (ix2 r l) = _
  rw [subf_apply, slab2_at, slab2_at]

/-- The integer of the step along z: the raw z component over the cell's entry (2, 2), rounded. -/
theorem nZ_at : nZ xi xj cl (ix2 r l)
    = nearestInt (Ideal.div (xi (ix3 2 r l) - xj (ix3 2 r l)) (cellOf cl 2 2)) := by
  show roundeven (divf (rawZ xi xj) (broadcast S2048x128 (c22 cl))) (ix2 r l) = _
  rw [roundeven_apply, divf_apply, broadcast_apply, rawZ_at, c22_eq]

/-- Its product with the cell's entry (2, 0). -/
theorem nZc20_at : nZc20 xi xj cl (ix2 r l)
    = nearestInt (Ideal.div (xi (ix3 2 r l) - xj (ix3 2 r l)) (cellOf cl 2 2)) * cellOf cl 2 0 := by
  show mulf (nZ xi xj cl) (broadcast S2048x128 (extractAt ![0, 0]
    (extractStridedSlice (s := S3x3) S1x1 ![2, 0] (View.ld cl cellRect) slices_S3x3_o2_0_S1x1) inpos_S1x1_p0_0)) (ix2 r l) = _
  rw [mulf_apply, broadcast_apply, nZ_at, c20_eq]

end FirstValues

/-! ## One lane's arithmetic is the specification's

Over any five vectors that hold, at lane `i`, the raw displacement of two positions `a`, `b`, the first step's integer
and its product with the cell's entry (2, 0), the payload chain computes the specification's terms of `a`, `b` and the
cell `c`: the kernel's updates of x, y and z after each rounding are the three components of one `step`. -/

section Lane

variable (c : Fin 3 → Fin 3 → EReal) (a b : Fin 3 → EReal)
variable (dx dy dz nz nzc : FVec Ideal S2048x128 .f32) (i : S2048x128.Idx)

/-- What the five vectors hold at the lane. -/
structure LaneReads : Prop where
  x : dx i = a 0 - b 0
  y : dy i = a 1 - b 1
  z : dz i = a 2 - b 2
  n : nz i = nearestInt (Ideal.div (a 2 - b 2) (c 2 2))
  nc : nzc i = nearestInt (Ideal.div (a 2 - b 2) (c 2 2)) * c 2 0

/-- The displacement after the step along z, and after the steps along z and y. -/
abbrev afterZ : Fin 3 → EReal := Cert.PairSpec.step c 2 fun j => a j - b j
abbrev afterY : Fin 3 → EReal := Cert.PairSpec.step c 1 (afterZ c a b)

variable {c a b dx dy dz nz nzc i}

theorem lane_afterZ_y (h : LaneReads c a b dx dy dz nz nzc i) : k0_pay17 dy (c 2 1) nz i = afterZ c a b 1 := by
  rw [pay17_at, h.y, h.n]; rfl
theorem lane_intY (h : LaneReads c a b dx dy dz nz nzc i) :
    k0_pay18 dy (c 1 1) (c 2 1) nz i = nearestInt (Ideal.div (afterZ c a b 1) (c 1 1)) := by
  rw [pay18_at, lane_afterZ_y h]
theorem lane_afterY_x (h : LaneReads c a b dx dy dz nz nzc i) :
    k0_pay19 dx dy (c 1 0) (c 1 1) (c 2 1) nz nzc i = afterY c a b 0 := by
  rw [pay19_at, lane_intY h, h.x, h.nc]; rfl
theorem lane_intX (h : LaneReads c a b dx dy dz nz nzc i) :
    k0_pay20 dx dy (c 0 0) (c 1 0) (c 1 1) (c 2 1) nz nzc i = nearestInt (Ideal.div (afterY c a b 0) (c 0 0)) := by
  rw [pay20_at, lane_afterY_x h]
theorem lane_reduced_x (h : LaneReads c a b dx dy dz nz nzc i) :
    k0_pay21 dx dy (c 0 0) (c 1 0) (c 1 1) (c 2 1) nz nzc i = Cert.PairSpec.reduced c a b 0 := by
  rw [pay21_at, lane_afterY_x h, lane_intX h]; rfl
theorem lane_reduced_y (h : LaneReads c a b dx dy dz nz nzc i) :
    k0_pay22 dx dy (c 0 0) (c 0 1) (c 1 0) (c 1 1) (c 2 1) nz nzc i = Cert.PairSpec.reduced c a b 1 := by
  rw [pay22_at, lane_afterZ_y h, lane_intY h, lane_intX h]; rfl
theorem lane_reduced_z (h : LaneReads c a b dx dy dz nz nzc i) :
    k0_pay23 dx dy dz (c 0 0) (c 0 2) (c 1 0) (c 1 1) (c 1 2) (c 2 1) (c 2 2) nz nzc i = Cert.PairSpec.reduced c a b 2 := by
  rw [pay23_at, lane_intY h, lane_intX h, h.z, h.n]; rfl
theorem lane_dist (h : LaneReads c a b dx dy dz nz nzc i) :
    k0_pay24 dx dy dz (c 0 0) (c 0 1) (c 0 2) (c 1 0) (c 1 1) (c 1 2) (c 2 1) (c 2 2) nz nzc i = Cert.PairSpec.dist c a b := by
  rw [pay24_at, lane_reduced_x h, lane_reduced_y h, lane_reduced_z h]; rfl
theorem lane_near (h : LaneReads c a b dx dy dz nz nzc i) :
    k0_pay25 dx dy dz (c 0 0) (c 0 1) (c 0 2) (c 1 0) (c 1 1) (c 1 2) (c 2 1) (c 2 2) nz nzc i = Cert.PairSpec.near c a b := by
  rw [pay25_at, lane_dist h]; rfl

end Lane

/-! ## The two index results' payloads at a lane -/

section IndexPayloads

variable (v75 : FVec Ideal S2048x128 .f32) (v77 : IVec S2048x128 1) (w : Vec Ideal S2048x128 .i32) (i : S2048x128.Idx)

/-- The distance result: the distance where the test holds, else zero. -/
theorem pay1_at : k0_pay1 v75 v77 i = Scalar.select (v77 i) (v75 i) (Ideal.ofBits .f32 0x00000000#32) := rfl
/-- An index result: the index word where the test holds, else `-1` (the cast to the same shape is the identity). -/
theorem pay2_at : k0_pay2 v77 w i = Scalar.select (v77 i) (w i) 4294967295#32 := by
  unfold k0_pay2
  rw [shapeCast_self]
  rfl
theorem pay3_at : k0_pay3 v77 w i = Scalar.select (v77 i) (w i) 4294967295#32 := by
  unfold k0_pay3
  rw [shapeCast_self]
  rfl

end IndexPayloads

/-! ## The six stored blocks at a lane

Each output's buffer after the body is one whole-block store's payload; at a lane the payload is the specification's
term of the pair there. -/

variable (xi xj : Vec Ideal S3x2048x128 .f32) (cl : Vec Ideal S3x3 .f32) (ib jb : Vec Ideal S2048x128 .i32) (r : Fin 2048) (l : Fin 128)

/-- At lane `l` of row `r` the body's first values are the pair's raw displacement, the first step's integer and its
    product. -/
theorem laneReads_at : LaneReads (cellOf cl) (posI xi r l) (posJ xj r l) (rawX xi xj) (rawY xi xj) (rawZ xi xj)
    (nZ xi xj cl) (nZc20 xi xj cl) (ix2 r l) :=
  ⟨rawX_at xi xj r l, rawY_at xi xj r l, rawZ_at xi xj r l, nZ_at xi xj cl r l, nZc20_at xi xj cl r l⟩

theorem outDx_at : outDx xi xj cl (ix2 r l) = Scalar.select (Cert.PairSpec.near (cellOf cl) (posI xi r l) (posJ xj r l)) (Cert.PairSpec.reduced (cellOf cl) (posI xi r l) (posJ xj r l) 0) (Ideal.ofBits .f32 0x00000000#32) := by
  unfold outDx
  refine (congrFun (View.canon_unit_zero (S := S2048x128) zeroOffsets inb_S2048x128_S2048x128_0_0 _) (ix2 r l)).trans ?_
  have h := laneReads_at xi xj cl r l
  rw [c00_eq, c01_eq, c02_eq, c10_eq, c11_eq, c12_eq, c21_eq, c22_eq, pay26_at, lane_near h, lane_reduced_x h]

theorem outDy_at : outDy xi xj cl (ix2 r l) = Scalar.select (Cert.PairSpec.near (cellOf cl) (posI xi r l) (posJ xj r l)) (Cert.PairSpec.reduced (cellOf cl) (posI xi r l) (posJ xj r l) 1) (Ideal.ofBits .f32 0x00000000#32) := by
  unfold outDy
  refine (congrFun (View.canon_unit_zero (S := S2048x128) zeroOffsets inb_S2048x128_S2048x128_0_0 _) (ix2 r l)).trans ?_
  have h := laneReads_at xi xj cl r l
  rw [c00_eq, c01_eq, c02_eq, c10_eq, c11_eq, c12_eq, c21_eq, c22_eq, pay27_at, lane_near h, lane_reduced_y h]

theorem outDz_at : outDz xi xj cl (ix2 r l) = Scalar.select (Cert.PairSpec.near (cellOf cl) (posI xi r l) (posJ xj r l)) (Cert.PairSpec.reduced (cellOf cl) (posI xi r l) (posJ xj r l) 2) (Ideal.ofBits .f32 0x00000000#32) := by
  unfold outDz
  refine (congrFun (View.canon_unit_zero (S := S2048x128) zeroOffsets inb_S2048x128_S2048x128_0_0 _) (ix2 r l)).trans ?_
  have h := laneReads_at xi xj cl r l
  rw [c00_eq, c01_eq, c02_eq, c10_eq, c11_eq, c12_eq, c21_eq, c22_eq, pay28_at, lane_near h, lane_reduced_z h]

theorem outDist_at : outDist xi xj cl (ix2 r l) = Scalar.select (Cert.PairSpec.near (cellOf cl) (posI xi r l) (posJ xj r l)) (Cert.PairSpec.dist (cellOf cl) (posI xi r l) (posJ xj r l)) (Ideal.ofBits .f32 0x00000000#32) := by
  unfold outDist
  refine (congrFun (View.canon_unit_zero (S := S2048x128) zeroOffsets inb_S2048x128_S2048x128_0_0 _) (ix2 r l)).trans ?_
  have h := laneReads_at xi xj cl r l
  rw [c00_eq, c01_eq, c02_eq, c10_eq, c11_eq, c12_eq, c21_eq, c22_eq, pay1_at, lane_near h, lane_dist h]

theorem outI_at : outI xi xj cl ib (ix2 r l) = Scalar.select (Cert.PairSpec.near (cellOf cl) (posI xi r l) (posJ xj r l)) (ib (ix2 r l)) 4294967295#32 := by
  unfold outI
  refine (congrFun (View.canon_unit_zero (S := S2048x128) zeroOffsets inb_S2048x128_S2048x128_0_0 _) (ix2 r l)).trans ?_
  have h := laneReads_at xi xj cl r l
  rw [c00_eq, c01_eq, c02_eq, c10_eq, c11_eq, c12_eq, c21_eq, c22_eq, pay2_at, lane_near h, View.ld_unit_zero (S := S2048x128) zeroOffsets]

theorem outJ_at : outJ xi xj cl jb (ix2 r l) = Scalar.select (Cert.PairSpec.near (cellOf cl) (posI xi r l) (posJ xj r l)) (jb (ix2 r l)) 4294967295#32 := by
  unfold outJ
  refine (congrFun (View.canon_unit_zero (S := S2048x128) zeroOffsets inb_S2048x128_S2048x128_0_0 _) (ix2 r l)).trans ?_
  have h := laneReads_at xi xj cl r l
  rw [c00_eq, c01_eq, c02_eq, c10_eq, c11_eq, c12_eq, c21_eq, c22_eq, pay3_at, lane_near h, View.ld_unit_zero (S := S2048x128) zeroOffsets]

end Cert.KernelIdeal.BodyAtIndex

end
-- ==== Proof.IndexRange.lean ====
/-
  Index words in range. A 32-bit index word whose signed value lies in 0 … 8191 names its own row of the 8192-row table:
  the negative wrap leaves it alone, the clamp does nothing, and the signed comparisons of a bounds test against 0 and
  8191 come out as expected. The printed precondition, all ones, says every entry of both index arrays is such a word:
  each of its last two conjuncts is an "all" over the array of the conjunction of the two signed comparisons
  0 ≤ w and w < 8192.
-/
import proofs.«416389_j14388140442044_3_alg».proof.Pre_finite_inputs
import proofs.«416389_j14388140442044_3_alg».proof.Proof.PairSpec
import Idealize.ShloMosaic.Lib.ReduceAll
import Idealize.ShloMosaic.Lib.StableHlo.Predicate
import Idealize.ShloMosaic.Lib.ValueIdx

noncomputable section

namespace Cert.IndexRange

open Idealize.ShloMosaic Cert.PairSpec

/-! ## The signed values of the three constants -/

private theorem toInt_zero : (0#32 : BitVec 32).toInt = 0 := by decide
private theorem toInt_8191 : (8191#32 : BitVec 32).toInt = 8191 := by decide
private theorem toInt_8192 : (8192#32 : BitVec 32).toInt = 8192 := by decide

/-! ## A word in range names its own row -/

theorem inRange_zero : InRange (0#32) := by
  unfold InRange; rw [toInt_zero]; omega

/-- A word in range is not below zero. -/
theorem slt_zero_of_inRange {w : BitVec 32} (h : InRange w) : IntOp.cmpi .slt w 0#32 = 0#1 := by
  have hb : w.slt 0#32 = false := by
    simp only [BitVec.slt, toInt_zero, decide_eq_false_iff_not, not_lt]; exact h.1
  show BitVec.ofBool (w.slt 0#32) = 0#1
  rw [hb]; rfl

/-- A word in range is at least zero. -/
theorem sge_zero_of_inRange {w : BitVec 32} (h : InRange w) : IntOp.cmpi .sge w 0#32 = 1#1 := by
  have hb : (0#32 : BitVec 32).sle w = true := by
    simp only [BitVec.sle, toInt_zero, decide_eq_true_eq]; exact h.1
  show BitVec.ofBool ((0#32 : BitVec 32).sle w) = 1#1
  rw [hb]; rfl

/-- A word in range is at most the last row, 8191. -/
theorem sle_max_of_inRange {w : BitVec 32} (h : InRange w) : IntOp.cmpi .sle w 8191#32 = 1#1 := by
  have hb : w.sle 8191#32 = true := by
    simp only [BitVec.sle, toInt_8191, decide_eq_true_eq]; have := h.2; omega
  show BitVec.ofBool (w.sle 8191#32) = 1#1
  rw [hb]; rfl

/-- The negative wrap leaves a word in range alone. -/
theorem wrap_of_inRange {w : BitVec 32} (h : InRange w) : wrap w = w := by
  unfold wrap; rw [slt_zero_of_inRange h, ValueIdx.select_zero]

/-- A word in range, read as a natural number, is below the table's 8192 rows. -/
theorem toNat_lt_of_inRange {w : BitVec 32} (h : InRange w) : w.toInt.toNat < 8192 := by
  have h1 := h.1; have h2 := h.2; omega

/-- The clamp does nothing to a word in range: the row it selects is its own value. -/
theorem rowNat_of_inRange {w : BitVec 32} (h : InRange w) : rowNat w = w.toInt.toNat := by
  unfold rowNat; rw [wrap_of_inRange h]
  have := toNat_lt_of_inRange h; omega

/-! ## The precondition read back -/

/-- A word that passes the two signed comparisons 0 ≤ w and w < 8192 is in range. -/
private theorem inRange_of_cmps {w : BitVec 32} (h0 : IntOp.cmpi .sge w 0#32 = 1#1) (h1 : IntOp.cmpi .slt w 8192#32 = 1#1) :
    InRange w := by
  have h0' : BitVec.ofBool ((0#32 : BitVec 32).sle w) = 1#1 := h0
  have h1' : BitVec.ofBool (w.slt 8192#32) = 1#1 := h1
  rw [StableHlo.Predicate.ofBool_eq_one_iff] at h0' h1'
  simp only [BitVec.sle, BitVec.slt, toInt_zero, toInt_8192, decide_eq_true_eq] at h0' h1'
  exact ⟨h0', h1'⟩

/-- The scalar shape has one index. -/
private instance : Subsingleton Cert.Pre_finite_inputs.S_.Idx := ⟨fun a b => funext fun d => d.elim0⟩

theorem inRange_of_pre {F : FTy → Type} [FloatOps F] [Cert.Pre_finite_inputs.Facts]
    (xyz : FVec F Cert.Pre_finite_inputs.S8192x3 .f32) (cell : FVec F Cert.Pre_finite_inputs.S3x3 .f32)
    (ii jj : IVec Cert.Pre_finite_inputs.S33550336 32)
    (h : Cert.Pre_finite_inputs.fn (F := F) xyz cell ii jj = fun _ => 1#1) :
    ∀ i : Cert.Pre_finite_inputs.S33550336.Idx, InRange (ii i) ∧ InRange (jj i) := by
  intro i
  have e := congrFun h ValueIdx.ix0
  dsimp only [Cert.Pre_finite_inputs.fn, Cert.Pre_finite_inputs.fn_part1] at e
  -- the value is ((finite xyz ∧ finite cell) ∧ all-in-range ii) ∧ all-in-range jj
  obtain ⟨e12, ej⟩ := IntOp.andi_eq_one.1 (show IntOp.andi _ _ = 1#1 from e)
  obtain ⟨-, ei⟩ := IntOp.andi_eq_one.1 (show IntOp.andi _ _ = 1#1 from e12)
  -- each "all" gives its element at i: the conjunction of the two comparisons
  have pi := Host.reduce_andi_all _ _ _ _ _ ei i
  have pj := Host.reduce_andi_all _ _ _ _ _ ej i
  obtain ⟨pi0, pi1⟩ := IntOp.andi_eq_one.1 (show IntOp.andi _ _ = 1#1 from pi)
  obtain ⟨pj0, pj1⟩ := IntOp.andi_eq_one.1 (show IntOp.andi _ _ = 1#1 from pj)
  exact ⟨inRange_of_cmps pi0 pi1, inRange_of_cmps pj0 pj1⟩

end Cert.IndexRange

end
-- ==== Proof.EntryArrays.lean ====
/-
  What four of the kernel program's arrays hold when its one pipelined call is entered, read at one element.

  Before the call the program pads each of the two index arrays with 4096 zeros to 33,554,432 = 262144 × 128 words,
  transposes the position table to three rows of 8192, and reads the transposed table at the padded words: a negative
  word has 8192 added, the word is tested to lie in 0 … 8191, the table is gathered at the word (clamped into the table),
  and where the test fails a fill value is selected instead. The two reads and the two padded index arrays are then
  reshaped to rows of 128 lanes. Lane `l` of row `r` is pair number `r · 128 + l`.

  For a pair number below 33,550,336 the padded array holds the index array's own word. When every index word is in
  0 … 8191 the wrap is the identity, the test passes and the clamp does nothing: the read is the table's own row.

  The file has three parts: each host operation read at one element, over arbitrary operands; the read as one function of
  the table and the words (`wordColumn`, `inTable`, `takeRows`) with its value at a word in range; and the program's
  arrays, each stated as one operation applied to the arrays it reads, from which the four entry lemmas follow.
-/
import proofs.«416389_j14388140442044_3_alg».proof.Proof.PairFrameIdeal
import proofs.«416389_j14388140442044_3_alg».proof.Proof.PairSpec
import proofs.«416389_j14388140442044_3_alg».proof.Proof.IndexRange
import Idealize.ShloMosaic.Lib.ValueIdx
import Idealize.ShloMosaic.Lib.Pipeline.Value
import Idealize.ShloMosaic.Lib.ValueLayout
import Idealize.ShloMosaic.Lib.StableHlo.Run
import Idealize.ShloMosaic.Lib.KernelVsHost

set_option maxRecDepth 16384

noncomputable section

namespace Cert.KernelIdeal.EntryArrays
open Idealize.ShloMosaic Idealize.ShloMosaic.ValueIdx Idealize.SL.Sem Cert.KernelIdeal Cert.KernelIdeal.Gen Cert.KernelIdeal.PairFrame

variable {F : FTy → Type} [FloatOps F] (m : (ℓ : Loc nD τ sig) → Buf (Elt F) ℓ) (c : Dev nD)

/-- The position table and the two index arrays as launched. -/
abbrev tableArg : S8192x3.Idx → F .f32 := m ((c.tc : Thread nD τ).loc main_arg0)
abbrev idxIArg : S33550336.Idx → BitVec 32 := m ((c.tc : Thread nD τ).loc main_arg2)
abbrev idxJArg : S33550336.Idx → BitVec 32 := m ((c.tc : Thread nD τ).loc main_arg3)

/-! ## The host operations read at one element -/

section Operations
variable {α : Type}

/-- An array of 33,550,336 entries padded at its end reads, below that length, the array itself. -/
theorem pad_end_apply_lt (x : S33550336.Idx → α) (v : S_.Idx → α) (hp : S33550336.Pads (![0] : Fin 1 → Nat) ![4096] ![0] S33554432)
    (hu : 0 < S_.numel) (p : Fin 33554432) (h : p.val < 33550336) :
    pad S33554432 ![0] ![4096] ![0] x v hp hu (ix1 p) = x (ix1 ⟨p.val, h⟩) :=
  pad_apply_of_inside _ _ _ x v hp hu _ _ (fun a => by
    match a with
    | ⟨0, _⟩ => show p.val = 0 + p.val * (0 + 1); omega)

/-- A flat array of 262144 × 128 entries reshaped to rows of 128 lanes reads, at lane `l` of row `r`, entry `r · 128 + l`. -/
theorem rows_apply (x : S33554432.Idx → α) (h : S33554432.ShapeCasts S262144x128) (r : Fin 262144) (l : Fin 128) :
    shapeCast S262144x128 x h (ix2 r l) = x (ix1 ⟨r.val * 128 + l.val, by omega⟩) :=
  shapeCast_apply x h _ _ (by rw [Shape.rowMajor_val_one, Shape.rowMajor_val_two]; rfl)

/-- Three such arrays, one per row, reshaped alike. -/
theorem rows3_apply (x : S3x33554432.Idx → α) (h : S3x33554432.ShapeCasts S3x262144x128) (k : Fin 3) (r : Fin 262144) (l : Fin 128) :
    shapeCast S3x262144x128 x h (ix3 k r l) = x (ix2 k ⟨r.val * 128 + l.val, by omega⟩) :=
  shapeCast_apply x h _ _ (by
    rw [Shape.rowMajor_val_two, Shape.rowMajor_val_three]
    show k.val * 33554432 + (r.val * 128 + l.val) = (k.val * 262144 + r.val) * 128 + l.val
    omega)

/-- The wrap of a negative word, element by element: `z` holds 0 and `e` holds 8192 at the element. -/
theorem wrap_apply (x z e : S33554432.Idx → BitVec 32) (j : S33554432.Idx) (hz : z j = 0#32) (he : e j = 8192#32) :
    select (cmpi .slt x z) (addi x e) x j = Cert.PairSpec.wrap (x j) := by
  show Scalar.select (IntOp.cmpi .slt (x j) (z j)) (IntOp.addi (x j) (e j)) (x j) = _
  rw [hz, he]; rfl

/-- A vector laid out as one column reads, in row `p`, its entry `p`. -/
theorem column_apply (x : S33554432.Idx → α) (h : S33554432.BroadcastsInDim S33554432x1 (![0] : Fin 1 → Fin S33554432x1.rank))
    (p : Fin 33554432) (u : Fin 1) : broadcastInDim S33554432x1 ![0] h x (ix2 p u) = x (ix1 p) :=
  broadcastInDim_apply _ h x _ _ (fun a => by match a with | ⟨0, _⟩ => rfl)

/-- A vector repeated down three rows reads, in any row, at column `p` its entry `p`. -/
theorem repeat3_apply (x : S33554432.Idx → α) (h : S33554432.BroadcastsInDim S3x33554432 (![1] : Fin 1 → Fin S3x33554432.rank))
    (k : Fin 3) (p : Fin 33554432) : broadcastInDim S3x33554432 ![1] h x (ix2 k p) = x (ix1 p) :=
  broadcastInDim_apply _ h x _ _ (fun a => by match a with | ⟨0, _⟩ => rfl)

/-- A scalar spread over a shape reads the scalar everywhere. -/
theorem splat_apply {t : Shape} (x : S_.Idx → α) (h : S_.BroadcastsInDim t (![] : Fin 0 → Fin t.rank)) (j : t.Idx) :
    broadcastInDim t ![] h x j = x ix0 :=
  broadcastInDim_apply _ h x _ _ (fun a => a.elim0)

/-- A one-entry vector as a one-by-one matrix, spread down a column, reads that entry in every row. -/
theorem oneEntry_apply (x : S1.Idx → α) (h₁ : S1.BroadcastsInDim S1x1 (![1] : Fin 1 → Fin S1x1.rank))
    (h₂ : S1x1.BroadcastsInDim S33554432x1 (![0, 1] : Fin 2 → Fin S33554432x1.rank)) (j : S33554432x1.Idx) :
    broadcastInDim S33554432x1 ![0, 1] h₂ (broadcastInDim S1x1 ![1] h₁ x) j = x (ix1 0) := by
  refine (broadcastInDim_apply _ h₂ _ j (ix2 0 0) (fun a => by match a with | ⟨0, _⟩ => rfl | ⟨1, _⟩ => rfl)).trans ?_
  exact broadcastInDim_apply _ h₁ x _ _ (fun a => by match a with | ⟨0, _⟩ => rfl)

/-- A fold over the one-element range is one application. -/
theorem fold_univ_one {β : Type} (f : β → β → β) [Std.Commutative f] [Std.Associative f] (b : β) (g : Fin 1 → β) :
    (Finset.univ : Finset (Fin 1)).fold f b g = f (g 0) b := by
  rw [show (Finset.univ : Finset (Fin 1)) = {0} from rfl, Finset.fold_singleton]

/-- The conjunction over a column's one entry, from `true`, is that entry. -/
theorem all_column_apply (x : S33554432x1.Idx → BitVec 1) (h' : S33554432x1.ReducesTo [1] S33554432) (hu : 0 < S_.numel) (p : Fin 33554432) :
    Host.reduce IntOp.andi x (constantI S_ 1 1#1) h' hu (ix1 p) = x (ix2 p 0) := by
  have h : S33554432x1.Reduces [1] S33554432 := by decide
  rw [Host.reduce_eq_fold_single IntOp.andi x _ h' h hu]
  refine (fold_univ_one IntOp.andi 1#1 (x ∘ h.lift (ix1 p))).trans ?_
  have e : h.lift (ix1 p) (0 : Fin 1) = ix2 p 0 := by
    funext a
    match a with
    | ⟨0, _⟩ => rfl
    | ⟨1, _⟩ => rfl
  show IntOp.andi (x (h.lift (ix1 p) (0 : Fin 1))) 1#1 = _
  rw [e]
  rcases BitVec.eq_zero_or_eq_one (x (ix2 p 0)) with h0 | h0 <;> rw [h0] <;> rfl

/-- The table's three rows gathered at a column of words: row `k`, column `p` of the result is row `k` of the table at the
    column the word of row `p` names, read signed and clamped into the table. -/
theorem gather_apply (tbl : S3x8192.Idx → α) (col : IVec S33554432x1 32) (k : Fin 3) (p : Fin 33554432) :
    Host.gather gather_S3x8192_S33554432x1_S3x33554432_0_1_n_n_1_1_31 tbl col (ix2 k p)
      = tbl (ix2 k ⟨min (col (ix2 p 0)).toInt.toNat 8191, by omega⟩) := by
  unfold Host.gather
  refine congrArg tbl (funext fun a => Fin.ext ?_)
  have hsi : gather_S3x8192_S33554432x1_S3x33554432_0_1_n_n_1_1_31.siIdx (ix2 k p) ⟨0, by decide⟩ = ix2 p 0 := by
    funext b
    match b with
    | ⟨0, _⟩ => rfl
    | ⟨1, _⟩ => rfl
  match a with
  | ⟨0, _⟩ =>
    show gather_S3x8192_S33554432x1_S3x33554432_0_1_n_n_1_1_31.start (ix2 k p) col 0
      + gather_S3x8192_S33554432x1_S3x33554432_0_1_n_n_1_1_31.batchCoord (ix2 k p) 0
      + gather_S3x8192_S33554432x1_S3x33554432_0_1_n_n_1_1_31.offCoord (ix2 k p) 0 = k.val
    have h1 : gather_S3x8192_S33554432x1_S3x33554432_0_1_n_n_1_1_31.start (ix2 k p) col 0 = 0 := rfl
    have h2 : gather_S3x8192_S33554432x1_S3x33554432_0_1_n_n_1_1_31.batchCoord (ix2 k p) 0 = 0 := rfl
    have h3 : gather_S3x8192_S33554432x1_S3x33554432_0_1_n_n_1_1_31.offCoord (ix2 k p) 0 = k.val := rfl
    rw [h1, h2, h3]; omega
  | ⟨1, _⟩ =>
    show gather_S3x8192_S33554432x1_S3x33554432_0_1_n_n_1_1_31.start (ix2 k p) col 1
      + gather_S3x8192_S33554432x1_S3x33554432_0_1_n_n_1_1_31.batchCoord (ix2 k p) 1
      + gather_S3x8192_S33554432x1_S3x33554432_0_1_n_n_1_1_31.offCoord (ix2 k p) 1 = min (col (ix2 p 0)).toInt.toNat 8191
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S3x8192_S33554432x1_S3x33554432_0_1_n_n_1_1_31.startIndexMap from List.mem_singleton.mpr rfl)]
    exact congrArg (fun i => min (col i).toInt.toNat 8191) hsi

end Operations

/-! ## The table read at a column of words, as one function -/

section Take
variable {α : Type}

/-- The words, each wrapped when negative, laid out as one column. -/
def wordColumn (w : S33554432.Idx → BitVec 32) : S33554432x1.Idx → BitVec 32 :=
  broadcastInDim S33554432x1 ![0] bcast_S33554432_S33554432x1_0
    (select (cmpi .slt w (broadcastInDim S33554432 ![] bcast_S_S33554432 (constantI S_ 32 0#32)))
      (addi w (broadcastInDim S33554432 ![] bcast_S_S33554432 (constantI S_ 32 8192#32))) w)

/-- Whether each word of a column names a row of the table: at least 0 and at most 8191. -/
def inTable (col : S33554432x1.Idx → BitVec 32) : S33554432.Idx → BitVec 1 :=
  Host.reduce IntOp.andi
    (andi (cmpi .sge col (broadcastInDim S33554432x1 ![] bcast_S_S33554432x1 (constantI S_ 32 0#32)))
      (cmpi .sle col (broadcastInDim S33554432x1 ![0, 1] bcast_S1x1_S33554432x1_0_1
        (broadcastInDim S1x1 ![1] bcast_S1_S1x1_1 (constantI S1 32 8191#32)))))
    (constantI S_ 1 1#1) reducesTo_S33554432x1_S33554432_d1 h_S_

/-- The transposed table read at the words: column `p` of the result is the table's column the word `p` names, or the
    column `p` of `other` when the word names none. -/
def takeRows (tbl : S3x8192.Idx → α) (other : S3x33554432.Idx → α) (w : S33554432.Idx → BitVec 32) : S3x33554432.Idx → α :=
  select (broadcastInDim S3x33554432 ![1] bcast_S33554432_S3x33554432_1 (inTable (wordColumn w)))
    (Host.gather gather_S3x8192_S33554432x1_S3x33554432_0_1_n_n_1_1_31 tbl (wordColumn w)) other

/-- Row `p` of the column holds word `p`, wrapped. -/
theorem wordColumn_apply (w : S33554432.Idx → BitVec 32) (p : Fin 33554432) (u : Fin 1) :
    wordColumn w (ix2 p u) = Cert.PairSpec.wrap (w (ix1 p)) := by
  unfold wordColumn
  rw [column_apply]
  exact wrap_apply w _ _ _ (splat_apply _ _ _) (splat_apply _ _ _)

/-- The test at entry `p` is the two comparisons of the column's word `p`. -/
theorem inTable_apply (col : S33554432x1.Idx → BitVec 32) (p : Fin 33554432) :
    inTable col (ix1 p) = IntOp.andi (IntOp.cmpi .sge (col (ix2 p 0)) 0#32) (IntOp.cmpi .sle (col (ix2 p 0)) 8191#32) := by
  unfold inTable
  rw [all_column_apply]
  show IntOp.andi (IntOp.cmpi .sge (col (ix2 p 0)) (broadcastInDim S33554432x1 ![] bcast_S_S33554432x1 (constantI S_ 32 0#32) (ix2 p 0)))
      (IntOp.cmpi .sle (col (ix2 p 0)) (broadcastInDim S33554432x1 ![0, 1] bcast_S1x1_S33554432x1_0_1
        (broadcastInDim S1x1 ![1] bcast_S1_S1x1_1 (constantI S1 32 8191#32)) (ix2 p 0))) = _
  rw [splat_apply, oneEntry_apply]
  rfl

/-- At a word in range the read is the table's own column: the wrap does nothing, the test passes, the clamp does nothing. -/
theorem takeRows_apply (tbl : S3x8192.Idx → α) (other : S3x33554432.Idx → α) (w : S33554432.Idx → BitVec 32) (k : Fin 3) (p : Fin 33554432)
    (hw : Cert.PairSpec.InRange (w (ix1 p))) :
    takeRows tbl other w (ix2 k p) = tbl (ix2 k (Cert.PairSpec.row (w (ix1 p)))) := by
  unfold takeRows
  have hc : wordColumn w (ix2 p 0) = w (ix1 p) := by rw [wordColumn_apply, Cert.IndexRange.wrap_of_inRange hw]
  have h1 : IntOp.andi (IntOp.cmpi .sge (wordColumn w (ix2 p 0)) 0#32) (IntOp.cmpi .sle (wordColumn w (ix2 p 0)) 8191#32) = 1#1 := by
    rw [hc, Cert.IndexRange.sge_zero_of_inRange hw, Cert.IndexRange.sle_max_of_inRange hw]; rfl
  rw [select_apply, repeat3_apply, inTable_apply, gather_apply, h1, select_one]
  refine congrArg tbl (congrArg (ix2 k) (Fin.ext ?_))
  show min (wordColumn w (ix2 p 0)).toInt.toNat 8191 = min (Cert.PairSpec.wrap (w (ix1 p))).toInt.toNat 8191
  rw [wordColumn_apply]

/-- A padded index array reshaped to rows: lane `l` of row `r` is the index array's word `r · 128 + l`. -/
theorem idx_entry (idx : S33550336.Idx → BitVec 32) (v : S_.Idx → BitVec 32) (hp : S33550336.Pads (![0] : Fin 1 → Nat) ![4096] ![0] S33554432)
    (hu : 0 < S_.numel) (hs : S33554432.ShapeCasts S262144x128)
    (a0 : S33554432.Idx → BitVec 32) (a7 : S262144x128.Idx → BitVec 32)
    (h0 : a0 = pad S33554432 ![0] ![4096] ![0] idx v hp hu) (h7 : a7 = shapeCast S262144x128 a0 hs)
    (r : Fin 262144) (l : Fin 128) (h : r.val * 128 + l.val < 33550336) :
    a7 (ix2 r l) = idx (ix1 ⟨r.val * 128 + l.val, h⟩) := by
  subst h0 h7
  rw [rows_apply]
  exact pad_end_apply_lt idx v hp hu _ h

/-- The table read at a padded index array whose words are in range, reshaped to rows: row `k`, lane `l` of row `r` is
    coordinate `k` of the table's row that word `r · 128 + l` names. -/
theorem take_entry (tbl : S8192x3.Idx → α) (idx : S33550336.Idx → BitVec 32) (v : S_.Idx → BitVec 32)
    (hp : S33550336.Pads (![0] : Fin 1 → Nat) ![4096] ![0] S33554432) (hu : 0 < S_.numel)
    (ht : S8192x3.Transposes [1, 0] S3x8192) (hs : S3x33554432.ShapeCasts S3x262144x128)
    (a0 : S33554432.Idx → BitVec 32) (a2 : S3x8192.Idx → α) (a5 : S33554432x1.Idx → BitVec 32) (a12 : S33554432.Idx → BitVec 1)
    (a14 : S3x33554432.Idx → BitVec 1) (a13 a15 a3 : S3x33554432.Idx → α) (a4 : S3x262144x128.Idx → α)
    (h0 : a0 = pad S33554432 ![0] ![4096] ![0] idx v hp hu) (h2 : a2 = transpose S3x8192 [1, 0] tbl ht)
    (h5 : a5 = wordColumn a0) (h12 : a12 = inTable a5)
    (h13 : a13 = Host.gather gather_S3x8192_S33554432x1_S3x33554432_0_1_n_n_1_1_31 a2 a5)
    (h14 : a14 = broadcastInDim S3x33554432 ![1] bcast_S33554432_S3x33554432_1 a12)
    (h3 : a3 = select a14 a13 a15) (h4 : a4 = shapeCast S3x262144x128 a3 hs)
    (hin : ∀ i, Cert.PairSpec.InRange (idx i)) (k : Fin 3) (r : Fin 262144) (l : Fin 128) (h : r.val * 128 + l.val < 33550336) :
    a4 (ix3 k r l) = tbl (ix2 (Cert.PairSpec.row (idx (ix1 ⟨r.val * 128 + l.val, h⟩))) k) := by
  subst h4 h3 h14 h13 h12 h5
  rw [rows3_apply]
  have hw : a0 (ix1 ⟨r.val * 128 + l.val, by omega⟩) = idx (ix1 ⟨r.val * 128 + l.val, h⟩) := by
    rw [h0]; exact pad_end_apply_lt idx v hp hu _ h
  refine (takeRows_apply a2 a15 a0 k _ (by rw [hw]; exact hin _)).trans ?_
  rw [hw, h2]
  exact transpose_ix2_apply tbl ht k _

end Take

/-! ## The program's arrays, each as one operation of the arrays it reads -/

/-- Rewrites the contents at a reference, after the operations before the call, to the operations' results over the
    launch contents. -/
local macro "host_results" : tactic => `(tactic| (
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp))

set_option maxHeartbeats 4000000 in
/-- The position table transposed. -/
theorem main_v2_eq : (V m c main_v2 : S3x8192.Idx → F .f32) = transpose S3x8192 [1, 0] (tableArg m c) transposes_S8192x3_S3x8192_1_0 := by
  host_results

set_option maxHeartbeats 4000000 in
/-- The index array padded to a whole number of rows. -/
theorem main_v0_eq : (V m c main_v0 : S33554432.Idx → BitVec 32)
    = pad S33554432 ![0] ![4096] ![0] (idxIArg m c) (constantI S_ 32 0#32) pads_S33550336_S33554432_040960 h_S_ := by
  host_results
  rfl

set_option maxHeartbeats 4000000 in
/-- Its words, wrapped, as one column. -/
theorem main_call2_v5_eq : (V m c main_call2_v5 : S33554432x1.Idx → BitVec 32) = wordColumn (V m c main_v0 : S33554432.Idx → BitVec 32) := by
  host_results
  rfl

set_option maxHeartbeats 4000000 in
/-- The test of the column's words. -/
theorem main_call2_v12_eq : (V m c main_call2_v12 : S33554432.Idx → BitVec 1) = inTable (V m c main_call2_v5 : S33554432x1.Idx → BitVec 32) := by
  host_results
  simp only [StableHlo.TRef.ofBuf, StableHlo.TRef.toBuf, cast_eq]
  unfold inTable
  rfl

set_option maxHeartbeats 4000000 in
/-- The transposed table gathered at the column. -/
theorem main_call2_v13_eq : (V m c main_call2_v13 : S3x33554432.Idx → F .f32)
    = Host.gather gather_S3x8192_S33554432x1_S3x33554432_0_1_n_n_1_1_31 (V m c main_v2 : S3x8192.Idx → F .f32)
        (V m c main_call2_v5 : S33554432x1.Idx → BitVec 32) := by
  host_results
  rfl

set_option maxHeartbeats 4000000 in
/-- The test repeated down the three rows. -/
theorem main_call2_v14_eq : (V m c main_call2_v14 : S3x33554432.Idx → BitVec 1)
    = broadcastInDim S3x33554432 ![1] bcast_S33554432_S3x33554432_1 (V m c main_call2_v12 : S33554432.Idx → BitVec 1) := by
  host_results
  generalize (Host.reduce IntOp.andi _ _ reducesTo_S33554432x1_S33554432_d1 h_S_ : S33554432.Idx → BitVec 1) = R
  rfl

set_option maxHeartbeats 4000000 in
/-- The read: the gathered value where the test passes, the fill value elsewhere. -/
theorem main_v3_eq : (V m c main_v3 : S3x33554432.Idx → F .f32)
    = select (V m c main_call2_v14 : S3x33554432.Idx → BitVec 1) (V m c main_call2_v13 : S3x33554432.Idx → F .f32)
        (V m c main_call2_v15 : S3x33554432.Idx → F .f32) := by
  host_results
  generalize (Host.reduce IntOp.andi _ _ reducesTo_S33554432x1_S33554432_d1 h_S_ : S33554432.Idx → BitVec 1) = R
  rfl

set_option maxHeartbeats 4000000 in
/-- The read reshaped to rows of 128 lanes. -/
theorem main_v4_eq : (V m c main_v4 : S3x262144x128.Idx → F .f32)
    = shapeCast S3x262144x128 (V m c main_v3 : S3x33554432.Idx → F .f32) shapeCasts_S3x33554432_S3x262144x128 := by
  host_results
  rfl

set_option maxHeartbeats 4000000 in
/-- The padded index array reshaped to rows of 128 lanes. -/
theorem main_v7_eq : (V m c main_v7 : S262144x128.Idx → BitVec 32)
    = shapeCast S262144x128 (V m c main_v0 : S33554432.Idx → BitVec 32) shapeCasts_S33554432_S262144x128 := by
  host_results
  rfl

set_option maxHeartbeats 4000000 in
/-- The index array padded to a whole number of rows. -/
theorem main_v1_eq : (V m c main_v1 : S33554432.Idx → BitVec 32)
    = pad S33554432 ![0] ![4096] ![0] (idxJArg m c) (constantI S_ 32 0#32) pads_S33550336_S33554432_040960 h_S_ := by
  host_results
  rfl

set_option maxHeartbeats 4000000 in
/-- Its words, wrapped, as one column. -/
theorem main_call3_v5_eq : (V m c main_call3_v5 : S33554432x1.Idx → BitVec 32) = wordColumn (V m c main_v1 : S33554432.Idx → BitVec 32) := by
  host_results
  rfl

set_option maxHeartbeats 4000000 in
/-- The test of the column's words. -/
theorem main_call3_v12_eq : (V m c main_call3_v12 : S33554432.Idx → BitVec 1) = inTable (V m c main_call3_v5 : S33554432x1.Idx → BitVec 32) := by
  host_results
  simp only [StableHlo.TRef.ofBuf, StableHlo.TRef.toBuf, cast_eq]
  unfold inTable
  rfl

set_option maxHeartbeats 4000000 in
/-- The transposed table gathered at the column. -/
theorem main_call3_v13_eq : (V m c main_call3_v13 : S3x33554432.Idx → F .f32)
    = Host.gather gather_S3x8192_S33554432x1_S3x33554432_0_1_n_n_1_1_31 (V m c main_v2 : S3x8192.Idx → F .f32)
        (V m c main_call3_v5 : S33554432x1.Idx → BitVec 32) := by
  host_results
  rfl

set_option maxHeartbeats 4000000 in
/-- The test repeated down the three rows. -/
theorem main_call3_v14_eq : (V m c main_call3_v14 : S3x33554432.Idx → BitVec 1)
    = broadcastInDim S3x33554432 ![1] bcast_S33554432_S3x33554432_1 (V m c main_call3_v12 : S33554432.Idx → BitVec 1) := by
  host_results
  generalize (Host.reduce IntOp.andi _ _ reducesTo_S33554432x1_S33554432_d1 h_S_ : S33554432.Idx → BitVec 1) = R
  rfl

set_option maxHeartbeats 4000000 in
/-- The read: the gathered value where the test passes, the fill value elsewhere. -/
theorem main_v5_eq : (V m c main_v5 : S3x33554432.Idx → F .f32)
    = select (V m c main_call3_v14 : S3x33554432.Idx → BitVec 1) (V m c main_call3_v13 : S3x33554432.Idx → F .f32)
        (V m c main_call3_v15 : S3x33554432.Idx → F .f32) := by
  host_results
  generalize (Host.reduce IntOp.andi _ _ reducesTo_S33554432x1_S33554432_d1 h_S_ : S33554432.Idx → BitVec 1) = R
  rfl

set_option maxHeartbeats 4000000 in
/-- The read reshaped to rows of 128 lanes. -/
theorem main_v6_eq : (V m c main_v6 : S3x262144x128.Idx → F .f32)
    = shapeCast S3x262144x128 (V m c main_v5 : S3x33554432.Idx → F .f32) shapeCasts_S3x33554432_S3x262144x128 := by
  host_results
  rfl

set_option maxHeartbeats 4000000 in
/-- The padded index array reshaped to rows of 128 lanes. -/
theorem main_v8_eq : (V m c main_v8 : S262144x128.Idx → BitVec 32)
    = shapeCast S262144x128 (V m c main_v1 : S33554432.Idx → BitVec 32) shapeCasts_S33554432_S262144x128 := by
  host_results
  rfl

/-! ## The four arrays at the call's entry -/

theorem entry_idxI (r : Fin 262144) (l : Fin 128) (h : r.val * 128 + l.val < 33550336) :
    (V m c main_v7 : S262144x128.Idx → BitVec 32) (ix2 r l) = idxIArg m c (ix1 ⟨r.val * 128 + l.val, h⟩) :=
  idx_entry (idxIArg m c) _ _ _ _ _ _ (main_v0_eq m c) (main_v7_eq m c) r l h

theorem entry_idxJ (r : Fin 262144) (l : Fin 128) (h : r.val * 128 + l.val < 33550336) :
    (V m c main_v8 : S262144x128.Idx → BitVec 32) (ix2 r l) = idxJArg m c (ix1 ⟨r.val * 128 + l.val, h⟩) :=
  idx_entry (idxJArg m c) _ _ _ _ _ _ (main_v1_eq m c) (main_v8_eq m c) r l h

theorem entry_posI (hI : ∀ i, Cert.PairSpec.InRange (idxIArg m c i)) (k : Fin 3) (r : Fin 262144) (l : Fin 128) (h : r.val * 128 + l.val < 33550336) :
    (V m c main_v4 : S3x262144x128.Idx → F .f32) (ix3 k r l) = tableArg m c (ix2 (Cert.PairSpec.row (idxIArg m c (ix1 ⟨r.val * 128 + l.val, h⟩))) k) :=
  take_entry (tableArg m c) (idxIArg m c) _ _ _ _ _ _ _ _ _ _ _ _ _ _ (main_v0_eq m c) (main_v2_eq m c) (main_call2_v5_eq m c) (main_call2_v12_eq m c)
    (main_call2_v13_eq m c) (main_call2_v14_eq m c) (main_v3_eq m c) (main_v4_eq m c) hI k r l h

theorem entry_posJ (hJ : ∀ i, Cert.PairSpec.InRange (idxJArg m c i)) (k : Fin 3) (r : Fin 262144) (l : Fin 128) (h : r.val * 128 + l.val < 33550336) :
    (V m c main_v6 : S3x262144x128.Idx → F .f32) (ix3 k r l) = tableArg m c (ix2 (Cert.PairSpec.row (idxJArg m c (ix1 ⟨r.val * 128 + l.val, h⟩))) k) :=
  take_entry (tableArg m c) (idxJArg m c) _ _ _ _ _ _ _ _ _ _ _ _ _ _ (main_v1_eq m c) (main_v2_eq m c) (main_call3_v5_eq m c) (main_call3_v12_eq m c)
    (main_call3_v13_eq m c) (main_call3_v14_eq m c) (main_v5_eq m c) (main_v6_eq m c) hJ k r l h

end Cert.KernelIdeal.EntryArrays

end
-- ==== Proof.LibNary3.lean ====
import Idealize.ShloMosaic.Lib.StableHlo.Run

noncomputable section

namespace Idealize.ShloMosaic.StableHlo

open Idealize.SL.Sem

variable {τ : Topo} {sig : RefSig} {Val : EltTy → Type}

section Nary3

variable {x a b y : Ref sig .tc}

/-- An operation over a LITERAL family of three operand references (a concatenation of three operands,
    `nary ![x, a, b] …`) leaves at its result reference its function's value at the three operands' contents, each
    read AT ITS OWN REFERENCE: `Fin.cons (F ↑x) (Fin.cons (F ↑a) (Fin.cons (F ↑b) _))` in place of
    `fun k => F ↑(![x, a, b] k)`. Under the binder the reference `![x, a, b] k` is no literal, so the operands'
    contents could not be read further; here each is. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- `nary3_result` with the result reference left out of the rewriting index, for use as a simplification rule. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Nary3

end Idealize.ShloMosaic.StableHlo

end
-- ==== Proof.HostTail.lean ====
/-
  The host operations after the call, read at an index. Each of the call's six result arrays, 262144 rows of 128 lanes,
  is flattened to 33,554,432 entries (entry `p` is lane `p % 128` of row `p / 128`); the three displacement components are
  made columns and laid side by side, so that entry `(p, k)` of the stacked array is entry `p` of component `k`; and the
  4096 entries of padding at the end are cut off, which moves no entry.
-/
import proofs.«416389_j14388140442044_3_alg».proof.Proof.PairFrameIdeal
import proofs.«416389_j14388140442044_3_alg».proof.Proof.LibNary3
import Idealize.ShloMosaic.Lib.ValueIdx
import Idealize.ShloMosaic.Lib.Pipeline.Value
import Idealize.ShloMosaic.Lib.StableHlo.Run

set_option maxRecDepth 16384

noncomputable section

namespace Cert.KernelIdeal.HostTail

open Cert.KernelIdeal Cert.KernelIdeal.Gen Cert.KernelIdeal.PairFrame
open Idealize.ShloMosaic Idealize.ShloMosaic.TcCoe Idealize.ShloMosaic.ValueIdx Idealize.ShloMosaic.StableHlo
open Idealize.SL.Sem
open Idealize.ShloMosaic.Pipeline (Dat)

variable {F : FTy → Type} [FloatOps F]

/-! ## The layout, over any arrays -/

section Layout

variable {α : Type}

/-- An array of rows of lanes, flattened, with the padding cut off. -/
def flatCut (a : S262144x128.Idx → α) : S33550336.Idx → α :=
  extractStridedSlice S33550336 ![0] (shapeCast S33554432 a shapeCasts_S262144x128_S33554432) slices_S33554432_S33550336_0

/-- A flattened array as one column. -/
abbrev col (a : S262144x128.Idx → α) : S33554432x1.Idx → α :=
  broadcastInDim S33554432x1 ![0] bcast_S33554432_S33554432x1_0 (shapeCast S33554432 a shapeCasts_S262144x128_S33554432)

/-- Three such arrays, flattened, made columns, laid side by side, with the padding cut off. -/
def stacked (a0 a1 a2 : S262144x128.Idx → α) : S33550336x3.Idx → α :=
  extractStridedSlice S33550336x3 ![0, 0]
    (concatenate S33554432x3 1 [⟨S33554432x1, col a0⟩, ⟨S33554432x1, col a1⟩, ⟨S33554432x1, col a2⟩]
      concatenates_S33554432x1_S33554432x1_S33554432x1_S33554432x3_d1)
    slices_S33554432x3_S33550336x3_0_0

/-- Entry `p` of a flattened array is lane `p % 128` of row `p / 128`. -/
theorem flat_apply (a : S262144x128.Idx → α) (q : Fin 33554432) :
    shapeCast S33554432 a shapeCasts_S262144x128_S33554432 (ix1 q)
      = a (ix2 (⟨q.val / 128, by omega⟩ : Fin 262144) (⟨q.val % 128, by omega⟩ : Fin 128)) := by
  refine shapeCast_apply a _ (ix1 q) _ ?_
  rw [Shape.rowMajor_val_two, Shape.rowMajor_val_one]
  show q.val / 128 * 128 + q.val % 128 = q.val
  omega

theorem flatCut_apply (a : S262144x128.Idx → α) (p : Fin 33550336) :
    flatCut a (ix1 p) = a (ix2 (⟨p.val / 128, by omega⟩ : Fin 262144) (⟨p.val % 128, by omega⟩ : Fin 128)) := by
  unfold flatCut
  refine (extractStridedSlice_apply ![0] _ _ (ix1 p) (ix1 (⟨p.val, by omega⟩ : Fin 33554432)) ?_).trans ?_
  · intro a'; match a' with
    | ⟨0, _⟩ => show p.val = 0 + p.val; omega
  · exact flat_apply a ⟨p.val, by omega⟩

/-- Entry `(p, k)` of the stacked array is entry `p` of component `k`. -/
theorem stacked_apply0 (a0 a1 a2 : S262144x128.Idx → α) (p : Fin 33550336) :
    stacked a0 a1 a2 (ix2 p (0 : Fin 3)) = a0 (ix2 (⟨p.val / 128, by omega⟩ : Fin 262144) (⟨p.val % 128, by omega⟩ : Fin 128)) := by
  unfold stacked
  refine (extractStridedSlice_apply ![0, 0] _ _ (ix2 p (0 : Fin 3)) (ix2 (⟨p.val, by omega⟩ : Fin 33554432) (0 : Fin 3)) ?_).trans ?_
  · intro a'; match a' with
    | ⟨0, _⟩ => show p.val = 0 + p.val; omega
    | ⟨1, _⟩ => show 0 = 0 + 0; rfl
  refine (concatenate_apply_piece (1 : Fin 2) _ _ (ix2 (⟨p.val, by omega⟩ : Fin 33554432) (0 : Fin 3)) 0 ?_ S33554432x1 (col a0) ?_ rfl 0 ?_
    (ix2 (⟨p.val, by omega⟩ : Fin 33554432) (0 : Fin 1)) ?_ ?_).trans ?_
  · show 0 < 3; decide
  · rfl
  · rfl
  · intro b hb; match b with
    | ⟨0, _⟩ => rfl
    | ⟨1, _⟩ => exact absurd rfl hb
  · show 0 + 0 = 0; rfl
  refine (broadcastInDim_apply ![0] _ _ (ix2 (⟨p.val, by omega⟩ : Fin 33554432) (0 : Fin 1)) (ix1 (⟨p.val, by omega⟩ : Fin 33554432)) ?_).trans ?_
  · intro a'; match a' with
    | ⟨0, _⟩ => show p.val = if (33554432 : Nat) = 1 then 0 else p.val; rw [if_neg (by decide)]
  exact flat_apply a0 ⟨p.val, by omega⟩

theorem stacked_apply1 (a0 a1 a2 : S262144x128.Idx → α) (p : Fin 33550336) :
    stacked a0 a1 a2 (ix2 p (1 : Fin 3)) = a1 (ix2 (⟨p.val / 128, by omega⟩ : Fin 262144) (⟨p.val % 128, by omega⟩ : Fin 128)) := by
  unfold stacked
  refine (extractStridedSlice_apply ![0, 0] _ _ (ix2 p (1 : Fin 3)) (ix2 (⟨p.val, by omega⟩ : Fin 33554432) (1 : Fin 3)) ?_).trans ?_
  · intro a'; match a' with
    | ⟨0, _⟩ => show p.val = 0 + p.val; omega
    | ⟨1, _⟩ => show 1 = 0 + 1; rfl
  refine (concatenate_apply_piece (1 : Fin 2) _ _ (ix2 (⟨p.val, by omega⟩ : Fin 33554432) (1 : Fin 3)) 1 ?_ S33554432x1 (col a1) ?_ rfl 1 ?_
    (ix2 (⟨p.val, by omega⟩ : Fin 33554432) (0 : Fin 1)) ?_ ?_).trans ?_
  · show 1 < 3; decide
  · rfl
  · rfl
  · intro b hb; match b with
    | ⟨0, _⟩ => rfl
    | ⟨1, _⟩ => exact absurd rfl hb
  · show 1 + 0 = 1; rfl
  refine (broadcastInDim_apply ![0] _ _ (ix2 (⟨p.val, by omega⟩ : Fin 33554432) (0 : Fin 1)) (ix1 (⟨p.val, by omega⟩ : Fin 33554432)) ?_).trans ?_
  · intro a'; match a' with
    | ⟨0, _⟩ => show p.val = if (33554432 : Nat) = 1 then 0 else p.val; rw [if_neg (by decide)]
  exact flat_apply a1 ⟨p.val, by omega⟩

theorem stacked_apply2 (a0 a1 a2 : S262144x128.Idx → α) (p : Fin 33550336) :
    stacked a0 a1 a2 (ix2 p (2 : Fin 3)) = a2 (ix2 (⟨p.val / 128, by omega⟩ : Fin 262144) (⟨p.val % 128, by omega⟩ : Fin 128)) := by
  unfold stacked
  refine (extractStridedSlice_apply ![0, 0] _ _ (ix2 p (2 : Fin 3)) (ix2 (⟨p.val, by omega⟩ : Fin 33554432) (2 : Fin 3)) ?_).trans ?_
  · intro a'; match a' with
    | ⟨0, _⟩ => show p.val = 0 + p.val; omega
    | ⟨1, _⟩ => show 2 = 0 + 2; rfl
  refine (concatenate_apply_piece (1 : Fin 2) _ _ (ix2 (⟨p.val, by omega⟩ : Fin 33554432) (2 : Fin 3)) 2 ?_ S33554432x1 (col a2) ?_ rfl 2 ?_
    (ix2 (⟨p.val, by omega⟩ : Fin 33554432) (0 : Fin 1)) ?_ ?_).trans ?_
  · show 2 < 3; decide
  · rfl
  · rfl
  · intro b hb; match b with
    | ⟨0, _⟩ => rfl
    | ⟨1, _⟩ => exact absurd rfl hb
  · show 2 + 0 = 2; rfl
  refine (broadcastInDim_apply ![0] _ _ (ix2 (⟨p.val, by omega⟩ : Fin 33554432) (0 : Fin 1)) (ix1 (⟨p.val, by omega⟩ : Fin 33554432)) ?_).trans ?_
  · intro a'; match a' with
    | ⟨0, _⟩ => show p.val = if (33554432 : Nat) = 1 then 0 else p.val; rw [if_neg (by decide)]
  exact flat_apply a2 ⟨p.val, by omega⟩

end Layout

/-! ## The four results -/

/-- The results of a literal list of host operations, one rewrite at a time: each operation's result at its own
    reference is its function of its operands' contents, at any other reference what was there; a concatenation of
    three operands is read operand by operand. -/
local macro "tail_results" : tactic =>
  `(tactic| (simp only [after_cons, after_nil]
             repeat (first
               | rw [nullary_result] | rw [unary_result] | rw [binary_result] | rw [ternary_result]
               | rw [reshape_result] | rw [nary3_result] | rw [nary_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

/-- Over ANY contents of the buffers before them, the host operations after the call leave at the displacement result
    the stacking of what the call's three displacement arrays held. -/
theorem diff_of (W : Valuation τ sig (Elt F)) :
    StableHlo.after hostOps1 W (Proc.devRef .tc main_v17)
      = stacked (α := F .f32) (W (Proc.devRef .tc main_v9_0)) (W (Proc.devRef .tc main_v9_1)) (W (Proc.devRef .tc main_v9_2)) := by
  tail_results
  rfl

/-- At the distance result, the flattening of what the call's distance array held. -/
theorem dist_of (W : Valuation τ sig (Elt F)) :
    StableHlo.after hostOps1 W (Proc.devRef .tc main_v19) = flatCut (α := F .f32) (W (Proc.devRef .tc main_v9_3)) := by
  tail_results
  rfl

/-- At the two index results, the flattenings of what the call's two index arrays held. -/
theorem pairI_of (W : Valuation τ sig (Elt F)) :
    StableHlo.after hostOps1 W (Proc.devRef .tc main_v21) = flatCut (α := BitVec 32) (W (Proc.devRef .tc main_v9_4)) := by
  tail_results
  rfl
theorem pairJ_of (W : Valuation τ sig (Elt F)) :
    StableHlo.after hostOps1 W (Proc.devRef .tc main_v23) = flatCut (α := BitVec 32) (W (Proc.devRef .tc main_v9_5)) := by
  tail_results
  rfl

end Cert.KernelIdeal.HostTail

end
-- ==== Proof.KernelIsSpec.lean ====
/-
  The kernel program computes the specification: with every index word in range, each of its four results is the
  specification's array of the four argument arrays.

  Lane `l` of row `R` of each of the call's arrays belongs to pair number `R · 128 + l`. At grid point `t` the body stores,
  at lane `l` of row `r` of each result block, the specification's value for the pair of lane `l` of row `t · 2048 + r`:
  the cell block is the cell, the two coordinate blocks there are the two table rows the pair's index words select (the
  words being in range), the two index blocks the words themselves. The blocks cover the result arrays, so every element
  of a result array is the specification's value for its pair; the host operations after the call flatten the arrays
  (entry `p` is lane `p % 128` of row `p / 128`, pair number `p` again), stack the three displacement components and cut off
  the padding.
-/
import proofs.«416389_j14388140442044_3_alg».proof.Proof.PairFrameIdeal
import proofs.«416389_j14388140442044_3_alg».proof.Proof.BlockReads
import proofs.«416389_j14388140442044_3_alg».proof.Proof.FinalArrays
import proofs.«416389_j14388140442044_3_alg».proof.Proof.BodyAtIndex
import proofs.«416389_j14388140442044_3_alg».proof.Proof.EntryArrays
import proofs.«416389_j14388140442044_3_alg».proof.Proof.HostTail
import proofs.«416389_j14388140442044_3_alg».proof.Proof.IndexRange
import proofs.«416389_j14388140442044_3_alg».proof.Proof.PairSpec
import Idealize.ShloMosaic.Lib.ValueIdx
import Idealize.ShloMosaic.Lib.Pipeline.Value

set_option maxRecDepth 16384

noncomputable section

namespace Cert.KernelIdeal.KernelIsSpec

open Cert.KernelIdeal Cert.KernelIdeal.Gen Cert.KernelIdeal.PairFrame Cert.KernelIdeal.BlockReads
open Idealize.ShloMosaic Idealize.ShloMosaic.TcCoe Idealize.ShloMosaic.ValueIdx
open Idealize.SL.Sem
open Idealize.ShloMosaic.Pipeline (Dat)
open Cert.PairSpec

variable (m : (ℓ : Loc nD τ sig) → Buf (Elt Ideal) ℓ) (c : Dev nD)

/-- The four argument arrays as launched. -/
abbrev xyzA : STable.Idx → EReal := m ((c.tc : Thread nD τ).loc main_arg0)
abbrev cellA : SCell.Idx → EReal := m ((c.tc : Thread nD τ).loc main_arg1)
abbrev iiA : SPairs.Idx → BitVec 32 := m ((c.tc : Thread nD τ).loc main_arg2)
abbrev jjA : SPairs.Idx → BitVec 32 := m ((c.tc : Thread nD τ).loc main_arg3)

/-! ## What a grid point stores at a lane -/

section Stored

/-- The cell block is the cell. -/
theorem cell_eq (t : Fin cfg0.N) : BodyAtIndex.cellOf (iblk m c 4 t) = cellAt (cellA m c) := by
  funext s u
  exact (cell_blk m c t s u).trans (congrFun (V_main_arg1 m c) (ix2 s u))

/-- The first coordinate block at a lane is the table row the pair's first index word selects. -/
theorem posI_eq (hI : ∀ i, InRange (iiA m c i)) (t : Fin cfg0.N) (r : Fin 2048) (l : Fin 128) (h : (rowAt t r).val * 128 + l.val < 33550336) : BodyAtIndex.posI (iblk m c 0 t) r l = posOf (xyzA m c) (iiA m c (ix1 ⟨(rowAt t r).val * 128 + l.val, h⟩)) := by
  funext k
  exact (posI_blk m c t k r l).trans (EntryArrays.entry_posI m c hI k (rowAt t r) l h)

/-- The second coordinate block at a lane is the table row the pair's second index word selects. -/
theorem posJ_eq (hJ : ∀ i, InRange (jjA m c i)) (t : Fin cfg0.N) (r : Fin 2048) (l : Fin 128) (h : (rowAt t r).val * 128 + l.val < 33550336) : BodyAtIndex.posJ (iblk m c 1 t) r l = posOf (xyzA m c) (jjA m c (ix1 ⟨(rowAt t r).val * 128 + l.val, h⟩)) := by
  funext k
  exact (posJ_blk m c t k r l).trans (EntryArrays.entry_posJ m c hJ k (rowAt t r) l h)

/-- The index blocks at a lane are the pair's index words. -/
theorem idxI_eq (t : Fin cfg0.N) (r : Fin 2048) (l : Fin 128) (h : (rowAt t r).val * 128 + l.val < 33550336) : iblk m c 2 t (ix2 r l) = iiA m c (ix1 ⟨(rowAt t r).val * 128 + l.val, h⟩) :=
  (idxI_blk m c t r l).trans (EntryArrays.entry_idxI m c (rowAt t r) l h)
theorem idxJ_eq (t : Fin cfg0.N) (r : Fin 2048) (l : Fin 128) (h : (rowAt t r).val * 128 + l.val < 33550336) : iblk m c 3 t (ix2 r l) = jjA m c (ix1 ⟨(rowAt t r).val * 128 + l.val, h⟩) :=
  (idxJ_blk m c t r l).trans (EntryArrays.entry_idxJ m c (rowAt t r) l h)

/-- The three displacement blocks hold the pair's reduced displacement where the pair is near, else zero. -/
theorem dx_stored (hI : ∀ i, InRange (iiA m c i)) (hJ : ∀ i, InRange (jjA m c i)) (t : Fin cfg0.N) (r : Fin 2048) (l : Fin 128) (h : (rowAt t r).val * 128 + l.val < 33550336) : outDx (iblk m c 0 t) (iblk m c 1 t) (iblk m c 4 t) (ix2 r l) = diffAt (xyzA m c) (cellA m c) (iiA m c) (jjA m c) ⟨(rowAt t r).val * 128 + l.val, h⟩ 0 := by
  refine (BodyAtIndex.outDx_at (iblk m c 0 t) (iblk m c 1 t) (iblk m c 4 t) r l).trans ?_
  rw [cell_eq m c t, posI_eq m c hI t r l h, posJ_eq m c hJ t r l h]
  rfl
theorem dy_stored (hI : ∀ i, InRange (iiA m c i)) (hJ : ∀ i, InRange (jjA m c i)) (t : Fin cfg0.N) (r : Fin 2048) (l : Fin 128) (h : (rowAt t r).val * 128 + l.val < 33550336) : outDy (iblk m c 0 t) (iblk m c 1 t) (iblk m c 4 t) (ix2 r l) = diffAt (xyzA m c) (cellA m c) (iiA m c) (jjA m c) ⟨(rowAt t r).val * 128 + l.val, h⟩ 1 := by
  refine (BodyAtIndex.outDy_at (iblk m c 0 t) (iblk m c 1 t) (iblk m c 4 t) r l).trans ?_
  rw [cell_eq m c t, posI_eq m c hI t r l h, posJ_eq m c hJ t r l h]
  rfl
theorem dz_stored (hI : ∀ i, InRange (iiA m c i)) (hJ : ∀ i, InRange (jjA m c i)) (t : Fin cfg0.N) (r : Fin 2048) (l : Fin 128) (h : (rowAt t r).val * 128 + l.val < 33550336) : outDz (iblk m c 0 t) (iblk m c 1 t) (iblk m c 4 t) (ix2 r l) = diffAt (xyzA m c) (cellA m c) (iiA m c) (jjA m c) ⟨(rowAt t r).val * 128 + l.val, h⟩ 2 := by
  refine (BodyAtIndex.outDz_at (iblk m c 0 t) (iblk m c 1 t) (iblk m c 4 t) r l).trans ?_
  rw [cell_eq m c t, posI_eq m c hI t r l h, posJ_eq m c hJ t r l h]
  rfl
/-- The distance block holds the pair's distance where the pair is near, else zero. -/
theorem dist_stored (hI : ∀ i, InRange (iiA m c i)) (hJ : ∀ i, InRange (jjA m c i)) (t : Fin cfg0.N) (r : Fin 2048) (l : Fin 128) (h : (rowAt t r).val * 128 + l.val < 33550336) : outDist (iblk m c 0 t) (iblk m c 1 t) (iblk m c 4 t) (ix2 r l) = pdistAt (xyzA m c) (cellA m c) (iiA m c) (jjA m c) ⟨(rowAt t r).val * 128 + l.val, h⟩ := by
  refine (BodyAtIndex.outDist_at (iblk m c 0 t) (iblk m c 1 t) (iblk m c 4 t) r l).trans ?_
  rw [cell_eq m c t, posI_eq m c hI t r l h, posJ_eq m c hJ t r l h]
  rfl
/-- The two index blocks hold the pair's index words where the pair is near, else `-1`. -/
theorem pairI_stored (hI : ∀ i, InRange (iiA m c i)) (hJ : ∀ i, InRange (jjA m c i)) (t : Fin cfg0.N) (r : Fin 2048) (l : Fin 128) (h : (rowAt t r).val * 128 + l.val < 33550336) : outI (iblk m c 0 t) (iblk m c 1 t) (iblk m c 4 t) (iblk m c 2 t) (ix2 r l) = pairIAt (xyzA m c) (cellA m c) (iiA m c) (jjA m c) ⟨(rowAt t r).val * 128 + l.val, h⟩ := by
  refine (BodyAtIndex.outI_at (iblk m c 0 t) (iblk m c 1 t) (iblk m c 4 t) (iblk m c 2 t) r l).trans ?_
  rw [cell_eq m c t, posI_eq m c hI t r l h, posJ_eq m c hJ t r l h, idxI_eq m c t r l h]
  rfl
theorem pairJ_stored (hI : ∀ i, InRange (iiA m c i)) (hJ : ∀ i, InRange (jjA m c i)) (t : Fin cfg0.N) (r : Fin 2048) (l : Fin 128) (h : (rowAt t r).val * 128 + l.val < 33550336) : outJ (iblk m c 0 t) (iblk m c 1 t) (iblk m c 4 t) (iblk m c 3 t) (ix2 r l) = pairJAt (xyzA m c) (cellA m c) (iiA m c) (jjA m c) ⟨(rowAt t r).val * 128 + l.val, h⟩ := by
  refine (BodyAtIndex.outJ_at (iblk m c 0 t) (iblk m c 1 t) (iblk m c 4 t) (iblk m c 3 t) r l).trans ?_
  rw [cell_eq m c t, posI_eq m c hI t r l h, posJ_eq m c hJ t r l h, idxJ_eq m c t r l h]
  rfl

end Stored

/-! ## Every element of the call's result arrays -/

section Final

/-- The pair number of a position of a result array. -/
abbrev pairOf (i : S262144x128.Idx) : Nat := (i 0).val * 128 + (i 1).val

theorem final_dx (hI : ∀ i, InRange (iiA m c i)) (hJ : ∀ i, InRange (jjA m c i)) (i : S262144x128.Idx) (h : pairOf i < 33550336) :
    ((dats m 0 c).arrAt 5 cfg0.N : S262144x128.Idx → EReal) i = diffAt (xyzA m c) (cellA m c) (iiA m c) (jjA m c) ⟨pairOf i, h⟩ 0 :=
  FinalArrays.dx_forall m c (fun i v => ∀ h : pairOf i < 33550336, v = diffAt (xyzA m c) (cellA m c) (iiA m c) (jjA m c) ⟨pairOf i, h⟩ 0)
    (fun t r l h => dx_stored m c hI hJ t r l h) i h
theorem final_dy (hI : ∀ i, InRange (iiA m c i)) (hJ : ∀ i, InRange (jjA m c i)) (i : S262144x128.Idx) (h : pairOf i < 33550336) :
    ((dats m 0 c).arrAt 6 cfg0.N : S262144x128.Idx → EReal) i = diffAt (xyzA m c) (cellA m c) (iiA m c) (jjA m c) ⟨pairOf i, h⟩ 1 :=
  FinalArrays.dy_forall m c (fun i v => ∀ h : pairOf i < 33550336, v = diffAt (xyzA m c) (cellA m c) (iiA m c) (jjA m c) ⟨pairOf i, h⟩ 1)
    (fun t r l h => dy_stored m c hI hJ t r l h) i h
theorem final_dz (hI : ∀ i, InRange (iiA m c i)) (hJ : ∀ i, InRange (jjA m c i)) (i : S262144x128.Idx) (h : pairOf i < 33550336) :
    ((dats m 0 c).arrAt 7 cfg0.N : S262144x128.Idx → EReal) i = diffAt (xyzA m c) (cellA m c) (iiA m c) (jjA m c) ⟨pairOf i, h⟩ 2 :=
  FinalArrays.dz_forall m c (fun i v => ∀ h : pairOf i < 33550336, v = diffAt (xyzA m c) (cellA m c) (iiA m c) (jjA m c) ⟨pairOf i, h⟩ 2)
    (fun t r l h => dz_stored m c hI hJ t r l h) i h
theorem final_dist (hI : ∀ i, InRange (iiA m c i)) (hJ : ∀ i, InRange (jjA m c i)) (i : S262144x128.Idx) (h : pairOf i < 33550336) :
    ((dats m 0 c).arrAt 8 cfg0.N : S262144x128.Idx → EReal) i = pdistAt (xyzA m c) (cellA m c) (iiA m c) (jjA m c) ⟨pairOf i, h⟩ :=
  FinalArrays.dist_forall m c (fun i v => ∀ h : pairOf i < 33550336, v = pdistAt (xyzA m c) (cellA m c) (iiA m c) (jjA m c) ⟨pairOf i, h⟩)
    (fun t r l h => dist_stored m c hI hJ t r l h) i h
theorem final_pairI (hI : ∀ i, InRange (iiA m c i)) (hJ : ∀ i, InRange (jjA m c i)) (i : S262144x128.Idx) (h : pairOf i < 33550336) :
    ((dats m 0 c).arrAt 9 cfg0.N : S262144x128.Idx → BitVec 32) i = pairIAt (xyzA m c) (cellA m c) (iiA m c) (jjA m c) ⟨pairOf i, h⟩ :=
  FinalArrays.pairI_forall m c (fun i v => ∀ h : pairOf i < 33550336, v = pairIAt (xyzA m c) (cellA m c) (iiA m c) (jjA m c) ⟨pairOf i, h⟩)
    (fun t r l h => pairI_stored m c hI hJ t r l h) i h
theorem final_pairJ (hI : ∀ i, InRange (iiA m c i)) (hJ : ∀ i, InRange (jjA m c i)) (i : S262144x128.Idx) (h : pairOf i < 33550336) :
    ((dats m 0 c).arrAt 10 cfg0.N : S262144x128.Idx → BitVec 32) i = pairJAt (xyzA m c) (cellA m c) (iiA m c) (jjA m c) ⟨pairOf i, h⟩ :=
  FinalArrays.pairJ_forall m c (fun i v => ∀ h : pairOf i < 33550336, v = pairJAt (xyzA m c) (cellA m c) (iiA m c) (jjA m c) ⟨pairOf i, h⟩)
    (fun t r l h => pairJ_stored m c hI hJ t r l h) i h

end Final

/-! ## The four results -/

section Results

/-- What the buffers hold after the call, before the host operations that follow it: the call's arrays at what the proof
    data computes, every other buffer as the call found it. -/
abbrev afterCall : Valuation τ sig (Elt Ideal) := (Pipeline.withArrays spec0 c (V0 m c) fun w => (dats m 0 c).arrAt w cfg0.N)

/-- The call's six result arrays, read out of it. -/
theorem arr5 : afterCall m c (Proc.devRef .tc main_v9_0) = (dats m 0 c).arrAt 5 cfg0.N := Pipeline.withArrays_arr spec0 launch0.win.arr_inj c _ _ 5
theorem arr6 : afterCall m c (Proc.devRef .tc main_v9_1) = (dats m 0 c).arrAt 6 cfg0.N := Pipeline.withArrays_arr spec0 launch0.win.arr_inj c _ _ 6
theorem arr7 : afterCall m c (Proc.devRef .tc main_v9_2) = (dats m 0 c).arrAt 7 cfg0.N := Pipeline.withArrays_arr spec0 launch0.win.arr_inj c _ _ 7
theorem arr8 : afterCall m c (Proc.devRef .tc main_v9_3) = (dats m 0 c).arrAt 8 cfg0.N := Pipeline.withArrays_arr spec0 launch0.win.arr_inj c _ _ 8
theorem arr9 : afterCall m c (Proc.devRef .tc main_v9_4) = (dats m 0 c).arrAt 9 cfg0.N := Pipeline.withArrays_arr spec0 launch0.win.arr_inj c _ _ 9
theorem arr10 : afterCall m c (Proc.devRef .tc main_v9_5) = (dats m 0 c).arrAt 10 cfg0.N := Pipeline.withArrays_arr spec0 launch0.win.arr_inj c _ _ 10

/-- Entry `p` of a flattened array is lane `p % 128` of row `p / 128`, whose pair number is `p` again. -/
theorem pair_back (p : Fin 33550336) : pairOf (ix2 (⟨p.val / 128, by omega⟩ : Fin 262144) (⟨p.val % 128, by omega⟩ : Fin 128)) = p.val := by
  show p.val / 128 * 128 + p.val % 128 = p.val
  omega

/-- The displacement result. -/
theorem res_diff (hI : ∀ i, InRange (iiA m c i)) (hJ : ∀ i, InRange (jjA m c i)) : Pipeline.afterTail₀ cfgs (dats m) 0 (V0 m) [hostOps1] c main_v17 = diff (xyzA m c) (cellA m c) (iiA m c) (jjA m c) := by
  unfold Pipeline.afterTail₀
  refine (HostTail.diff_of (afterCall m c)).trans ?_
  funext i
  obtain ⟨p, k, rfl⟩ : ∃ (p : Fin 33550336) (k : Fin 3), i = ix2 p k := ⟨i 0, i 1, eq_ix2 i⟩
  have hp : pairOf (ix2 (⟨p.val / 128, by omega⟩ : Fin 262144) (⟨p.val % 128, by omega⟩ : Fin 128)) < 33550336 := by rw [pair_back]; exact p.isLt
  have hq : (⟨pairOf (ix2 (⟨p.val / 128, by omega⟩ : Fin 262144) (⟨p.val % 128, by omega⟩ : Fin 128)), hp⟩ : Fin 33550336) = p := Fin.ext (pair_back p)
  match k with
  | ⟨0, _⟩ =>
    refine (HostTail.stacked_apply0 _ _ _ p).trans ((congrFun (arr5 m c) _).trans ((final_dx m c hI hJ _ hp).trans ?_))
    rw [hq]; rfl
  | ⟨1, _⟩ =>
    refine (HostTail.stacked_apply1 _ _ _ p).trans ((congrFun (arr6 m c) _).trans ((final_dy m c hI hJ _ hp).trans ?_))
    rw [hq]; rfl
  | ⟨2, _⟩ =>
    refine (HostTail.stacked_apply2 _ _ _ p).trans ((congrFun (arr7 m c) _).trans ((final_dz m c hI hJ _ hp).trans ?_))
    rw [hq]; rfl

/-- The distance result. -/
theorem res_pdist (hI : ∀ i, InRange (iiA m c i)) (hJ : ∀ i, InRange (jjA m c i)) : Pipeline.afterTail₀ cfgs (dats m) 0 (V0 m) [hostOps1] c main_v19 = pdist (xyzA m c) (cellA m c) (iiA m c) (jjA m c) := by
  unfold Pipeline.afterTail₀
  refine (HostTail.dist_of (afterCall m c)).trans ?_
  funext i
  obtain ⟨p, rfl⟩ : ∃ p : Fin 33550336, i = ix1 p := ⟨i 0, eq_ix1 i⟩
  have hp : pairOf (ix2 (⟨p.val / 128, by omega⟩ : Fin 262144) (⟨p.val % 128, by omega⟩ : Fin 128)) < 33550336 := by rw [pair_back]; exact p.isLt
  have hq : (⟨pairOf (ix2 (⟨p.val / 128, by omega⟩ : Fin 262144) (⟨p.val % 128, by omega⟩ : Fin 128)), hp⟩ : Fin 33550336) = p := Fin.ext (pair_back p)
  refine (HostTail.flatCut_apply _ p).trans ((congrFun (arr8 m c) _).trans ((final_dist m c hI hJ _ hp).trans ?_))
  rw [hq]; rfl

/-- The two index results. -/
theorem res_pairI (hI : ∀ i, InRange (iiA m c i)) (hJ : ∀ i, InRange (jjA m c i)) : Pipeline.afterTail₀ cfgs (dats m) 0 (V0 m) [hostOps1] c main_v21 = pairI (xyzA m c) (cellA m c) (iiA m c) (jjA m c) := by
  unfold Pipeline.afterTail₀
  refine (HostTail.pairI_of (afterCall m c)).trans ?_
  funext i
  obtain ⟨p, rfl⟩ : ∃ p : Fin 33550336, i = ix1 p := ⟨i 0, eq_ix1 i⟩
  have hp : pairOf (ix2 (⟨p.val / 128, by omega⟩ : Fin 262144) (⟨p.val % 128, by omega⟩ : Fin 128)) < 33550336 := by rw [pair_back]; exact p.isLt
  have hq : (⟨pairOf (ix2 (⟨p.val / 128, by omega⟩ : Fin 262144) (⟨p.val % 128, by omega⟩ : Fin 128)), hp⟩ : Fin 33550336) = p := Fin.ext (pair_back p)
  refine (HostTail.flatCut_apply _ p).trans ((congrFun (arr9 m c) _).trans ((final_pairI m c hI hJ _ hp).trans ?_))
  rw [hq]; rfl
theorem res_pairJ (hI : ∀ i, InRange (iiA m c i)) (hJ : ∀ i, InRange (jjA m c i)) : Pipeline.afterTail₀ cfgs (dats m) 0 (V0 m) [hostOps1] c main_v23 = pairJ (xyzA m c) (cellA m c) (iiA m c) (jjA m c) := by
  unfold Pipeline.afterTail₀
  refine (HostTail.pairJ_of (afterCall m c)).trans ?_
  funext i
  obtain ⟨p, rfl⟩ : ∃ p : Fin 33550336, i = ix1 p := ⟨i 0, eq_ix1 i⟩
  have hp : pairOf (ix2 (⟨p.val / 128, by omega⟩ : Fin 262144) (⟨p.val % 128, by omega⟩ : Fin 128)) < 33550336 := by rw [pair_back]; exact p.isLt
  have hq : (⟨pairOf (ix2 (⟨p.val / 128, by omega⟩ : Fin 262144) (⟨p.val % 128, by omega⟩ : Fin 128)), hp⟩ : Fin 33550336) = p := Fin.ext (pair_back p)
  refine (HostTail.flatCut_apply _ p).trans ((congrFun (arr10 m c) _).trans ((final_pairJ m c hI hJ _ hp).trans ?_))
  rw [hq]; rfl

end Results

/-! ## The run -/

/-- With every index word in range: every weakly fair execution of the kernel program terminates with its four results
    at the specification's arrays of the arguments, and the arguments as launched. -/
theorem run (ρ : Dev nD → PrngReg) (hI : ∀ c i, InRange (iiA m c i)) (hJ : ∀ c i, InRange (jjA m c i)) :
    θ_run defs (onTc (τ := τ) (main (F := Ideal))) ⟨m, fun _ => 0, ρ⟩ (fun r => ∀ c : Dev nD,
      r.2.mem ((c.tc : Thread nD τ).loc main_v21) = pairI (xyzA m c) (cellA m c) (iiA m c) (jjA m c)
      ∧ r.2.mem ((c.tc : Thread nD τ).loc main_v23) = pairJ (xyzA m c) (cellA m c) (iiA m c) (jjA m c)
      ∧ r.2.mem ((c.tc : Thread nD τ).loc main_v17) = diff (xyzA m c) (cellA m c) (iiA m c) (jjA m c)
      ∧ r.2.mem ((c.tc : Thread nD τ).loc main_v19) = pdist (xyzA m c) (cellA m c) (iiA m c) (jjA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v21 (Pipeline.mem_restRefs_of main_v21 (by decide) (by decide))).trans (res_pairI m c (hI c) (hJ c)),
     ((h c).2 main_v23 (Pipeline.mem_restRefs_of main_v23 (by decide) (by decide))).trans (res_pairJ m c (hI c) (hJ c)),
     ((h c).2 main_v17 (Pipeline.mem_restRefs_of main_v17 (by decide) (by decide))).trans (res_diff m c (hI c) (hJ c)),
     ((h c).2 main_v19 (Pipeline.mem_restRefs_of main_v19 (by decide) (by decide))).trans (res_pdist m c (hI c) (hJ c)),
     ((h c).2 main_arg0 (Pipeline.mem_restRefs_of main_arg0 (by decide) (by decide))).trans (W_main_arg0 m (dats m) c),
     ((h c).1 4).trans ((((dats m) 0 c).arrAt_in 4 rfl _).trans ((A_eq m c 4).trans (V_main_arg1 m c))),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.KernelIsSpec

end
-- ==== Proof.ReferenceIsSpec.lean ====
/-
  The reference program computes the specification: each of its four results, read back from its run, is the
  specification's function of the four argument arrays, pair by pair.
-/
import proofs.«416389_j14388140442044_3_alg».proof.Proof.Gen.ReferenceIdeal.Run
import proofs.«416389_j14388140442044_3_alg».proof.Proof.Gen.ReferenceIdeal.Read
import proofs.«416389_j14388140442044_3_alg».proof.Proof.PairSpec
import Idealize.ShloMosaic.Lib.ValueIdx
import Idealize.ShloMosaic.Lib.Pipeline.Value
import Idealize.ShloMosaic.PureOps.Ideal.Laws
import Mathlib.Algebra.BigOperators.Fin

noncomputable section

namespace Cert.ReferenceIdeal.RefIsSpec
open Idealize.ShloMosaic Idealize.SL.Sem Cert.ReferenceIdeal Cert.ReferenceIdeal.Value
open Cert.ReferenceIdeal.Gen Cert.ReferenceIdeal.Read Idealize.ShloMosaic.ValueIdx Cert.PairSpec

/-! ## The table lookup read at an entry

The reference reads row `w` of the table by a gather whose start indices are the column `[P, 1]` of wrapped words: result
entry `(p, k)` is the table at row "word `p`, read signed and clamped into `0 … 8191`" and column `k`. -/

section Gather
variable {α : Type}

local notation "gd" => gather_S8192x3_S33550336x1_S33550336x3_1_0_n_n_0_1_13

/-- The start-index entry that result entry `(p, k)` reads: row `p` of the one column. -/
theorem gather_siIdx (p : Fin 33550336) (k : Fin 3) (c : Fin (gd).startIndexMap.length) :
    (gd).siIdx (ix2 p k) c = ix2 p (0 : Fin 1) := by
  funext b
  refine Fin.ext ?_
  match b with
  | ⟨0, _⟩ => rfl
  | ⟨1, _⟩ =>
    have hc : c.val < 1 := c.isLt
    show c.val = 0
    omega

/-- The gather at `(p, k)`: the table at the clamped row the start index names, column `k`. -/
theorem gather_row_apply (x : S8192x3.Idx → α) (idx : IVec S33550336x1 32) (p : Fin 33550336) (k : Fin 3) :
    Host.gather (gd) x idx (ix2 p k)
      = x (ix2 (⟨min (idx (ix2 p (0 : Fin 1))).toInt.toNat 8191, by omega⟩ : Fin 8192) k) := by
  unfold Host.gather
  refine congrArg x (funext fun a => Fin.ext ?_)
  match a with
  | ⟨0, _⟩ =>
    show (gd).start (ix2 p k) idx 0 + (gd).batchCoord (ix2 p k) 0 + (gd).offCoord (ix2 p k) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (gd).startIndexMap from List.mem_singleton.mpr rfl), gather_siIdx]
    rfl
  | ⟨1, _⟩ =>
    show (gd).start (ix2 p k) idx 1 + (gd).batchCoord (ix2 p k) 1 + (gd).offCoord (ix2 p k) 1 = _
    rw [GatherDims.batchCoord_eq_zero _ _ _ List.not_mem_nil]
    unfold GatherDims.start
    rw [dif_neg (show ¬ (1 : Fin 2) ∈ (gd).startIndexMap by decide)]
    unfold GatherDims.offCoord
    rw [dif_pos (show (1 : Fin 2) ∈ (gd).sKept by decide)]
    have hax : ∀ h, (gd).offsetDims[List.idxOf (1 : Fin 2) (gd).sKept]'h = (1 : Fin 2) := by decide
    rw [hax]
    show 0 + 0 + k.val = k.val
    omega

end Gather

/-! ## A reshape of the one-entry array to a scalar, and the minimum-image step on whole arrays -/

/-- A `[1, 1]` array reshaped to a scalar holds its one entry. -/
theorem shapeCast_one_entry {α : Type} (y : S1x1.Idx → α) :
    shapeCast S_ y shapeCasts_S1x1_S_ ix0 = y (ix2 (0 : Fin 1) (0 : Fin 1)) := by
  refine shapeCast_apply y shapeCasts_S1x1_S_ ix0 (ix2 (0 : Fin 1) (0 : Fin 1)) ?_
  rw [Shape.rowMajor_val_two]
  exact (Shape.rowMajorPi_zero _ _).symm

/-- ONE minimum-image step on whole arrays, read at entry `(p, j)`: when the quotient's operands `q`, `c` hold the
    displacement's `k`-th component and the cell's diagonal entry `k`, and `r` holds the cell's row `k`, the array
    `D - round (q / c) * r` is `PairSpec.step` of pair `p`'s displacement. -/
theorem step_read (cl : Fin 3 → Fin 3 → EReal) (k : Fin 3)
    (D r : FVec Ideal S33550336x3 .f32) (q c : FVec Ideal S33550336x1 .f32)
    (hq : ∀ p : Fin 33550336, q (ix2 p (0 : Fin 1)) = D (ix2 p k)) (hc : ∀ p : Fin 33550336, c (ix2 p (0 : Fin 1)) = cl k k)
    (hr : ∀ (p : Fin 33550336) (j : Fin 3), r (ix2 p j) = cl k j) (p : Fin 33550336) (j : Fin 3) :
    subf D (mulf (broadcastInDim S33550336x3 ![0, 1] bcast_S33550336x1_S33550336x3_0_1
        (Host.roundeven (Host.divf (F := Ideal) q c))) r) (ix2 p j)
      = step cl k (fun j => D (ix2 p j)) j := by
  rw [subf_apply, mulf_apply,
    broadcastInDim_apply _ bcast_S33550336x1_S33550336x3_0_1 _ (ix2 p j) (ix2 p (0 : Fin 1)) (fun a => match a with
      | ⟨0, _⟩ => by show p.val = if (33550336 : Nat) = 1 then 0 else p.val; rw [if_neg (by decide)]
      | ⟨1, _⟩ => by show 0 = if (1 : Nat) = 1 then 0 else j.val; rw [if_pos rfl])]
  show D (ix2 p j) - Ideal.liftRound Ideal.roundHalfEven (Ideal.div (q (ix2 p 0)) (c (ix2 p 0))) * r (ix2 p j) = _
  rw [hq, hc, hr]
  rfl

/-! ## The reference's stages at a pair -/

section Stages

variable (x0 : (⟨S8192x3, .f32⟩ : BufTy).Contents (Elt Ideal)) (x1 : (⟨S3x3, .f32⟩ : BufTy).Contents (Elt Ideal))
  (x2 x3 : (⟨S33550336, .i32⟩ : BufTy).Contents (Elt Ideal))

/-- The column of start indices holds pair `p`'s wrapped first word … -/
theorem start_first (p : Fin 33550336) : val_main_v5 (F := Ideal) x2 (ix2 p (0 : Fin 1)) = wrap (x2 (ix1 p)) := by
  rw [val_main_v5_apply, show idx_main_v5 (ix2 p (0 : Fin 1)) = ix1 p from funext fun a => match a with | ⟨0, _⟩ => rfl,
    val_main_v4_apply, val_main_v1_apply, val_main_v3_apply, val_main_v0_apply, val_main_v2_apply, val_main_c_apply,
    val_main_c_0_apply]
  rfl

/-- … and the other column its wrapped second word. -/
theorem start_second (p : Fin 33550336) : val_main_v12 (F := Ideal) x3 (ix2 p (0 : Fin 1)) = wrap (x3 (ix1 p)) := by
  rw [val_main_v12_apply, show idx_main_v12 (ix2 p (0 : Fin 1)) = ix1 p from funext fun a => match a with | ⟨0, _⟩ => rfl,
    val_main_v11_apply, val_main_v8_apply, val_main_v10_apply, val_main_v7_apply, val_main_v9_apply, val_main_c_1_apply,
    val_main_c_2_apply]
  rfl

/-- The first lookup is the position the first word selects. -/
theorem pos_first (p : Fin 33550336) (k : Fin 3) : val_main_v6 (F := Ideal) x0 x2 (ix2 p k) = posOf x0 (x2 (ix1 p)) k := by
  unfold val_main_v6
  refine (gather_row_apply x0 (val_main_v5 (F := Ideal) x2) p k).trans ?_
  simp only [start_first]
  rfl

/-- The second lookup is the position the second word selects. -/
theorem pos_second (p : Fin 33550336) (k : Fin 3) : val_main_v13 (F := Ideal) x0 x3 (ix2 p k) = posOf x0 (x3 (ix1 p)) k := by
  unfold val_main_v13
  refine (gather_row_apply x0 (val_main_v12 (F := Ideal) x3) p k).trans ?_
  simp only [start_second]
  rfl

/-- The raw displacement. -/
theorem raw_at (p : Fin 33550336) (k : Fin 3) :
    val_main_v14 (F := Ideal) x0 x2 x3 (ix2 p k) = posOf x0 (x2 (ix1 p)) k - posOf x0 (x3 (ix1 p)) k := by
  rw [val_main_v14_apply, pos_first, pos_second, Ideal.subf_def]

end Stages

section Cell

variable (x1 : (⟨S3x3, .f32⟩ : BufTy).Contents (Elt Ideal))

/-- The divisor of the step along z is the cell's diagonal entry 2, at every pair … -/
theorem diag_z (i : S33550336x1.Idx) : val_main_v18 (F := Ideal) x1 i = cellAt x1 2 2 := by
  rw [val_main_v18_apply]
  unfold val_main_v17
  refine (shapeCast_one_entry _).trans ?_
  rw [val_main_v16_apply]
  exact congrArg x1 (funext fun a => Fin.ext (by match a with | ⟨0, _⟩ => rfl | ⟨1, _⟩ => rfl))

/-- … along y the diagonal entry 1 … -/
theorem diag_y (i : S33550336x1.Idx) : val_main_v31 (F := Ideal) x1 i = cellAt x1 1 1 := by
  rw [val_main_v31_apply]
  unfold val_main_v30
  refine (shapeCast_one_entry _).trans ?_
  rw [val_main_v29_apply]
  exact congrArg x1 (funext fun a => Fin.ext (by match a with | ⟨0, _⟩ => rfl | ⟨1, _⟩ => rfl))

/-- … and along x the diagonal entry 0. -/
theorem diag_x (i : S33550336x1.Idx) : val_main_v44 (F := Ideal) x1 i = cellAt x1 0 0 := by
  rw [val_main_v44_apply]
  unfold val_main_v43
  refine (shapeCast_one_entry _).trans ?_
  rw [val_main_v42_apply]
  exact congrArg x1 (funext fun a => Fin.ext (by match a with | ⟨0, _⟩ => rfl | ⟨1, _⟩ => rfl))

/-- The multiplier of the step along z is the cell's row 2, at every pair … -/
theorem row_z (p : Fin 33550336) (j : Fin 3) : val_main_v25 (F := Ideal) x1 (ix2 p j) = cellAt x1 2 j := by
  rw [val_main_v25_apply, val_main_v23_apply, val_main_v22_apply, val_main_v21_apply]
  exact congrArg x1 (funext fun a => Fin.ext (by
    match a with
    | ⟨0, _⟩ => rfl
    | ⟨1, _⟩ => show j.val % 3 = j.val; omega))

/-- … along y the row 1 … -/
theorem row_y (p : Fin 33550336) (j : Fin 3) : val_main_v38 (F := Ideal) x1 (ix2 p j) = cellAt x1 1 j := by
  rw [val_main_v38_apply, val_main_v36_apply, val_main_v35_apply, val_main_v34_apply]
  exact congrArg x1 (funext fun a => Fin.ext (by
    match a with
    | ⟨0, _⟩ => rfl
    | ⟨1, _⟩ => show j.val % 3 = j.val; omega))

/-- … and along x the row 0. -/
theorem row_x (p : Fin 33550336) (j : Fin 3) : val_main_v51 (F := Ideal) x1 (ix2 p j) = cellAt x1 0 j := by
  rw [val_main_v51_apply, val_main_v49_apply, val_main_v48_apply, val_main_v47_apply]
  exact congrArg x1 (funext fun a => Fin.ext (by
    match a with
    | ⟨0, _⟩ => rfl
    | ⟨1, _⟩ => show j.val % 3 = j.val; omega))

end Cell

section Steps

variable (x0 : (⟨S8192x3, .f32⟩ : BufTy).Contents (Elt Ideal)) (x1 : (⟨S3x3, .f32⟩ : BufTy).Contents (Elt Ideal))
  (x2 x3 : (⟨S33550336, .i32⟩ : BufTy).Contents (Elt Ideal))

/-- The displacement after the step along z. -/
theorem after_z (p : Fin 33550336) (j : Fin 3) :
    val_main_v27 (F := Ideal) x0 x1 x2 x3 (ix2 p j)
      = step (cellAt x1) 2 (fun j => val_main_v14 (F := Ideal) x0 x2 x3 (ix2 p j)) j := by
  unfold val_main_v27 val_main_v26 val_main_v24 val_main_v20 val_main_v19
  exact step_read (cellAt x1) 2 _ _ _ _
    (fun p => by
      rw [val_main_v15_apply]
      exact congrArg _ (funext fun a => Fin.ext (by match a with | ⟨0, _⟩ => rfl | ⟨1, _⟩ => rfl)))
    (fun p => diag_z x1 _) (fun p j => row_z x1 p j) p j

/-- The displacement after the steps along z and y. -/
theorem after_y (p : Fin 33550336) (j : Fin 3) :
    val_main_v40 (F := Ideal) x0 x1 x2 x3 (ix2 p j)
      = step (cellAt x1) 1 (fun j => val_main_v27 (F := Ideal) x0 x1 x2 x3 (ix2 p j)) j := by
  unfold val_main_v40 val_main_v39 val_main_v37 val_main_v33 val_main_v32
  exact step_read (cellAt x1) 1 _ _ _ _
    (fun p => by
      rw [val_main_v28_apply]
      exact congrArg _ (funext fun a => Fin.ext (by match a with | ⟨0, _⟩ => rfl | ⟨1, _⟩ => rfl)))
    (fun p => diag_y x1 _) (fun p j => row_y x1 p j) p j

/-- The displacement after the steps along z, y and x. -/
theorem after_x (p : Fin 33550336) (j : Fin 3) :
    val_main_v53 (F := Ideal) x0 x1 x2 x3 (ix2 p j)
      = step (cellAt x1) 0 (fun j => val_main_v40 (F := Ideal) x0 x1 x2 x3 (ix2 p j)) j := by
  unfold val_main_v53 val_main_v52 val_main_v50 val_main_v46 val_main_v45
  exact step_read (cellAt x1) 0 _ _ _ _
    (fun p => by
      rw [val_main_v41_apply]
      exact congrArg _ (funext fun a => Fin.ext (by match a with | ⟨0, _⟩ => rfl | ⟨1, _⟩ => rfl)))
    (fun p => diag_x x1 _) (fun p j => row_x x1 p j) p j

/-- The reduced displacement. -/
theorem reduced_at (p : Fin 33550336) (j : Fin 3) :
    val_main_v53 (F := Ideal) x0 x1 x2 x3 (ix2 p j) = reducedAt x0 x1 x2 x3 p j := by
  rw [after_x]
  simp only [after_y, after_z, raw_at]
  rfl

/-- The sum of the reduced components' squares. -/
theorem sumsq_at (p : Fin 33550336) :
    val_main_v55 (F := Ideal) x0 x1 x2 x3 (ix1 p)
      = reducedAt x0 x1 x2 x3 p 0 * reducedAt x0 x1 x2 x3 p 0 + reducedAt x0 x1 x2 x3 p 1 * reducedAt x0 x1 x2 x3 p 1
        + reducedAt x0 x1 x2 x3 p 2 * reducedAt x0 x1 x2 x3 p 2 := by
  have e : ∀ k : Fin 3, idx_main_v55 (ix1 p) k = ix2 p k := fun k =>
    funext fun a => Fin.ext (by match a with | ⟨0, _⟩ => rfl | ⟨1, _⟩ => rfl)
  rw [val_main_v55_apply, Fin.sum_univ_three, val_main_cst_apply, Ideal.ofBits_def, Ideal.ofBits_zero_f32, zero_add,
    e, e, e, val_main_v54_apply, val_main_v54_apply, val_main_v54_apply]
  simp only [reduced_at, Ideal.mulf_def]

/-- The distance. -/
theorem dist_at (p : Fin 33550336) : val_main_v56 (F := Ideal) x0 x1 x2 x3 (ix1 p) = distAt x0 x1 x2 x3 p := by
  rw [val_main_v56_apply, sumsq_at, Ideal.hostUnary_sqrt_def]
  rfl

/-- The cutoff test. -/
theorem near_at (p : Fin 33550336) : val_main_v58 (F := Ideal) x0 x1 x2 x3 (ix1 p) = nearAt x0 x1 x2 x3 p := by
  rw [val_main_v58_apply, dist_at, val_main_v57_apply, val_main_cst_3_apply, Ideal.cmpf_def, Ideal.ofBits_def]
  rfl

end Steps

/-! ## The four results are the specification's arrays -/

section Results

variable (m : (ℓ : Loc nD τ sig) → Buf (Elt Ideal) ℓ) (c : Dev nD)

theorem res_pairI : res_main_v59 (F := Ideal) m c = Cert.PairSpec.pairI (m ((c.tc : Thread nD τ).loc main_arg0)) (m ((c.tc : Thread nD τ).loc main_arg1)) (m ((c.tc : Thread nD τ).loc main_arg2)) (m ((c.tc : Thread nD τ).loc main_arg3)) := by
  rw [val_main_v59_eq]
  funext i
  obtain ⟨p, rfl⟩ : ∃ p : Fin 33550336, i = ix1 p := ⟨i 0, eq_ix1 i⟩
  rw [val_main_v59_apply, near_at, val_main_call3_v0_apply, val_main_c_4_apply]
  rfl

theorem res_pairJ : res_main_v60 (F := Ideal) m c = Cert.PairSpec.pairJ (m ((c.tc : Thread nD τ).loc main_arg0)) (m ((c.tc : Thread nD τ).loc main_arg1)) (m ((c.tc : Thread nD τ).loc main_arg2)) (m ((c.tc : Thread nD τ).loc main_arg3)) := by
  rw [val_main_v60_eq]
  funext i
  obtain ⟨p, rfl⟩ : ∃ p : Fin 33550336, i = ix1 p := ⟨i 0, eq_ix1 i⟩
  rw [val_main_v60_apply, near_at, val_main_call4_v0_apply, val_main_c_5_apply]
  rfl

theorem res_diff : res_main_v62 (F := Ideal) m c = Cert.PairSpec.diff (m ((c.tc : Thread nD τ).loc main_arg0)) (m ((c.tc : Thread nD τ).loc main_arg1)) (m ((c.tc : Thread nD τ).loc main_arg2)) (m ((c.tc : Thread nD τ).loc main_arg3)) := by
  rw [val_main_v62_eq]
  funext i
  obtain ⟨p, k, rfl⟩ : ∃ (p : Fin 33550336) (k : Fin 3), i = ix2 p k := ⟨i 0, i 1, eq_ix2 i⟩
  rw [val_main_v62_apply, val_main_call5_v0_apply, val_main_v61_apply,
    show idx_main_v61 (idx_main_call5_v0 (ix2 p k)) = ix1 p from funext fun a => match a with | ⟨0, _⟩ => rfl,
    near_at, reduced_at, val_main_call5_v1_apply, val_main_cst_6_apply, Ideal.ofBits_def]
  rfl

theorem res_pdist : res_main_v63 (F := Ideal) m c = Cert.PairSpec.pdist (m ((c.tc : Thread nD τ).loc main_arg0)) (m ((c.tc : Thread nD τ).loc main_arg1)) (m ((c.tc : Thread nD τ).loc main_arg2)) (m ((c.tc : Thread nD τ).loc main_arg3)) := by
  rw [val_main_v63_eq]
  funext i
  obtain ⟨p, rfl⟩ : ∃ p : Fin 33550336, i = ix1 p := ⟨i 0, eq_ix1 i⟩
  rw [val_main_v63_apply, near_at, dist_at, val_main_call6_v0_apply, val_main_cst_7_apply, Ideal.ofBits_def]
  rfl

end Results

end Cert.ReferenceIdeal.RefIsSpec
end
-- ==== Proof.lean ====
/-
  The neighbour-pair kernel against its reference: for each of 33,550,336 candidate pairs of rows of a position table,
  the displacement of the two rows reduced by the minimum-image convention along z, y, x; its length; and, where the
  length is below five, the pair's two index words, the reduced displacement and the length — elsewhere `-1`, `-1`, zero and
  zero.

  Both programs are shown to compute ONE specification of the four argument arrays (Proof/PairSpec.lean). The reference
  does so for every input (Proof/ReferenceIsSpec.lean). The kernel program pads the index arrays, reads the transposed
  table at the padded words in a mode that yields not-a-number outside the table where the reference's read clamps, runs
  one pipelined call over 128 grid points whose body works lane by lane on blocks of 2048 rows of 128 lanes, and flattens,
  stacks and cuts its six results; with every index word in `0 … 8191` — the precondition says so — its reads are the
  reference's, and it computes the same specification (Proof/KernelIsSpec.lean, over the frame Proof/PairFrameIdeal.lean).
  Both kernel programs — the one read at words and its idealization, the same text — run to the end, fault nowhere and
  leave their arguments as launched (Proof/PairFrameBits.lean, Proof/PairFrameIdeal.lean); the idealization rewrote no
  operation, so there is nothing for it to preserve.
-/
import proofs.«416389_j14388140442044_3_alg».proof.Defs
import proofs.«416389_j14388140442044_3_alg».proof.Proof.PairFrameBits
import proofs.«416389_j14388140442044_3_alg».proof.Proof.PairFrameIdeal
import proofs.«416389_j14388140442044_3_alg».proof.Proof.KernelIsSpec
import proofs.«416389_j14388140442044_3_alg».proof.Proof.ReferenceIsSpec
import proofs.«416389_j14388140442044_3_alg».proof.Proof.IndexRange
import proofs.«416389_j14388140442044_3_alg».proof.Proof.Gen.Kernel
import proofs.«416389_j14388140442044_3_alg».proof.Proof.Gen.KernelIdeal
import proofs.«416389_j14388140442044_3_alg».proof.Proof.Gen.ReferenceIdeal
import proofs.«416389_j14388140442044_3_alg».proof.Proof.Gen.ReferenceIdeal.Run
import proofs.«416389_j14388140442044_3_alg».proof.Proof.Gen.Pre_finite_inputs
import Idealize.ShloMosaic.Adequacy
import Idealize.ShloMosaic.Init

noncomputable section

namespace Cert.Proof

open Idealize.ShloMosaic Idealize.SL.Sem

/-- The kernel program, read at words, runs and keeps its arguments. -/
theorem frame_k : Cert.frame_Kernel := fun m ρ _ => Cert.Kernel.PairFrame.frame m ρ

/-- So does its idealization. -/
theorem frame_ki : Cert.frame_KernelIdeal := fun m ρ _ => Cert.KernelIdeal.PairFrame.frame m ρ

/-- The reference runs and keeps its arguments: its run, with what it says of the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- From memories agreeing on the arguments, under the precondition, the two programs end with the same four results:
    the specification's arrays of the arguments. The precondition gives the index words' range, which the kernel
    program's table reads need; the reference needs nothing. -/
theorem algebraic : Cert.algebraic_KernelIdeal_ReferenceIdeal := by
  intro m ρ m' ρ' hpre hagree
  have hr : ∀ (c : Dev Cert.KernelIdeal.nD) i, Cert.PairSpec.InRange ((m ((c.tc : Thread Cert.KernelIdeal.nD Cert.KernelIdeal.τ).loc Cert.KernelIdeal.main_arg2)) i) ∧ Cert.PairSpec.InRange ((m ((c.tc : Thread Cert.KernelIdeal.nD Cert.KernelIdeal.τ).loc Cert.KernelIdeal.main_arg3)) i) :=
    fun c => Cert.IndexRange.inRange_of_pre _ _ _ _ (hpre c)
  refine ⟨fun c => Cert.PairSpec.pairI (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), fun c => Cert.PairSpec.pairJ (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.PairSpec.diff (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), fun c => Cert.PairSpec.pdist (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact Cert.KernelIdeal.KernelIsSpec.run m ρ (fun c i => (hr c i).1) (fun c i => (hr c i).2)
  · refine (θ_run Cert.ReferenceIdeal.defs _ _).mono (fun _ h c => ?_) (Cert.ReferenceIdeal.Value.run (F := Ideal) m' ρ')
    obtain ⟨h0, h1, h2, h3, hargs⟩ := h c
    obtain ⟨a0, a1, a2, a3⟩ := hagree c
    refine ⟨h0.trans ?_, h1.trans ?_, h2.trans ?_, h3.trans ?_, hargs⟩
    · rw [Cert.ReferenceIdeal.RefIsSpec.res_pairI, a0, a1, a2, a3]
    · rw [Cert.ReferenceIdeal.RefIsSpec.res_pairJ, a0, a1, a2, a3]
    · rw [Cert.ReferenceIdeal.RefIsSpec.res_diff, a0, a1, a2, a3]
    · rw [Cert.ReferenceIdeal.RefIsSpec.res_pdist, a0, a1, a2, a3]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
